-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S2000x1280 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S_ : Shape := ⟨0, ![]⟩
abbrev S1x1600000 : Shape := ⟨2, ![1, 1600000]⟩
abbrev S1600000 : Shape := ⟨1, ![1600000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_v8 : IVec S_ 1) (main_v17 : IVec S1600000 1) : IVec S_ 1 :=
  let main_c_4 : IVec S_ 1 := constantI S_ 1 1#1
  let main_v18 : IVec S_ 1 := (fun x v => Host.reduce IntOp.andi x v reducesTo_S1600000_S_d0 h_S_) main_v17 main_c_4
  let main_v19 : IVec S_ 1 := andi main_v8 main_v18
  main_v19

def fn {F : FTy → Type} [FloatOps F] (main_arg0 : FVec F S100000x64 .f32) (main_arg1 : FVec F S100000x64 .f32) (main_arg2 : IVec S2x1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : IVec S1x1600000 32 := (extractStridedSlice S1x1600000 ![0, 0] · slices_S2x1600000_S1x1600000_0_0) main_arg2
  let main_v10 : IVec S1600000 32 := shapeCast S1600000 main_v9 shapeCasts_S1x1600000_S1600000
  let main_c_2 : IVec S_ 32 := constantI S_ 32 0#32
  let main_v11 : IVec S1600000 32 := broadcastInDim S1600000 ![] bcast_S_S1600000 main_c_2
  let main_v12 : IVec S1600000 1 := cmpi .sge main_v10 main_v11
  let main_v13 : IVec S1x1600000 32 := (extractStridedSlice S1x1600000 ![0, 0] · slices_S2x1600000_S1x1600000_0_0) main_arg2
  let main_v14 : IVec S1600000 32 := shapeCast S1600000 main_v13 shapeCasts_S1x1600000_S1600000
  let main_c_3 : IVec S_ 32 := constantI S_ 32 100000#32
  let main_v15 : IVec S1600000 32 := broadcastInDim S1600000 ![] bcast_S_S1600000 main_c_3
  let main_v16 : IVec S1600000 1 := cmpi .slt main_v14 main_v15
  let main_v17 : IVec S1600000 1 := andi main_v12 main_v16
  fn_part1 (F := F) main_v8 main_v17
-- ==== Kernel.lean ====
abbrev S100000x64 : Shape := ⟨2, ![100000, 64]⟩
abbrev S2x1600000 : Shape := ⟨2, ![2, 1600000]⟩
abbrev S1x1600000 : Shape := ⟨2, ![1, 1600000]⟩
abbrev S1600000 : Shape := ⟨1, ![1600000]⟩
abbrev S1600000x1 : Shape := ⟨2, ![1600000, 1]⟩
abbrev S1600000x64 : Shape := ⟨2, ![1600000, 64]⟩
abbrev S2000x1 : Shape := ⟨2, ![2000, 1]⟩
abbrev S2000x64 : Shape := ⟨2, ![2000, 64]⟩
abbrev S1x2000 : Shape := ⟨2, ![1, 2000]⟩
abbrev S2000x2000 : Shape := ⟨2, ![2000, 2000]⟩
abbrev S1280x64 : Shape := ⟨2, ![1280, 64]⟩
abbrev S1x1280 : Shape := ⟨2, ![1, 1280]⟩
abbrev S2000x1280 : Shape := ⟨2, ![2000, 1280]⟩
abbrev S2000 : Shape := ⟨1, ![2000]⟩

abbrev nBuf : Space → Nat
  | .hbm => 11
  | .vmem => 17
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S2x1600000, .i32⟩
  | .hbm, ⟨3, _⟩ => ⟨S1x1600000, .i32⟩
  | .hbm, ⟨4, _⟩ => ⟨S1600000, .i32⟩
  | .hbm, ⟨5, _⟩ => ⟨S1x1600000, .i32⟩
  | .hbm, ⟨6, _⟩ => ⟨S1600000, .i32⟩
  | .hbm, ⟨7, _⟩ => ⟨S1600000x1, .i32⟩
  | .hbm, ⟨8, _⟩ => ⟨S1x1600000, .i32⟩
  | .hbm, ⟨9, _⟩ => ⟨S1600000x64, .bf16⟩
  | .hbm, ⟨10, _⟩ => ⟨S100000x64, .f32⟩
  | .local _ .vmem, ⟨0, _⟩ => ⟨S2000x1, .i32⟩
  | .local _ .vmem, ⟨1, _⟩ => ⟨S2000x1, .i32⟩
  | .local _ .vmem, ⟨2, _⟩ => ⟨S2000x64, .f32⟩
  | .local _ .vmem, ⟨3, _⟩ => ⟨S2000x64, .f32⟩
  | .local _ .vmem, ⟨4, _⟩ => ⟨S2000x64, .bf16⟩
  | .local _ .vmem, ⟨5, _⟩ => ⟨S2000x64, .bf16⟩
  | .local _ .vmem, ⟨6, _⟩ => ⟨S2000x64, .f32⟩
  | .local _ .vmem, ⟨7, _⟩ => ⟨S1280x64, .bf16⟩
  | .local _ .vmem, ⟨8, _⟩ => ⟨S1280x64, .bf16⟩
  | .local _ .vmem, ⟨9, _⟩ => ⟨S1x1280, .i32⟩
  | .local _ .vmem, ⟨10, _⟩ => ⟨S1x1280, .i32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc1_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![800, 50], ![false, false]⟩

def k0_cond2 (i : grid0.Coords) : BitVec 1 :=
  let arg1 : BitVec 32 := BitVec.ofNat 32 (i 1).val
  let c49_i32 : BitVec 32 := 49#32
  let v23 : BitVec 1 := Scalar.cmpi .eq arg1 c49_i32
  let v24 : BitVec 32 := Scalar.extui v23
  let c0_i32_8 : BitVec 32 := 0#32
  let v25 : BitVec 1 := Scalar.cmpi .ne v24 c0_i32_8
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![50, 1250], ![false, false]⟩

def k1_cond2 (i : grid1.Coords) : BitVec 1 :=
  let arg1 : BitVec 32 := BitVec.ofNat 32 (i 1).val
  let c1249_i32 : BitVec 32 := 1249#32
  let v31 : BitVec 1 := Scalar.cmpi .eq arg1 c1249_i32
  let v32 : BitVec 32 := Scalar.extui v31
  let c0_i32_13 : BitVec 32 := 0#32
  let v33 : BitVec 1 := Scalar.cmpi .ne v32 c0_i32_13
  v33

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1280x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x1280 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S1600000_S1600000x1 : S1600000.ShapeCasts S1600000x1
  shapeCasts_S1600000_S1x1600000 : S1600000.ShapeCasts S1x1600000
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  iota_S1x2000_d1_w32 : S1x2000.Iotas .tc 32 [1]
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x2000 : S2000x1.Broadcasts S2000x2000
  broadcasts_S1x2000_S2000x2000 : S1x2000.Broadcasts S2000x2000
  natLt_1_32 : 1 < 32
  bitsLt_bf16_f32 : FTy.bits .bf16 < FTy.bits .f32
  packedbf16_S2000x64_S2000x64_0_0 : (Rect.unit (s := S2000x64) ![0, 0] S2000x64.size inb_S2000x64_S2000x64_0_0).PackedRows (EltTy.packing .bf16)
  iota_S2000x1_d0_w32 : S2000x1.Iotas .tc 32 [0]
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S2000x1_S2000x1280 : S2000x1.Broadcasts S2000x1280
  broadcasts_S1x1280_S2000x1280 : S1x1280.Broadcasts S2000x1280
  inb_S1280x64_S1280x64_0_0 : ∀ a, (![0, 0] : Fin 2 → Nat) a + S1280x64.size a ≤ S1280x64.size a
  h_S1280x64 : 0 < S1280x64.numel
  shapeCasts_S1280x64_S1280x64 : S1280x64.ShapeCasts S1280x64
  reduces_S2000x1280_S2000 : S2000x1280.Reduces [1] S2000
  shapeCasts_S2000_S2000x1 : S2000.ShapeCasts S2000x1
  broadcasts_S2000x1_S2000x64 : S2000x1.Broadcasts S2000x64
  dot_S2000x2000_S2000x64_S2000x64_1_0_0_1_n_n_wf : DotDims.WF S2000x2000 S2000x64 S2000x64 [1] [0] [0] [1] [] []
  dot_S2000x1280_S1280x64_S2000x64_1_0_0_1_n_n_wf : DotDims.WF S2000x1280 S1280x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1.size a ≤ S1600000x1.size a
  hwx0_0 : ∀ i : grid0.Coords, EltTy.bits .i32 = 32 ∨ (Rect.block (s := S1600000x1) S2000x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S1600000x64.size a
  hwx0_2 : ∀ i : grid0.Coords, EltTy.bits .bf16 = 32 ∨ (Rect.block (s := S1600000x64) S2000x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1280x64.size a ≤ S1600000x64.size a
  hwx1_0 : ∀ i : grid1.Coords, EltTy.bits .bf16 = 32 ∨ (Rect.block (s := S1600000x64) S1280x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1280.size a ≤ S1x1600000.size a
  hwx1_1 : ∀ i : grid1.Coords, EltTy.bits .i32 = 32 ∨ (Rect.block (s := S1x1600000) S1x1280.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S100000x64.size a
  hwx1_3 : ∀ i : grid1.Coords, EltTy.bits .f32 = 32 ∨ (Rect.block (s := S100000x64) S2000x64.size (cc1_transform_3 i) (hinb1_3 i)).WholeWords (EltTy.packing .f32)

variable [Facts₀]

def dot_S2000x2000_S2000x64_S2000x64_1_0_0_1_n_n : DotDims S2000x2000 S2000x64 S2000x64 where
  lhsContracting := [1]
  rhsContracting := [0]
  lhsNonContracting := [0]
  rhsNonContracting := [1]
  lhsBatch := []
  rhsBatch := []
  wf := dot_S2000x2000_S2000x64_S2000x64_1_0_0_1_n_n_wf
def dot_S2000x1280_S1280x64_S2000x64_1_0_0_1_n_n : DotDims S2000x1280 S1280x64 S2000x64 where
  lhsContracting := [1]
  rhsContracting := [0]
  lhsNonContracting := [0]
  rhsNonContracting := [1]
  lhsBatch := []
  rhsBatch := []
  wf := dot_S2000x1280_S1280x64_S2000x64_1_0_0_1_n_n_wf

abbrev win0_0 : Pipeline.Window sig grid0 :=
  Pipeline.Window.ofSpec (Memref.whole main_v4) S2000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v6) S1280x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x1280.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S2000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S100000x64 : Shape := ⟨2, ![100000, 64]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩

abbrev nBuf : Space → Nat
  | .hbm => 33
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S2x1600000, .i32⟩
  | .hbm, ⟨3, _⟩ => ⟨S1x1600000, .i32⟩
  | .hbm, ⟨4, _⟩ => ⟨S1600000, .i32⟩
  | .hbm, ⟨5, _⟩ => ⟨S1x1600000, .i32⟩
  | .hbm, ⟨6, _⟩ => ⟨S1600000, .i32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x64, .f32⟩
  | .hbm, ⟨16, _⟩ => ⟨S_, .f32⟩
  | .hbm, ⟨17, _⟩ => ⟨S100000x64, .f32⟩
  | .hbm, ⟨18, _⟩ => ⟨S1600000x1, .i32⟩
  | .hbm, ⟨19, _⟩ => ⟨S100000x64, .f32⟩
  | .hbm, ⟨20, _⟩ => ⟨S_, .f32⟩
  | .hbm, ⟨21, _⟩ => ⟨S1600000, .f32⟩
  | .hbm, ⟨22, _⟩ => ⟨S_, .f32⟩
  | .hbm, ⟨23, _⟩ => ⟨S100000, .f32⟩
  | .hbm, ⟨24, _⟩ => ⟨S1600000x1, .i32⟩
  | .hbm, ⟨25, _⟩ => ⟨S100000, .f32⟩
  | .hbm, ⟨26, _⟩ => ⟨S100000x64, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x64, .f32⟩
  | .hbm, ⟨32, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

class Facts : Prop extends Facts₀ where

variable [Facts]
-- ==== Proof.Kernel.Sched.lean ====
/-
  The schedule of the two pallas_calls at a symbolic grid point, by arithmetic.

  The gather call runs on a grid of 800 edge blocks by 50 node blocks, the scatter call on 50 node blocks
  by 1250 edge blocks; points are taken row-major, the last axis fastest.  So point t of the gather call has
  coordinates (t / 50, t % 50) and point t of the scatter call (t / 1250, t % 1250).  Each kernel's two
  branch conditions test the last coordinate against 0 and against its last value, and each call's output
  block index is the first coordinate, so the output is written back exactly at the points whose last
  coordinate is the last value.  Every fact here is proved at a symbolic point from these two remainders;
  the conditions' word chains are decided over the one axis they read (50 and 1250 values).
-/
import proofs.«411144_j43404939493623_1_alg».proof.Proof.Gen.Kernel.Launch
import Idealize.ShloMosaic.Lib.Pipeline.Kit
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, as the kernels compute them -/

/-- The gather body's first branch (reset the accumulator): the node-block coordinate is 0. -/
abbrev cond0_0 (i : grid0.Coords) : Prop := (Scalar.cmpi .ne (Scalar.extui (Scalar.cmpi .eq (BitVec.ofNat 32 (i 1).val) 0#32)) 0#32) = 1#1
/-- Its last branch (store the output): the node-block coordinate is 49. -/
abbrev cond0_1 (i : grid0.Coords) : Prop := k0_cond2 i = 1#1
/-- The scatter body's first branch (reset both accumulators): the edge-block coordinate is 0. -/
abbrev cond1_0 (i : grid1.Coords) : Prop := (Scalar.cmpi .ne (Scalar.extui (Scalar.cmpi .eq (BitVec.ofNat 32 (i 1).val) 0#32)) 0#32) = 1#1
/-- Its last branch (store the output): the edge-block coordinate is 1249. -/
abbrev cond1_1 (i : grid1.Coords) : Prop := k1_cond2 i = 1#1

/-- The offsets of every whole-buffer access are zero. -/
theorem hz : (![0, 0] : Fin 2 → Nat) = fun _ => 0 := funext fun a => by fin_cases a <;> rfl

/-! ## The conditions' word chains, decided over the one axis they read -/

theorem word_eq0_50 : ∀ n : Fin 50, ((Scalar.cmpi .ne (Scalar.extui (Scalar.cmpi .eq (BitVec.ofNat 32 n.val) 0#32)) 0#32) = 1#1) ↔ n.val = 0 := by
  decide +kernel
theorem word_eq49_50 : ∀ n : Fin 50, ((Scalar.cmpi .ne (Scalar.extui (Scalar.cmpi .eq (BitVec.ofNat 32 n.val) 49#32)) 0#32) = 1#1) ↔ n.val = 49 := by
  decide +kernel
theorem word_eq0_1250 : ∀ n : Fin 1250, ((Scalar.cmpi .ne (Scalar.extui (Scalar.cmpi .eq (BitVec.ofNat 32 n.val) 0#32)) 0#32) = 1#1) ↔ n.val = 0 := by
  decide +kernel
theorem word_eq1249_1250 : ∀ n : Fin 1250, ((Scalar.cmpi .ne (Scalar.extui (Scalar.cmpi .eq (BitVec.ofNat 32 n.val) 1249#32)) 0#32) = 1#1) ↔ n.val = 1249 := by
  decide +kernel

/-! ## The coordinates of a point -/

theorem stride0_0 : grid0.stride 0 = 50 := by decide
theorem stride0_1 : grid0.stride 1 = 1 := by decide
theorem stride1_0 : grid1.stride 0 = 1250 := by decide
theorem stride1_1 : grid1.stride 1 = 1 := by decide

theorem coords0_1 (t : Fin grid0.N) : (grid0.coords t 1).val = t.val % 50 := by
  show t.val / grid0.stride 1 % 50 = _
  rw [stride0_1, Nat.div_one]
theorem coords0_0 (t : Fin grid0.N) : (grid0.coords t 0).val = t.val / 50 := by
  have hN : t.val < 40000 := lt_of_lt_of_eq t.isLt N_0
  show t.val / grid0.stride 0 % 800 = _
  rw [stride0_0]; omega
theorem coords1_1 (t : Fin grid1.N) : (grid1.coords t 1).val = t.val % 1250 := by
  show t.val / grid1.stride 1 % 1250 = _
  rw [stride1_1, Nat.div_one]
theorem coords1_0 (t : Fin grid1.N) : (grid1.coords t 0).val = t.val / 1250 := by
  have hN : t.val < 62500 := lt_of_lt_of_eq t.isLt N_1
  show t.val / grid1.stride 0 % 50 = _
  rw [stride1_0]; omega

/-! ## The conditions at a point, in closed form -/

theorem cond0_0_iff (t : Fin grid0.N) : cond0_0 (grid0.coords t) ↔ t.val % 50 = 0 := by
  have h := word_eq0_50 ⟨(grid0.coords t 1).val, (grid0.coords t 1).isLt⟩
  rw [← coords0_1 t]; exact h
theorem cond0_1_iff (t : Fin grid0.N) : cond0_1 (grid0.coords t) ↔ t.val % 50 = 49 := by
  have h := word_eq49_50 ⟨(grid0.coords t 1).val, (grid0.coords t 1).isLt⟩
  rw [← coords0_1 t]; exact h
theorem cond1_0_iff (t : Fin grid1.N) : cond1_0 (grid1.coords t) ↔ t.val % 1250 = 0 := by
  have h := word_eq0_1250 ⟨(grid1.coords t 1).val, (grid1.coords t 1).isLt⟩
  rw [← coords1_1 t]; exact h
theorem cond1_1_iff (t : Fin grid1.N) : cond1_1 (grid1.coords t) ↔ t.val % 1250 = 1249 := by
  have h := word_eq1249_1250 ⟨(grid1.coords t 1).val, (grid1.coords t 1).isLt⟩
  rw [← coords1_1 t]; exact h

/-! ## The output windows' block index and write-back points -/

/-- The gather call's output block index at a point: its edge-block coordinate, column block 0. -/
theorem outIndex0 (i : grid0.Coords) : cc0_transform_2 i = ![(i 0).val, 0] := by
  have h : (i 0).val < 800 := (i 0).isLt
  funext a
  fin_cases a
  · show (BitVec.ofNat 32 (i 0).val).toNat = (i 0).val
    rw [BitVec.toNat_ofNat]; exact Nat.mod_eq_of_lt (by omega)
  · rfl

/-- The scatter call's output block index at a point: its node-block coordinate, column block 0. -/
theorem outIndex1 (i : grid1.Coords) : cc1_transform_3 i = ![(i 0).val, 0] := by
  have h : (i 0).val < 50 := (i 0).isLt
  funext a
  fin_cases a
  · show (BitVec.ofNat 32 (i 0).val).toNat = (i 0).val
    rw [BitVec.toNat_ofNat]; exact Nat.mod_eq_of_lt (by omega)
  · rfl

/-- The gather call writes its output block back exactly after the last node block of an edge block. -/
theorem flush0_2_iff (t : Fin cfg0.N) : (cfg0.win 2).flush t = true ↔ t.val % 50 = 49 := by
  have hN : t.val < 40000 := lt_of_lt_of_eq t.isLt N_0
  show Pipeline.Window.flushOf grid0 true cc0_transform_2 t = true ↔ _
  unfold Pipeline.Window.flushOf
  simp only [Bool.true_and, Bool.or_eq_true, decide_eq_true_eq]
  have hNe : grid0.N = 40000 := N_0
  constructor
  · rintro (h | ⟨h, hne⟩)
    · omega
    · by_contra h49
      apply hne
      rw [outIndex0, outIndex0, coords0_0, coords0_0]
      have e : (t.val + 1) / 50 = t.val / 50 := by omega
      show ![(t.val + 1) / 50, 0] = ![t.val / 50, 0]
      rw [e]
  · intro h49
    by_cases hl : t.val + 1 = grid0.N
    · exact Or.inl hl
    · refine Or.inr ⟨by omega, fun heq => ?_⟩
      rw [outIndex0, outIndex0, coords0_0, coords0_0] at heq
      have h0 := congrFun heq 0
      have h0' : (t.val + 1) / 50 = t.val / 50 := h0
      omega

/-- The scatter call writes its output block back exactly after the last edge block of a node block. -/
theorem flush1_3_iff (t : Fin cfg1.N) : (cfg1.win 3).flush t = true ↔ t.val % 1250 = 1249 := by
  have hN : t.val < 62500 := lt_of_lt_of_eq t.isLt N_1
  show Pipeline.Window.flushOf grid1 true cc1_transform_3 t = true ↔ _
  unfold Pipeline.Window.flushOf
  simp only [Bool.true_and, Bool.or_eq_true, decide_eq_true_eq]
  have hNe : grid1.N = 62500 := N_1
  constructor
  · rintro (h | ⟨h, hne⟩)
    · omega
    · by_contra h49
      apply hne
      rw [outIndex1, outIndex1, coords1_0, coords1_0]
      have e : (t.val + 1) / 1250 = t.val / 1250 := by omega
      show ![(t.val + 1) / 1250, 0] = ![t.val / 1250, 0]
      rw [e]
  · intro h49
    by_cases hl : t.val + 1 = grid1.N
    · exact Or.inl hl
    · refine Or.inr ⟨by omega, fun heq => ?_⟩
      rw [outIndex1, outIndex1, coords1_0, coords1_0] at heq
      have h0 := congrFun heq 0
      have h0' : (t.val + 1) / 1250 = t.val / 1250 := h0
      omega

theorem flush0_2_false (t : Fin cfg0.N) (h : t.val % 50 ≠ 49) : (cfg0.win 2).flush t = false := by
  cases hb : (cfg0.win 2).flush t
  · rfl
  · exact absurd ((flush0_2_iff t).mp hb) h
theorem flush1_3_false (t : Fin cfg1.N) (h : t.val % 1250 ≠ 1249) : (cfg1.win 3).flush t = false := by
  cases hb : (cfg1.win 3).flush t
  · rfl
  · exact absurd ((flush1_3_iff t).mp hb) h

/-! ## Where the output windows are idle: where the last branch is not taken -/

theorem idle0_2_of (i : grid0.Coords) (h : ¬cond0_1 i) : cfg0.idle 2 i = true := by
  show (!(k0_cond2 i == 1#1)) = true
  simp only [Bool.not_eq_true', beq_eq_false_iff_ne, ne_eq]; exact h
theorem live0_2_of (i : grid0.Coords) (h : cond0_1 i) : cfg0.idle 2 i = false := by
  show (!(k0_cond2 i == 1#1)) = false
  simp only [Bool.not_eq_false', beq_iff_eq]; exact h
theorem idle1_3_of (i : grid1.Coords) (h : ¬cond1_1 i) : cfg1.idle 3 i = true := by
  show (!(k1_cond2 i == 1#1)) = true
  simp only [Bool.not_eq_true', beq_eq_false_iff_ne, ne_eq]; exact h
theorem live1_3_of (i : grid1.Coords) (h : cond1_1 i) : cfg1.idle 3 i = false := by
  show (!(k1_cond2 i == 1#1)) = false
  simp only [Bool.not_eq_false', beq_iff_eq]; exact h

end Cert.Kernel.Run

end
-- ==== Proof.Kernel.GatherBody.lean ====
/-
  The gather kernel's body, run once per control case.

  At a grid point (eb, nb) the body adds to a 2000 x 64 accumulator the product of a one-hot matrix
  (row r, column k is 1 exactly when the r-th source index of edge block eb equals node nb * 2000 + k)
  with node block nb of the feature table.  The accumulator lives in a scratch buffer across the
  points of one edge block: the first point (nb = 0) zeroes it before adding, the last (nb = 49)
  also writes it, rounded to the output format, into the output window's buffer.

  Each theorem states what one case leaves in the scratch buffer and in the output buffer as the
  body's own payload terms of the two input blocks and of what the scratch held before.
-/
import proofs.«411144_j43404939493623_1_alg».proof.Proof.Kernel.Sched
import proofs.«411144_j43404939493623_1_alg».proof.Proof.Gen.Kernel.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem run0_B (c : Dev nD) (E : Set ℕ) (i : grid0.Coords)
    (arg2 : Memref sig .tc .vmem S2000x1 .i32) (harg2 : arg2.IsWhole) (arg3 : Memref sig .tc .vmem S2000x64 .f32) (harg3 : arg3.IsWhole)
    (arg4 : Memref sig .tc .vmem S2000x64 .bf16) (harg4 : arg4.IsWhole) (arg5 : Memref sig .tc .vmem S2000x64 .f32) (harg5 : arg5.IsWhole)
    (hc0 : ¬cond0_0 i) (hc1 : ¬cond0_1 i)
    (x0 : Vec F S2000x1 .i32) (x1 : Vec F S2000x64 .f32) (y : Vec F S2000x64 .bf16) (s : Vec F S2000x64 .f32) (K : PUnit → sProp 𝕄) :
    iprop(owns (c : Thread nD τ) arg2 fullShare x0 ∗ owns (c : Thread nD τ) arg3 fullShare x1 ∗ owns (c : Thread nD τ) arg4 fullShare y
        ∗ owns (c : Thread nD τ) arg5 fullShare s
        ∗ (iprop(owns (c : Thread nD τ) arg2 fullShare x0 ∗ owns (c : Thread nD τ) arg3 fullShare x1 ∗ owns (c : Thread nD τ) arg4 fullShare y
            ∗ owns (c : Thread nD τ) arg5 fullShare (k0_pay2 i x0 x1 s)) -∗ K ⟨⟩))
      ⊢ wp frame (wpE (defs₀ (F := F)) Variants.none c none) E (cc0__gather_kernel i arg2 harg2 arg3 harg3 arg4 harg4 arg5 harg5) K := by
  simp only [cc0__gather_kernel_eq_skeleton]; unfold cc0__gather_kernel_skel
  unfold owns
  iintro ⟨⟨%f0, %hf0, H0⟩, ⟨%f1, %hf1, H1⟩, ⟨%f4, %hf4, H4⟩, ⟨%f5, %hf5, H5⟩, Hk⟩
  subst hf0; subst hf1; subst hf4; subst hf5
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H4]; · iexists f4; isplitr; · ipureintro; rfl
                  iexact H4
  iexists _; isplitr
  swap; · iexact H5
  ipureintro
  rw [View.read_writes_eq_canon _ _ _ (View.cover_of_tiled _ S2000x64.size (by rfl))]
  rw [View.canon_unit_zero hz]
  simp only [View.readAt_eq_ld, View.ld_unit_zero (S := S2000x64) hz, View.ld_unit_zero (S := S2000x1) hz]

set_option maxHeartbeats 1000000 in
theorem run0_A (c : Dev nD) (E : Set ℕ) (i : grid0.Coords)
    (arg2 : Memref sig .tc .vmem S2000x1 .i32) (harg2 : arg2.IsWhole) (arg3 : Memref sig .tc .vmem S2000x64 .f32) (harg3 : arg3.IsWhole)
    (arg4 : Memref sig .tc .vmem S2000x64 .bf16) (harg4 : arg4.IsWhole) (arg5 : Memref sig .tc .vmem S2000x64 .f32) (harg5 : arg5.IsWhole)
    (hc0 : cond0_0 i) (hc1 : ¬cond0_1 i)
    (x0 : Vec F S2000x1 .i32) (x1 : Vec F S2000x64 .f32) (y : Vec F S2000x64 .bf16) (K : PUnit → sProp 𝕄) :
    iprop(owns (c : Thread nD τ) arg2 fullShare x0 ∗ owns (c : Thread nD τ) arg3 fullShare x1 ∗ owns (c : Thread nD τ) arg4 fullShare y
        ∗ (∃ s, owns (c : Thread nD τ) arg5 fullShare s)
        ∗ (iprop(owns (c : Thread nD τ) arg2 fullShare x0 ∗ owns (c : Thread nD τ) arg3 fullShare x1 ∗ owns (c : Thread nD τ) arg4 fullShare y
            ∗ owns (c : Thread nD τ) arg5 fullShare (k0_pay2 i x0 x1 (k0_pay1 (F := F)))) -∗ K ⟨⟩))
      ⊢ wp frame (wpE (defs₀ (F := F)) Variants.none c none) E (cc0__gather_kernel i arg2 harg2 arg3 harg3 arg4 harg4 arg5 harg5) K := by
  simp only [cc0__gather_kernel_eq_skeleton]; unfold cc0__gather_kernel_skel
  unfold owns
  iintro ⟨⟨%f0, %hf0, H0⟩, ⟨%f1, %hf1, H1⟩, ⟨%f4, %hf4, H4⟩, ⟨%s5, %f5, -, H5⟩, Hk⟩
  subst hf0; subst hf1; subst hf4
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H4]; · iexists f4; isplitr; · ipureintro; rfl
                  iexact H4
  iexists _; isplitr
  swap; · iexact H5
  ipureintro
  sl_unfold_words
  rw [View.read_writes_eq_canon _ _ _ (fun y => by
    obtain ⟨p, hp, hy⟩ := View.cover_of_tiled [(⟨Rect.unit (s := S2000x64) ![0, 0] S2000x64.size inb_S2000x64_S2000x64_0_0, (k0_pay1 (F := F))⟩ : View.Piece (Elt F) S2000x64 .f32)] S2000x64.size (by rfl) y
    exact ⟨_, List.mem_cons_self, by rw [List.mem_singleton.mp hp] at hy; exact hy⟩)]
  rw [View.canon_cons_unit_zero (S := S2000x64) hz]
  simp only [View.readAt_eq_ld, View.readCov_unit_zero (S := S2000x64) _ hz, View.ld_unit_zero (S := S2000x64) hz, View.ld_unit_zero (S := S2000x1) hz]

set_option maxHeartbeats 1000000 in
theorem run0_C (c : Dev nD) (E : Set ℕ) (i : grid0.Coords)
    (arg2 : Memref sig .tc .vmem S2000x1 .i32) (harg2 : arg2.IsWhole) (arg3 : Memref sig .tc .vmem S2000x64 .f32) (harg3 : arg3.IsWhole)
    (arg4 : Memref sig .tc .vmem S2000x64 .bf16) (harg4 : arg4.IsWhole) (arg5 : Memref sig .tc .vmem S2000x64 .f32) (harg5 : arg5.IsWhole)
    (hc0 : ¬cond0_0 i) (hc1 : cond0_1 i)
    (x0 : Vec F S2000x1 .i32) (x1 : Vec F S2000x64 .f32) (s : Vec F S2000x64 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare s
        ∗ (iprop(owns (c : Thread nD τ) arg2 fullShare x0 ∗ owns (c : Thread nD τ) arg3 fullShare x1
            ∗ owns (c : Thread nD τ) arg4 fullShare (k0_pay3 (k0_pay2 i x0 x1 s))
            ∗ owns (c : Thread nD τ) arg5 fullShare (k0_pay2 i x0 x1 s)) -∗ K ⟨⟩))
      ⊢ wp frame (wpE (defs₀ (F := F)) Variants.none c none) E (cc0__gather_kernel i arg2 harg2 arg3 harg3 arg4 harg4 arg5 harg5) K := by
  simp only [cc0__gather_kernel_eq_skeleton]; unfold cc0__gather_kernel_skel
  unfold owns
  iintro ⟨⟨%f0, %hf0, H0⟩, ⟨%f1, %hf1, H1⟩, ⟨%d4, %f4, -, H4⟩, ⟨%f5, %hf5, H5⟩, Hk⟩
  subst hf0; subst hf1; subst hf5
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H4]
  · iexists _; isplitr
    swap; · iexact H4
    ipureintro
    sl_unfold_words
    rw [View.read_writes_eq_canon _ _ _ (View.cover_of_tiled _ S2000x64.size (by rfl))]
    rw [View.canon_unit_zero hz]
    simp only [View.readAt_eq_ld, View.readCov_unit_zero (S := S2000x64) _ hz, View.ld_unit_zero (S := S2000x64) hz, View.ld_unit_zero (S := S2000x1) hz]
  iexists _; isplitr
  swap; · iexact H5
  ipureintro
  sl_unfold_words
  rw [View.read_writes_eq_canon _ _ _ (View.cover_of_tiled _ S2000x64.size (by rfl))]
  rw [View.canon_unit_zero hz]
  simp only [View.readAt_eq_ld, View.ld_unit_zero (S := S2000x64) hz, View.ld_unit_zero (S := S2000x1) hz]

end Cert.Kernel.Run

end
-- ==== Proof.Kernel.GatherData.lean ====
/-
  The gather call's proof data: what every staging buffer and the scratch accumulator hold after each grid point.

  Point t = (eb, nb) is handed edge block eb of the source column (2000 index words) and node block nb of the
  feature table (2000 rows of 64).  The scratch accumulator is carried from point to point: after point t it is
  the body's update of what point t - 1 left, except at the first node block of an edge block (t % 50 = 0), where
  the update starts from zero.  The output buffer is stored only at the last node block (t % 50 = 49), with the
  accumulator rounded to the output's format; elsewhere the body leaves it as it found it, and the pipeline does
  not write it back there.  The region's invariant is the scratch at the accumulator of the point before (at
  anything before the first point), every other scoped buffer at anything, the generator register at some state.
-/
import proofs.«411144_j43404939493623_1_alg».proof.Proof.Kernel.GatherBody
import Idealize.ShloMosaic.Lib.Pipeline.Frame

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The staging memrefs and the body at a point -/

/-- Each window's current staging memref at point `t`, as the pipeline passes it, and its wholeness. -/
abbrev ms0_0 (t : Fin cfg0.N) : Memref sig .tc .vmem S2000x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2000x64 .bf16 := win0_2.stage (cfg0.slots t 2)
abbrev hs0_2 (t : Fin cfg0.N) : (ms0_2 t).IsWhole := hstage0_2 ((cfg0.slots t 2).cast nbuf0_2)
/-- The scratch accumulator: a whole scoped buffer of the kernel's own. -/
abbrev scM0 : Memref sig .tc .vmem S2000x64 .f32 := Memref.whole cc0_scratch0

/-- The kernel body at point `t`, on what the pipeline calls it with. -/
abbrev bodyAt0 (t : Fin cfg0.N) : Prog (TpuEff nD τ sig (Elt F) Λ₀ .tc) PUnit :=
  cc0__gather_kernel (grid0.coords t) (ms0_0 t) (hs0_0 t) (ms0_1 t) (hs0_1 t) (ms0_2 t) (hs0_2 t) scM0 (Memref.isWhole_whole _)

/-! ## The input blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The accumulator, point by point -/

/-- What the scratch accumulator holds after the body at point `n`: the body's update of what point `n - 1` left,
    started from zero at the first node block of an edge block. -/
def acc0 (c : Dev nD) : (n : ℕ) → n < cfg0.N → Vec F S2000x64 .f32
  | 0, hn => k0_pay2 (grid0.coords ⟨0, hn⟩) (iblk0 V c 0 ⟨0, hn⟩) (iblk0 V c 1 ⟨0, hn⟩) (k0_pay1 (F := F))
  | n + 1, hn =>
    if (n + 1) % 50 = 0 then
      k0_pay2 (grid0.coords ⟨n + 1, hn⟩) (iblk0 V c 0 ⟨n + 1, hn⟩) (iblk0 V c 1 ⟨n + 1, hn⟩) (k0_pay1 (F := F))
    else
      k0_pay2 (grid0.coords ⟨n + 1, hn⟩) (iblk0 V c 0 ⟨n + 1, hn⟩) (iblk0 V c 1 ⟨n + 1, hn⟩) (acc0 c n (Nat.lt_of_succ_lt hn))

/-- At the first node block of an edge block the accumulator starts from zero. -/
theorem acc0_first (c : Dev nD) (t : Fin cfg0.N) (h : t.val % 50 = 0) :
    acc0 V c t.val t.isLt = k0_pay2 (grid0.coords t) (iblk0 V c 0 t) (iblk0 V c 1 t) (k0_pay1 (F := F)) := by
  obtain ⟨n, hn⟩ := t
  cases n with
  | zero => rfl
  | succ n => exact if_pos h

/-- Elsewhere it continues from what the point before left. -/
theorem acc0_next (c : Dev nD) (t : Fin cfg0.N) (h : ¬t.val % 50 = 0) :
    acc0 V c t.val t.isLt = k0_pay2 (grid0.coords t) (iblk0 V c 0 t) (iblk0 V c 1 t)
      (acc0 V c (t.val - 1) (Nat.lt_of_le_of_lt (Nat.sub_le _ _) t.isLt)) := by
  obtain ⟨n, hn⟩ := t
  cases n with
  | zero => exact absurd (Nat.zero_mod _) h
  | succ n => exact if_neg h

/-! ## The region's invariant -/

/-- The scoped buffers other than the scratch accumulator, each at some contents (the other call's staging buffers
    and scratch): named by splitting the scratch off the front of the list. -/
theorem scopedRest0_split (c : Dev nD) : ∃ R : sProp 𝕄,
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ R) :=
  ⟨_, scopedRest0_eq c⟩
def others0 (c : Dev nD) : sProp 𝕄 := Classical.choose (scopedRest0_split (F := F) c)

/-- The class invariant with the scratch accumulator split off as a memref owned at some contents. -/
theorem PhiA0_eq (c : Dev nD) :
    (Pipeline.ΦA spec0 c : sProp 𝕄)
      = iprop(iprop((∃ d, owns (c : Thread nD τ) scM0 fullShare d) ∗ others0 (F := F) c) ∗ (∃ r, prngReg c r)) := by
  unfold Pipeline.ΦA; rw [Classical.choose_spec (scopedRest0_split (F := F) c)]; simp only [scM0, owns_whole]; rfl

/-- Before position `n`: before the first point the class invariant (the scratch at anything); afterwards the
    scratch at what the point before left. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ others0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare (acc0 V c n hn) ∗ others0 (F := F) c) ∗ (∃ r, prngReg c r)) := rfl
theorem PhiS0_pos (c : Dev nD) (n : ℕ) (h : n ≤ cfg0.N) (hz : n ≠ 0) :
    PhiS0 V c n h = iprop(iprop(owns (c : Thread nD τ) scM0 fullShare (acc0 V c (n - 1) (by omega)) ∗ others0 (F := F) c) ∗ (∃ r, prngReg c r)) := by
  cases n with
  | zero => exact absurd rfl hz
  | succ n => rfl

/-! ## The proof data -/

/-- After the body at point `t`: each input's buffer at its block, the output's at the accumulator rounded to
    its format (consulted only where the body stores it); the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (acc0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by dsimp only [dat0]
theorem PhiS0_castSucc (c : Dev nD) (t : Fin cfg0.N) : (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (acc0 V c t.val t.isLt) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

/-- The two input windows are never idle. -/
theorem liveAt0_0 (t : Fin cfg0.N) : cfg0.idle 0 (grid0.coords t) = false := rfl
theorem liveAt0_1 (t : Fin cfg0.N) : cfg0.idle 1 (grid0.coords t) = false := rfl

set_option maxHeartbeats 4000000 in
/-- The body at any point.  The input buffers hold their blocks; the remainder of the point's number by 50 says which
    case the point is in; the invariant hands the body the scratch at what the point before left (at anything at the
    very first point) and takes it back at this point's accumulator; where the body does not store the output, its
    buffer goes back as it came. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 50 = 0
  · -- the first node block of an edge block: reset, then accumulate; the output is left alone
    have hc0 : cond0_0 (grid0.coords t) := (cond0_0_iff t).mpr h0
    have hc1 : ¬cond0_1 (grid0.coords t) := fun h => by have := (cond0_1_iff t).mp h; omega
    rw [Dat.leavesExact_idle (dat0 V c) 2 t (idle0_2_of _ hc1) (flush0_2_false t (by omega))]
    rw [acc0_first V c t h0]
    by_cases hz : t.val = 0
    · rw [PhiS0_castSucc V c t, PhiS0_zero V c _ _ hz, PhiA0_eq]
      iintro ⟨⟨⟨HS, Hoth⟩, Hg⟩, Ho, ⟨%d0, H0⟩, ⟨%d1, H1⟩, ⟨%d2, H2⟩⟩
      iapply (run0_A c Set.univ (grid0.coords t) _ _ _ _ _ _ _ _ hc0 hc1 (iblk0 V c 0 t) (iblk0 V c 1 t) ((dat0 V c).before 2 t d2) _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS, Hoth⟩, Hg⟩, Ho, ⟨%d0, H0⟩, ⟨%d1, H1⟩, ⟨%d2, H2⟩⟩
      iapply (run0_A c Set.univ (grid0.coords t) _ _ _ _ _ _ _ _ hc0 hc1 (iblk0 V c 0 t) (iblk0 V c 1 t) ((dat0 V c).before 2 t d2) _)
      isplitl [H0]; · iexact H0
      isplitl [H1]; · iexact H1
      isplitl [H2]; · iexact H2
      isplitl [HS]; · iexists _; iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2
  · have hc0 : ¬cond0_0 (grid0.coords t) := fun h => h0 ((cond0_0_iff t).mp h)
    have hz : t.val ≠ 0 := fun h => h0 (by rw [h])
    rw [acc0_next V c t h0]
    rw [PhiS0_castSucc V c t, PhiS0_pos V c _ _ hz]
    by_cases h1 : t.val % 50 = 49
    · -- the last node block: accumulate, then store the output
      have hc1 : cond0_1 (grid0.coords t) := (cond0_1_iff t).mpr h1
      rw [show (dat0 V c).leavesExact 2 t = owns (c : Thread nD τ) (ms0_2 t) fullShare ((dat0 V c).after 2 t) from by
        unfold Dat.leavesExact; rw [live0_2_of _ hc1], after0_2]
      rw [acc0_next V c t h0]
      iintro ⟨⟨⟨HS, Hoth⟩, Hg⟩, Ho, ⟨%d0, H0⟩, ⟨%d1, H1⟩, ⟨%d2, H2⟩⟩
      iapply (run0_C c Set.univ (grid0.coords t) _ _ _ _ _ _ _ _ hc0 hc1 (iblk0 V c 0 t) (iblk0 V c 1 t)
        (acc0 V c (t.val - 1) (Nat.lt_of_le_of_lt (Nat.sub_le _ _) t.isLt)) _)
      isplitl [H0]; · iexact H0
      isplitl [H1]; · iexact H1
      isplitl [H2]; · iexists _; iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · -- a middle node block: accumulate; the output is left alone
      have hc1 : ¬cond0_1 (grid0.coords t) := fun h => h1 ((cond0_1_iff t).mp h)
      rw [Dat.leavesExact_idle (dat0 V c) 2 t (idle0_2_of _ hc1) (flush0_2_false t h1)]
      iintro ⟨⟨⟨HS, Hoth⟩, Hg⟩, Ho, ⟨%d0, H0⟩, ⟨%d1, H1⟩, ⟨%d2, H2⟩⟩
      iapply (run0_B c Set.univ (grid0.coords t) _ _ _ _ _ _ _ _ hc0 hc1 (iblk0 V c 0 t) (iblk0 V c 1 t) ((dat0 V c).before 2 t d2)
        (acc0 V c (t.val - 1) (Nat.lt_of_le_of_lt (Nat.sub_le _ _) t.isLt)) _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2

/-- The windows conjoined one by one, then the body at the point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives the class invariant back: the accumulator's contents are forgotten. -/
theorem hout0 (c : Dev nD) : (dat0 V c).Φ (Fin.last cfg0.N) ⊢ Pipeline.ΦA spec0 c := by
  have hN : cfg0.N = 40000 := N_0
  rw [show (dat0 V c).Φ (Fin.last cfg0.N) = PhiS0 V c (Fin.last cfg0.N).val (Nat.le_of_lt_succ (Fin.last cfg0.N).isLt) from rfl,
    PhiS0_pos V c _ _ (by rw [Fin.val_last]; omega), PhiA0_eq]
  iintro ⟨⟨HS, Hoth⟩, Hg⟩
  isplitl [HS Hoth]
  · isplitl [HS]; · iexists _; iexact HS
    iexact Hoth
  iexact Hg

end Cert.Kernel.Run

end
-- ==== Proof.Kernel.ScatterBody.lean ====
/-
  The scatter kernel's body, run once per control case.

  At a grid point (nb, eb) the body forms a 2000 x 1280 one-hot matrix: row r, column j is 1 exactly
  when receiver word j of edge block eb equals node nb * 2000 + r.  It adds the product of that matrix
  with the gathered 1280 x 64 block to a 2000 x 64 accumulator, and adds the matrix's row sums (how many
  edges of the block arrive at each node) to a 2000 x 1 degree column.  Both live in scratch buffers
  across the points of one node block: the first point (eb = 0) zeroes them before adding, and the last
  (eb = 1249) also writes (input block + accumulator) / (degree + 1), the degree column spread along
  the 64 columns, into the output window's buffer.

  Each theorem states what one case leaves in the two scratch buffers and in the output buffer, as the
  body's own payload terms of the three input blocks and of what the scratch buffers held before:
  the first case starts both sums from zero, the middle case continues them, and the last case continues
  them and then forms the quotient from the sums it has just stored.
-/
import proofs.«411144_j43404939493623_1_alg».proof.Proof.Kernel.Sched
import proofs.«411144_j43404939493623_1_alg».proof.Proof.Gen.Kernel.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- First edge block of a node block: both sums are started from zero; the output buffer is untouched. -/
theorem run1_A (c : Dev nD) (E : Set ℕ) (i : grid1.Coords)
    (arg2 : Memref sig .tc .vmem S1280x64 .bf16) (harg2 : arg2.IsWhole) (arg3 : Memref sig .tc .vmem S1x1280 .i32) (harg3 : arg3.IsWhole)
    (arg4 : Memref sig .tc .vmem S2000x64 .f32) (harg4 : arg4.IsWhole) (arg5 : Memref sig .tc .vmem S2000x64 .f32) (harg5 : arg5.IsWhole)
    (arg6 : Memref sig .tc .vmem S2000x64 .f32) (harg6 : arg6.IsWhole) (arg7 : Memref sig .tc .vmem S2000x1 .f32) (harg7 : arg7.IsWhole)
    (hc0 : cond1_0 i) (hc1 : ¬cond1_1 i)
    (x0 : Vec F S1280x64 .bf16) (x1 : Vec F S1x1280 .i32) (x2 : Vec F S2000x64 .f32) (y : Vec F S2000x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare y
        ∗ (∃ s, owns (c : Thread nD τ) arg6 fullShare s) ∗ (∃ g, owns (c : Thread nD τ) arg7 fullShare g)
        ∗ (iprop(owns (c : Thread nD τ) arg2 fullShare x0 ∗ owns (c : Thread nD τ) arg3 fullShare x1 ∗ owns (c : Thread nD τ) arg4 fullShare x2 ∗ owns (c : Thread nD τ) arg5 fullShare y
            ∗ owns (c : Thread nD τ) arg6 fullShare (k1_pay4 i x1 x0 (k1_pay1 (F := F))) ∗ owns (c : Thread nD τ) arg7 fullShare (k1_pay5 i x1 (k1_pay2 (F := F)))) -∗ K ⟨⟩))
      ⊢ wp frame (wpE (defs₀ (F := F)) Variants.none c none) E (cc1__scatter_kernel i arg2 harg2 arg3 harg3 arg4 harg4 arg5 harg5 arg6 harg6 arg7 harg7) K := by
  simp only [cc1__scatter_kernel_eq_skeleton]; unfold cc1__scatter_kernel_skel
  unfold owns
  iintro ⟨⟨%f0, %hf0, H0⟩, ⟨%f1, %hf1, H1⟩, ⟨%f2, %hf2, H2⟩, ⟨%f5, %hf5, H5⟩, ⟨%s6, %f6, -, H6⟩, ⟨%g7, %f7, -, H7⟩, Hk⟩
  subst hf0; subst hf1; subst hf2; subst hf5
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H5]; · iexists f5; isplitr; · ipureintro; rfl
                  iexact H5
  isplitl [H6]
  · iexists _; isplitr
    swap; · iexact H6
    ipureintro
    sl_unfold_words
    rw [View.read_writes_eq_canon _ _ _ (fun y => by
      obtain ⟨p, hp, hy⟩ := View.cover_of_tiled [(⟨Rect.unit (s := S2000x64) ![0, 0] S2000x64.size inb_S2000x64_S2000x64_0_0, (k1_pay1 (F := F))⟩ : View.Piece (Elt F) S2000x64 .f32)] S2000x64.size (by rfl) y
      exact ⟨_, List.mem_cons_self, by rw [List.mem_singleton.mp hp] at hy; exact hy⟩)]
    rw [View.canon_cons_unit_zero (S := S2000x64) hz]
    simp only [View.readAt_eq_ld, View.readCov_unit_zero (S := S2000x64) _ hz, View.readCov_unit_zero (S := S2000x1) _ hz, View.ld_unit_zero (S := S2000x64) hz, View.ld_unit_zero (S := S2000x1) hz, View.ld_unit_zero (S := S1280x64) hz, View.ld_unit_zero (S := S1x1280) hz]
  iexists _; isplitr
  swap; · iexact H7
  ipureintro
  sl_unfold_words
  rw [View.read_writes_eq_canon _ _ _ (fun y => by
    obtain ⟨p, hp, hy⟩ := View.cover_of_tiled [(⟨Rect.unit (s := S2000x1) ![0, 0] S2000x1.size inb_S2000x1_S2000x1_0_0, (k1_pay2 (F := F))⟩ : View.Piece (Elt F) S2000x1 .f32)] S2000x1.size (by rfl) y
    exact ⟨_, List.mem_cons_self, by rw [List.mem_singleton.mp hp] at hy; exact hy⟩)]
  rw [View.canon_cons_unit_zero (S := S2000x1) hz]
  simp only [View.readAt_eq_ld, View.readCov_unit_zero (S := S2000x64) _ hz, View.readCov_unit_zero (S := S2000x1) _ hz, View.ld_unit_zero (S := S2000x64) hz, View.ld_unit_zero (S := S2000x1) hz, View.ld_unit_zero (S := S1280x64) hz, View.ld_unit_zero (S := S1x1280) hz]

set_option maxHeartbeats 2000000 in
/-- An edge block that is neither first nor last: both sums are continued; the output buffer is untouched. -/
theorem run1_B (c : Dev nD) (E : Set ℕ) (i : grid1.Coords)
    (arg2 : Memref sig .tc .vmem S1280x64 .bf16) (harg2 : arg2.IsWhole) (arg3 : Memref sig .tc .vmem S1x1280 .i32) (harg3 : arg3.IsWhole)
    (arg4 : Memref sig .tc .vmem S2000x64 .f32) (harg4 : arg4.IsWhole) (arg5 : Memref sig .tc .vmem S2000x64 .f32) (harg5 : arg5.IsWhole)
    (arg6 : Memref sig .tc .vmem S2000x64 .f32) (harg6 : arg6.IsWhole) (arg7 : Memref sig .tc .vmem S2000x1 .f32) (harg7 : arg7.IsWhole)
    (hc0 : ¬cond1_0 i) (hc1 : ¬cond1_1 i)
    (x0 : Vec F S1280x64 .bf16) (x1 : Vec F S1x1280 .i32) (x2 : Vec F S2000x64 .f32) (y : Vec F S2000x64 .f32)
    (s : Vec F S2000x64 .f32) (g : Vec F S2000x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare y
        ∗ owns (c : Thread nD τ) arg6 fullShare s ∗ owns (c : Thread nD τ) arg7 fullShare g
        ∗ (iprop(owns (c : Thread nD τ) arg2 fullShare x0 ∗ owns (c : Thread nD τ) arg3 fullShare x1 ∗ owns (c : Thread nD τ) arg4 fullShare x2 ∗ owns (c : Thread nD τ) arg5 fullShare y
            ∗ owns (c : Thread nD τ) arg6 fullShare (k1_pay4 i x1 x0 s) ∗ owns (c : Thread nD τ) arg7 fullShare (k1_pay5 i x1 g)) -∗ K ⟨⟩))
      ⊢ wp frame (wpE (defs₀ (F := F)) Variants.none c none) E (cc1__scatter_kernel i arg2 harg2 arg3 harg3 arg4 harg4 arg5 harg5 arg6 harg6 arg7 harg7) K := by
  simp only [cc1__scatter_kernel_eq_skeleton]; unfold cc1__scatter_kernel_skel
  unfold owns
  iintro ⟨⟨%f0, %hf0, H0⟩, ⟨%f1, %hf1, H1⟩, ⟨%f2, %hf2, H2⟩, ⟨%f5, %hf5, H5⟩, ⟨%f6, %hf6, H6⟩, ⟨%f7, %hf7, H7⟩, Hk⟩
  subst hf0; subst hf1; subst hf2; subst hf5; subst hf6; subst hf7
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H5]; · iexists f5; isplitr; · ipureintro; rfl
                  iexact H5
  isplitl [H6]
  · iexists _; isplitr
    swap; · iexact H6
    ipureintro
    sl_unfold_words
    rw [View.read_writes_eq_canon _ _ _ (View.cover_of_tiled _ S2000x64.size (by rfl))]
    rw [View.canon_unit_zero hz]
    simp only [View.readAt_eq_ld, View.ld_unit_zero (S := S2000x64) hz, View.ld_unit_zero (S := S2000x1) hz, View.ld_unit_zero (S := S1280x64) hz, View.ld_unit_zero (S := S1x1280) hz]
  iexists _; isplitr
  swap; · iexact H7
  ipureintro
  sl_unfold_words
  rw [View.read_writes_eq_canon _ _ _ (View.cover_of_tiled _ S2000x1.size (by rfl))]
  rw [View.canon_unit_zero hz]
  simp only [View.readAt_eq_ld, View.ld_unit_zero (S := S2000x64) hz, View.ld_unit_zero (S := S2000x1) hz, View.ld_unit_zero (S := S1280x64) hz, View.ld_unit_zero (S := S1x1280) hz]

set_option maxHeartbeats 2000000 in
/-- Last edge block: both sums are continued, then the quotient of the sums just stored is written out. -/
theorem run1_C (c : Dev nD) (E : Set ℕ) (i : grid1.Coords)
    (arg2 : Memref sig .tc .vmem S1280x64 .bf16) (harg2 : arg2.IsWhole) (arg3 : Memref sig .tc .vmem S1x1280 .i32) (harg3 : arg3.IsWhole)
    (arg4 : Memref sig .tc .vmem S2000x64 .f32) (harg4 : arg4.IsWhole) (arg5 : Memref sig .tc .vmem S2000x64 .f32) (harg5 : arg5.IsWhole)
    (arg6 : Memref sig .tc .vmem S2000x64 .f32) (harg6 : arg6.IsWhole) (arg7 : Memref sig .tc .vmem S2000x1 .f32) (harg7 : arg7.IsWhole)
    (hc0 : ¬cond1_0 i) (hc1 : cond1_1 i)
    (x0 : Vec F S1280x64 .bf16) (x1 : Vec F S1x1280 .i32) (x2 : Vec F S2000x64 .f32)
    (s : Vec F S2000x64 .f32) (g : Vec F S2000x1 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ owns (c : Thread nD τ) arg6 fullShare s ∗ owns (c : Thread nD τ) arg7 fullShare g
        ∗ (iprop(owns (c : Thread nD τ) arg2 fullShare x0 ∗ owns (c : Thread nD τ) arg3 fullShare x1 ∗ owns (c : Thread nD τ) arg4 fullShare x2 ∗ owns (c : Thread nD τ) arg5 fullShare (k1_pay6 x2 (k1_pay4 i x1 x0 s) (k1_pay5 i x1 g))
            ∗ owns (c : Thread nD τ) arg6 fullShare (k1_pay4 i x1 x0 s) ∗ owns (c : Thread nD τ) arg7 fullShare (k1_pay5 i x1 g)) -∗ K ⟨⟩))
      ⊢ wp frame (wpE (defs₀ (F := F)) Variants.none c none) E (cc1__scatter_kernel i arg2 harg2 arg3 harg3 arg4 harg4 arg5 harg5 arg6 harg6 arg7 harg7) K := by
  simp only [cc1__scatter_kernel_eq_skeleton]; unfold cc1__scatter_kernel_skel
  unfold owns
  iintro ⟨⟨%f0, %hf0, H0⟩, ⟨%f1, %hf1, H1⟩, ⟨%f2, %hf2, H2⟩, ⟨%d5, %f5, -, H5⟩, ⟨%f6, %hf6, H6⟩, ⟨%f7, %hf7, H7⟩, Hk⟩
  subst hf0; subst hf1; subst hf2; subst hf6; subst hf7
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H5]
  · iexists _; isplitr
    swap; · iexact H5
    ipureintro
    sl_unfold_words
    rw [View.read_writes_eq_canon _ _ _ (View.cover_of_tiled _ S2000x64.size (by rfl))]
    rw [View.canon_unit_zero hz]
    simp only [View.readAt_eq_ld, View.readCov_unit_zero (S := S2000x64) _ hz, View.readCov_unit_zero (S := S2000x1) _ hz, View.ld_unit_zero (S := S2000x64) hz, View.ld_unit_zero (S := S2000x1) hz, View.ld_unit_zero (S := S1280x64) hz, View.ld_unit_zero (S := S1x1280) hz]
  isplitl [H6]
  · iexists _; isplitr
    swap; · iexact H6
    ipureintro
    sl_unfold_words
    rw [View.read_writes_eq_canon _ _ _ (View.cover_of_tiled _ S2000x64.size (by rfl))]
    rw [View.canon_unit_zero hz]
    simp only [View.readAt_eq_ld, View.ld_unit_zero (S := S2000x64) hz, View.ld_unit_zero (S := S2000x1) hz, View.ld_unit_zero (S := S1280x64) hz, View.ld_unit_zero (S := S1x1280) hz]
  iexists _; isplitr
  swap; · iexact H7
  ipureintro
  sl_unfold_words
  rw [View.read_writes_eq_canon _ _ _ (View.cover_of_tiled _ S2000x1.size (by rfl))]
  rw [View.canon_unit_zero hz]
  simp only [View.readAt_eq_ld, View.ld_unit_zero (S := S2000x64) hz, View.ld_unit_zero (S := S2000x1) hz, View.ld_unit_zero (S := S1280x64) hz, View.ld_unit_zero (S := S1x1280) hz]

end Cert.Kernel.Run

end
-- ==== Proof.Kernel.ScatterData.lean ====
/-
  The scatter call's proof data: what every staging buffer and the two scratch accumulators hold after each grid point.

  Point t = (nb, eb) is handed edge block eb of the gathered rows (1280 rows of 64), edge block eb of the receiver
  row (1280 index words) and node block nb of ds_in (2000 rows of 64).  Two scratch buffers are carried from point
  to point: the message accumulator (2000 x 64) and the degree column (2000 x 1).  After point t each is the body's
  update of what point t - 1 left, except at the first edge block of a node block (t % 1250 = 0), where the update
  starts from zero.  The output buffer is stored only at the last edge block (t % 1250 = 1249), with
  (ds_in block + accumulator) / (degree + 1) formed from the two sums just stored; elsewhere the body leaves it as it
  found it, and the pipeline does not write it back there.  The region's invariant is the two scratch buffers at
  the sums of the point before (at anything before the first point), every other scoped buffer at anything, the
  generator register at some state.
-/
import proofs.«411144_j43404939493623_1_alg».proof.Proof.Kernel.ScatterBody
import Idealize.ShloMosaic.Lib.Pipeline.Frame

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The staging memrefs and the body at a point -/

abbrev ms1_0 (t : Fin cfg1.N) : Memref sig .tc .vmem S1280x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1280 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2000x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2000x64 .f32 := win1_3.stage (cfg1.slots t 3)
abbrev hs1_3 (t : Fin cfg1.N) : (ms1_3 t).IsWhole := hstage1_3 ((cfg1.slots t 3).cast nbuf1_3)
/-- The two scratch accumulators: whole scoped buffers of the kernel's own. -/
abbrev scM1 : Memref sig .tc .vmem S2000x64 .f32 := Memref.whole cc1_scratch0
abbrev scG1 : Memref sig .tc .vmem S2000x1 .f32 := Memref.whole cc1_scratch1

/-- The kernel body at point `t`, on what the pipeline calls it with. -/
abbrev bodyAt1 (t : Fin cfg1.N) : Prog (TpuEff nD τ sig (Elt F) Λ₀ .tc) PUnit :=
  cc1__scatter_kernel (grid1.coords t) (ms1_0 t) (hs1_0 t) (ms1_1 t) (hs1_1 t) (ms1_2 t) (hs1_2 t) (ms1_3 t) (hs1_3 t)
    scM1 (Memref.isWhole_whole _) scG1 (Memref.isWhole_whole _)

/-! ## The input blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The two sums, point by point -/

/-- What the message accumulator holds after the body at point `n`. -/
def acc1 (c : Dev nD) : (n : ℕ) → n < cfg1.N → Vec F S2000x64 .f32
  | 0, hn => k1_pay4 (grid1.coords ⟨0, hn⟩) (iblk1 V c 1 ⟨0, hn⟩) (iblk1 V c 0 ⟨0, hn⟩) (k1_pay1 (F := F))
  | n + 1, hn =>
    if (n + 1) % 1250 = 0 then
      k1_pay4 (grid1.coords ⟨n + 1, hn⟩) (iblk1 V c 1 ⟨n + 1, hn⟩) (iblk1 V c 0 ⟨n + 1, hn⟩) (k1_pay1 (F := F))
    else
      k1_pay4 (grid1.coords ⟨n + 1, hn⟩) (iblk1 V c 1 ⟨n + 1, hn⟩) (iblk1 V c 0 ⟨n + 1, hn⟩) (acc1 c n (Nat.lt_of_succ_lt hn))

/-- What the degree column holds after the body at point `n`. -/
def deg1 (c : Dev nD) : (n : ℕ) → n < cfg1.N → Vec F S2000x1 .f32
  | 0, hn => k1_pay5 (grid1.coords ⟨0, hn⟩) (iblk1 V c 1 ⟨0, hn⟩) (k1_pay2 (F := F))
  | n + 1, hn =>
    if (n + 1) % 1250 = 0 then
      k1_pay5 (grid1.coords ⟨n + 1, hn⟩) (iblk1 V c 1 ⟨n + 1, hn⟩) (k1_pay2 (F := F))
    else
      k1_pay5 (grid1.coords ⟨n + 1, hn⟩) (iblk1 V c 1 ⟨n + 1, hn⟩) (deg1 c n (Nat.lt_of_succ_lt hn))

theorem acc1_first (c : Dev nD) (t : Fin cfg1.N) (h : t.val % 1250 = 0) :
    acc1 V c t.val t.isLt = k1_pay4 (grid1.coords t) (iblk1 V c 1 t) (iblk1 V c 0 t) (k1_pay1 (F := F)) := by
  obtain ⟨n, hn⟩ := t
  cases n with
  | zero => rfl
  | succ n => exact if_pos h
theorem acc1_next (c : Dev nD) (t : Fin cfg1.N) (h : ¬t.val % 1250 = 0) :
    acc1 V c t.val t.isLt = k1_pay4 (grid1.coords t) (iblk1 V c 1 t) (iblk1 V c 0 t)
      (acc1 V c (t.val - 1) (Nat.lt_of_le_of_lt (Nat.sub_le _ _) t.isLt)) := by
  obtain ⟨n, hn⟩ := t
  cases n with
  | zero => exact absurd (Nat.zero_mod _) h
  | succ n => exact if_neg h
theorem deg1_first (c : Dev nD) (t : Fin cfg1.N) (h : t.val % 1250 = 0) :
    deg1 V c t.val t.isLt = k1_pay5 (grid1.coords t) (iblk1 V c 1 t) (k1_pay2 (F := F)) := by
  obtain ⟨n, hn⟩ := t
  cases n with
  | zero => rfl
  | succ n => exact if_pos h
theorem deg1_next (c : Dev nD) (t : Fin cfg1.N) (h : ¬t.val % 1250 = 0) :
    deg1 V c t.val t.isLt = k1_pay5 (grid1.coords t) (iblk1 V c 1 t)
      (deg1 V c (t.val - 1) (Nat.lt_of_le_of_lt (Nat.sub_le _ _) t.isLt)) := by
  obtain ⟨n, hn⟩ := t
  cases n with
  | zero => exact absurd (Nat.zero_mod _) h
  | succ n => exact if_neg h

/-! ## The region's invariant -/

/-- The scoped buffers other than the two scratch accumulators, each at some contents: named by splitting the two
    off the list (they are its last two entries, so the list is re-spelt with them in front). -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_scratch0), ((c : Thread nD τ).loc cc0_scratch0) ↦{fullShare} f))

/-- The scoped rest with the two scratch accumulators in front. -/
theorem scopedRest1_front (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ (∃ f : Buf (Elt F) ((c : Thread nD τ).loc cc1_scratch1), ((c : Thread nD τ).loc cc1_scratch1) ↦{fullShare} f)
          ∗ others1 (F := F) c) :=
  Pipeline.scopedRest_eq_of_list spec1 c [cc1_scratch0, cc1_scratch1, cc0_stg0_0, cc0_stg0_1, cc0_stg1_0, cc0_stg1_1, cc0_stg2_0, cc0_stg2_1, cc0_scratch0] (by decide) (by decide)

/-- The class invariant with the two scratch accumulators split off as memrefs owned at some contents. -/
theorem PhiA1_eq (c : Dev nD) :
    (Pipeline.ΦA spec1 c : sProp 𝕄)
      = iprop(iprop((∃ d, owns (c : Thread nD τ) scM1 fullShare d) ∗ (∃ d, owns (c : Thread nD τ) scG1 fullShare d) ∗ others1 (F := F) c)
          ∗ (∃ r, prngReg c r)) := by
  unfold Pipeline.ΦA; rw [scopedRest1_front]; simp only [scM1, scG1, owns_whole]; rfl

def PhiS1 (c : Dev nD) : (n : ℕ) → n ≤ cfg1.N → sProp 𝕄
  | 0, _ => Pipeline.ΦA spec1 c
  | n + 1, hn => iprop(iprop(owns (c : Thread nD τ) scM1 fullShare (acc1 V c n hn) ∗ owns (c : Thread nD τ) scG1 fullShare (deg1 V c n hn)
      ∗ others1 (F := F) c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare (acc1 V c n hn) ∗ owns (c : Thread nD τ) scG1 fullShare (deg1 V c n hn)
      ∗ others1 (F := F) c) ∗ (∃ r, prngReg c r)) := rfl
theorem PhiS1_pos (c : Dev nD) (n : ℕ) (h : n ≤ cfg1.N) (hz : n ≠ 0) :
    PhiS1 V c n h = iprop(iprop(owns (c : Thread nD τ) scM1 fullShare (acc1 V c (n - 1) (by omega))
      ∗ owns (c : Thread nD τ) scG1 fullShare (deg1 V c (n - 1) (by omega)) ∗ others1 (F := F) c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay6 (iblk1 V c 2 t) (acc1 V c t.val t.isLt) (deg1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by dsimp only [dat1]
theorem PhiS1_castSucc (c : Dev nD) (t : Fin cfg1.N) : (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay6 (iblk1 V c 2 t) (acc1 V c t.val t.isLt) (deg1 V c t.val t.isLt) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

/-- The three input windows are never idle. -/
theorem liveAt1_0 (t : Fin cfg1.N) : cfg1.idle 0 (grid1.coords t) = false := rfl
theorem liveAt1_1 (t : Fin cfg1.N) : cfg1.idle 1 (grid1.coords t) = false := rfl
theorem liveAt1_2 (t : Fin cfg1.N) : cfg1.idle 2 (grid1.coords t) = false := rfl

set_option maxHeartbeats 4000000 in
/-- The body at any point: as for the gather call, with two scratch buffers carried. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 1250 = 0
  · -- the first edge block of a node block: reset both, then accumulate; the output is left alone
    have hc0 : cond1_0 (grid1.coords t) := (cond1_0_iff t).mpr h0
    have hc1 : ¬cond1_1 (grid1.coords t) := fun h => by have := (cond1_1_iff t).mp h; omega
    rw [Dat.leavesExact_idle (dat1 V c) 3 t (idle1_3_of _ hc1) (flush1_3_false t (by omega))]
    rw [acc1_first V c t h0, deg1_first V c t h0]
    by_cases hz : t.val = 0
    · rw [PhiS1_castSucc V c t, PhiS1_zero V c _ _ hz, PhiA1_eq]
      iintro ⟨⟨⟨HS, HG, Hoth⟩, Hg⟩, Ho, ⟨%d0, H0⟩, ⟨%d1, H1⟩, ⟨%d2, H2⟩, ⟨%d3, H3⟩⟩
      iapply (run1_A c Set.univ (grid1.coords t) _ _ _ _ _ _ _ _ _ _ _ _ hc0 hc1 (iblk1 V c 0 t) (iblk1 V c 1 t) (iblk1 V c 2 t) ((dat1 V c).before 3 t d3) _)
      isplitl [H0]; · iexact H0
      isplitl [H1]; · iexact H1
      isplitl [H2]; · iexact H2
      isplitl [H3]; · iexact H3
      isplitl [HS]; · iexact HS
      isplitl [HG]; · iexact HG
      iintro ⟨H0, H1, H2, H3, HS, HG⟩
      isplitl [HS HG Hoth Hg]
      · isplitl [HS HG Hoth]
        · isplitl [HS]; · iexact HS
          isplitl [HG]; · iexact HG
          iexact Hoth
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS, HG, Hoth⟩, Hg⟩, Ho, ⟨%d0, H0⟩, ⟨%d1, H1⟩, ⟨%d2, H2⟩, ⟨%d3, H3⟩⟩
      iapply (run1_A c Set.univ (grid1.coords t) _ _ _ _ _ _ _ _ _ _ _ _ hc0 hc1 (iblk1 V c 0 t) (iblk1 V c 1 t) (iblk1 V c 2 t) ((dat1 V c).before 3 t d3) _)
      isplitl [H0]; · iexact H0
      isplitl [H1]; · iexact H1
      isplitl [H2]; · iexact H2
      isplitl [H3]; · iexact H3
      isplitl [HS]; · iexists _; iexact HS
      isplitl [HG]; · iexists _; iexact HG
      iintro ⟨H0, H1, H2, H3, HS, HG⟩
      isplitl [HS HG Hoth Hg]
      · isplitl [HS HG Hoth]
        · isplitl [HS]; · iexact HS
          isplitl [HG]; · iexact HG
          iexact Hoth
        iexact Hg
      isplitl [Ho]; · iexact Ho
      isplitl [H0]; · iexact H0
      isplitl [H1]; · iexact H1
      isplitl [H2]; · iexact H2
      iexists _; iexact H3
  · have hc0 : ¬cond1_0 (grid1.coords t) := fun h => h0 ((cond1_0_iff t).mp h)
    have hz : t.val ≠ 0 := fun h => h0 (by rw [h])
    rw [acc1_next V c t h0, deg1_next V c t h0]
    rw [PhiS1_castSucc V c t, PhiS1_pos V c _ _ hz]
    by_cases h1 : t.val % 1250 = 1249
    · -- the last edge block: accumulate, then store the quotient
      have hc1 : cond1_1 (grid1.coords t) := (cond1_1_iff t).mpr h1
      rw [show (dat1 V c).leavesExact 3 t = owns (c : Thread nD τ) (ms1_3 t) fullShare ((dat1 V c).after 3 t) from by
        unfold Dat.leavesExact; rw [live1_3_of _ hc1], after1_3]
      rw [acc1_next V c t h0, deg1_next V c t h0]
      iintro ⟨⟨⟨HS, HG, Hoth⟩, Hg⟩, Ho, ⟨%d0, H0⟩, ⟨%d1, H1⟩, ⟨%d2, H2⟩, ⟨%d3, H3⟩⟩
      iapply (run1_C c Set.univ (grid1.coords t) _ _ _ _ _ _ _ _ _ _ _ _ hc0 hc1 (iblk1 V c 0 t) (iblk1 V c 1 t) (iblk1 V c 2 t)
        (acc1 V c (t.val - 1) (Nat.lt_of_le_of_lt (Nat.sub_le _ _) t.isLt)) (deg1 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      isplitl [HG]; · iexact HG
      iintro ⟨H0, H1, H2, H3, HS, HG⟩
      isplitl [HS HG Hoth Hg]
      · isplitl [HS HG Hoth]
        · isplitl [HS]; · iexact HS
          isplitl [HG]; · iexact HG
          iexact Hoth
        iexact Hg
      isplitl [Ho]; · iexact Ho
      isplitl [H0]; · iexact H0
      isplitl [H1]; · iexact H1
      isplitl [H2]; · iexact H2
      iexact H3
    · -- a middle edge block: accumulate; the output is left alone
      have hc1 : ¬cond1_1 (grid1.coords t) := fun h => h1 ((cond1_1_iff t).mp h)
      rw [Dat.leavesExact_idle (dat1 V c) 3 t (idle1_3_of _ hc1) (flush1_3_false t h1)]
      iintro ⟨⟨⟨HS, HG, Hoth⟩, Hg⟩, Ho, ⟨%d0, H0⟩, ⟨%d1, H1⟩, ⟨%d2, H2⟩, ⟨%d3, H3⟩⟩
      iapply (run1_B c Set.univ (grid1.coords t) _ _ _ _ _ _ _ _ _ _ _ _ hc0 hc1 (iblk1 V c 0 t) (iblk1 V c 1 t) (iblk1 V c 2 t) ((dat1 V c).before 3 t d3)
        (acc1 V c (t.val - 1) (Nat.lt_of_le_of_lt (Nat.sub_le _ _) t.isLt)) (deg1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      isplitl [HG]; · iexact HG
      iintro ⟨H0, H1, H2, H3, HS, HG⟩
      isplitl [HS HG Hoth Hg]
      · isplitl [HS HG Hoth]
        · isplitl [HS]; · iexact HS
          isplitl [HG]; · iexact HG
          iexact Hoth
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]

theorem hout1 (c : Dev nD) : (dat1 V c).Φ (Fin.last cfg1.N) ⊢ Pipeline.ΦA spec1 c := by
  have hN : cfg1.N = 62500 := N_1
  rw [show (dat1 V c).Φ (Fin.last cfg1.N) = PhiS1 V c (Fin.last cfg1.N).val (Nat.le_of_lt_succ (Fin.last cfg1.N).isLt) from rfl,
    PhiS1_pos V c _ _ (by rw [Fin.val_last]; omega), PhiA1_eq]
  iintro ⟨⟨HS, HG, Hoth⟩, Hg⟩
  isplitl [HS HG Hoth]
  · isplitl [HS]; · iexists _; iexact HS
    isplitl [HG]; · iexists _; iexact HG
    iexact Hoth
  iexact Hg

end Cert.Kernel.Run

end
-- ==== Proof.Kernel.MainRun.lean ====
/-
  The run of @main: six host operations that cut the two index rows out of the edge list and lay them out as a
  column and a row, then the gather call, then the scatter call.

  Between two items every unscoped buffer of the core is held at a named valuation: the launch contents; those
  after the host operations; then, after each call, the same with the call's arrays at what the pipeline leaves
  in them (each input as entered, the output at its write-backs folded over the grid).  Each call enters its
  region from the valuation before it, routes the generator register and the scoped buffers through its
  invariant, and leaves at the valuation after it.  The launch then gives: every weakly fair execution
  terminates, and every final memory holds every unscoped buffer at the last valuation.  Read at the three
  arguments that is the launch contents (no host operation and no call writes an argument); read at the result
  it is what the scatter call's pipeline leaves in its output array.
-/
import proofs.«411144_j43404939493623_1_alg».proof.Proof.Kernel.GatherData
import proofs.«411144_j43404939493623_1_alg».proof.Proof.Kernel.ScatterData
import proofs.«411144_j43404939493623_1_alg».proof.Proof.Gen.Kernel.Regions
import Idealize.ShloMosaic.Lib.Pipeline.FrameBody
import Idealize.ShloMosaic.Lib.Pipeline.RegionsLoop
import Idealize.ShloMosaic.Lib.Pipeline.FrameSuffix

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host operations (the gather call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the gather call: its arrays at what its pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the scatter call: its arrays at what its pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The two calls as segments -/

set_option backward.isDefEq.respectTransparency.types false in
/-- The gather call: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (hin0 (V1 m ρ) c)
    unfold Pipeline.ΦA
    iintro ⟨Hp, -, Hr⟩
    isplitl [Hr]; · iexact Hr
    iexact Hp
  hout c := by
    refine (hout0 (V1 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The scatter call: entered from every unscoped buffer at `W2`, left at `W3` (what the launch reads at the end). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (hin1 (V2 m ρ) c)
    unfold Pipeline.ΦA
    iintro ⟨Hp, -, Hr⟩
    isplitl [Hr]; · iexact Hr
    iexact Hp
  hout c := by
    refine (hout1 (V2 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: every weakly fair execution of @main from memory `m` with zero counters terminates, nothing faulting,
    and every final memory holds every unscoped buffer of every core at the last valuation `W3`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-! ## The last valuation at the arguments and at the result -/

/-- `ds_in` is the scatter call's third input: its array ends as entered, no array of the gather call, written by
    no host operation. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 2).trans (((dat1 (V2 m ρ) c).arrAt_in 2 rfl _).trans (A_eq1 (V2 m ρ) c 2))
    _ = W1 m ρ c (Proc.devRef .tc main_arg0) := W2_of_ne m ρ c main_arg0 (by decide)
    _ = m ((c : Thread nD τ).loc main_arg0) := Gen.V1_of m c main_arg0 (by decide)

/-- `ds_out` is the gather call's second input and no array of the scatter call. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 1).trans (((dat0 (V1 m ρ) c).arrAt_in 1 rfl _).trans (A_eq0 (V1 m ρ) c 1))
    _ = m ((c : Thread nD τ).loc main_arg1) := Gen.V1_of m c main_arg1 (by decide)

/-- The edge list is an array of neither call (they read the column and the row cut out of it). -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = m ((c : Thread nD τ).loc main_arg2) := Gen.V1_of m c main_arg2 (by decide)

/-- The result is the scatter call's output array: what its pipeline leaves there. -/
theorem W3_main_v7 (c : Dev nD) : W3 m ρ c (Proc.devRef .tc main_v7) = (dat1 (V2 m ρ) c).arrAt 3 cfg1.N :=
  W3_arr m ρ c 3

/-! ## The frame, and the run with its result named -/

/-- THE FRAME: every weakly fair execution of @main terminates, nothing faulting, and every final memory holds
    each argument as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_main m ρ)

/-- THE RUN WITH ITS RESULT NAMED: the same, and the result array ends at what the scatter call's pipeline leaves. -/
theorem run_out : θ_run defs (onTc (τ := τ) (main (F := F))) ⟨m, fun _ => 0, ρ⟩ (fun r => ∀ c : Dev nD,
      r.2.mem ((c.tc : Thread nD τ).loc main_v7) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v7 (by decide))).trans (W3_main_v7 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_main m ρ)

end Cert.Kernel.Run

end
-- ==== Proof.KernelIdeal.Sched.lean ====
/-
  The schedule of the two pallas_calls at a symbolic grid point, by arithmetic.

  The gather call runs on a grid of 800 edge blocks by 50 node blocks, the scatter call on 50 node blocks
  by 1250 edge blocks; points are taken row-major, the last axis fastest.  So point t of the gather call has
  coordinates (t / 50, t % 50) and point t of the scatter call (t / 1250, t % 1250).  Each kernel's two
  branch conditions test the last coordinate against 0 and against its last value, and each call's output
  block index is the first coordinate, so the output is written back exactly at the points whose last
  coordinate is the last value.  Every fact here is proved at a symbolic point from these two remainders;
  the conditions' word chains are decided over the one axis they read (50 and 1250 values).
-/
import proofs.«411144_j43404939493623_1_alg».proof.Proof.Gen.KernelIdeal.Launch
import Idealize.ShloMosaic.Lib.Pipeline.Kit
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, as the kernels compute them -/

/-- The gather body's first branch (reset the accumulator): the node-block coordinate is 0. -/
abbrev cond0_0 (i : grid0.Coords) : Prop := (Scalar.cmpi .ne (Scalar.extui (Scalar.cmpi .eq (BitVec.ofNat 32 (i 1).val) 0#32)) 0#32) = 1#1
/-- Its last branch (store the output): the node-block coordinate is 49. -/
abbrev cond0_1 (i : grid0.Coords) : Prop := k0_cond2 i = 1#1
/-- The scatter body's first branch (reset both accumulators): the edge-block coordinate is 0. -/
abbrev cond1_0 (i : grid1.Coords) : Prop := (Scalar.cmpi .ne (Scalar.extui (Scalar.cmpi .eq (BitVec.ofNat 32 (i 1).val) 0#32)) 0#32) = 1#1
/-- Its last branch (store the output): the edge-block coordinate is 1249. -/
abbrev cond1_1 (i : grid1.Coords) : Prop := k1_cond2 i = 1#1

/-- The offsets of every whole-buffer access are zero. -/
theorem hz : (![0, 0] : Fin 2 → Nat) = fun _ => 0 := funext fun a => by fin_cases a <;> rfl

/-! ## The conditions' word chains, decided over the one axis they read -/

theorem word_eq0_50 : ∀ n : Fin 50, ((Scalar.cmpi .ne (Scalar.extui (Scalar.cmpi .eq (BitVec.ofNat 32 n.val) 0#32)) 0#32) = 1#1) ↔ n.val = 0 := by
  decide +kernel
theorem word_eq49_50 : ∀ n : Fin 50, ((Scalar.cmpi .ne (Scalar.extui (Scalar.cmpi .eq (BitVec.ofNat 32 n.val) 49#32)) 0#32) = 1#1) ↔ n.val = 49 := by
  decide +kernel
theorem word_eq0_1250 : ∀ n : Fin 1250, ((Scalar.cmpi .ne (Scalar.extui (Scalar.cmpi .eq (BitVec.ofNat 32 n.val) 0#32)) 0#32) = 1#1) ↔ n.val = 0 := by
  decide +kernel
theorem word_eq1249_1250 : ∀ n : Fin 1250, ((Scalar.cmpi .ne (Scalar.extui (Scalar.cmpi .eq (BitVec.ofNat 32 n.val) 1249#32)) 0#32) = 1#1) ↔ n.val = 1249 := by
  decide +kernel

/-! ## The coordinates of a point -/

theorem stride0_0 : grid0.stride 0 = 50 := by decide
theorem stride0_1 : grid0.stride 1 = 1 := by decide
theorem stride1_0 : grid1.stride 0 = 1250 := by decide
theorem stride1_1 : grid1.stride 1 = 1 := by decide

theorem coords0_1 (t : Fin grid0.N) : (grid0.coords t 1).val = t.val % 50 := by
  show t.val / grid0.stride 1 % 50 = _
  rw [stride0_1, Nat.div_one]
theorem coords0_0 (t : Fin grid0.N) : (grid0.coords t 0).val = t.val / 50 := by
  have hN : t.val < 40000 := lt_of_lt_of_eq t.isLt N_0
  show t.val / grid0.stride 0 % 800 = _
  rw [stride0_0]; omega
theorem coords1_1 (t : Fin grid1.N) : (grid1.coords t 1).val = t.val % 1250 := by
  show t.val / grid1.stride 1 % 1250 = _
  rw [stride1_1, Nat.div_one]
theorem coords1_0 (t : Fin grid1.N) : (grid1.coords t 0).val = t.val / 1250 := by
  have hN : t.val < 62500 := lt_of_lt_of_eq t.isLt N_1
  show t.val / grid1.stride 0 % 50 = _
  rw [stride1_0]; omega

/-! ## The conditions at a point, in closed form -/

theorem cond0_0_iff (t : Fin grid0.N) : cond0_0 (grid0.coords t) ↔ t.val % 50 = 0 := by
  have h := word_eq0_50 ⟨(grid0.coords t 1).val, (grid0.coords t 1).isLt⟩
  rw [← coords0_1 t]; exact h
theorem cond0_1_iff (t : Fin grid0.N) : cond0_1 (grid0.coords t) ↔ t.val % 50 = 49 := by
  have h := word_eq49_50 ⟨(grid0.coords t 1).val, (grid0.coords t 1).isLt⟩
  rw [← coords0_1 t]; exact h
theorem cond1_0_iff (t : Fin grid1.N) : cond1_0 (grid1.coords t) ↔ t.val % 1250 = 0 := by
  have h := word_eq0_1250 ⟨(grid1.coords t 1).val, (grid1.coords t 1).isLt⟩
  rw [← coords1_1 t]; exact h
theorem cond1_1_iff (t : Fin grid1.N) : cond1_1 (grid1.coords t) ↔ t.val % 1250 = 1249 := by
  have h := word_eq1249_1250 ⟨(grid1.coords t 1).val, (grid1.coords t 1).isLt⟩
  rw [← coords1_1 t]; exact h

/-! ## The output windows' block index and write-back points -/

/-- The gather call's output block index at a point: its edge-block coordinate, column block 0. -/
theorem outIndex0 (i : grid0.Coords) : cc0_transform_2 i = ![(i 0).val, 0] := by
  have h : (i 0).val < 800 := (i 0).isLt
  funext a
  fin_cases a
  · show (BitVec.ofNat 32 (i 0).val).toNat = (i 0).val
    rw [BitVec.toNat_ofNat]; exact Nat.mod_eq_of_lt (by omega)
  · rfl

/-- The scatter call's output block index at a point: its node-block coordinate, column block 0. -/
theorem outIndex1 (i : grid1.Coords) : cc1_transform_3 i = ![(i 0).val, 0] := by
  have h : (i 0).val < 50 := (i 0).isLt
  funext a
  fin_cases a
  · show (BitVec.ofNat 32 (i 0).val).toNat = (i 0).val
    rw [BitVec.toNat_ofNat]; exact Nat.mod_eq_of_lt (by omega)
  · rfl

/-- The gather call writes its output block back exactly after the last node block of an edge block. -/
theorem flush0_2_iff (t : Fin cfg0.N) : (cfg0.win 2).flush t = true ↔ t.val % 50 = 49 := by
  have hN : t.val < 40000 := lt_of_lt_of_eq t.isLt N_0
  show Pipeline.Window.flushOf grid0 true cc0_transform_2 t = true ↔ _
  unfold Pipeline.Window.flushOf
  simp only [Bool.true_and, Bool.or_eq_true, decide_eq_true_eq]
  have hNe : grid0.N = 40000 := N_0
  constructor
  · rintro (h | ⟨h, hne⟩)
    · omega
    · by_contra h49
      apply hne
      rw [outIndex0, outIndex0, coords0_0, coords0_0]
      have e : (t.val + 1) / 50 = t.val / 50 := by omega
      show ![(t.val + 1) / 50, 0] = ![t.val / 50, 0]
      rw [e]
  · intro h49
    by_cases hl : t.val + 1 = grid0.N
    · exact Or.inl hl
    · refine Or.inr ⟨by omega, fun heq => ?_⟩
      rw [outIndex0, outIndex0, coords0_0, coords0_0] at heq
      have h0 := congrFun heq 0
      have h0' : (t.val + 1) / 50 = t.val / 50 := h0
      omega

/-- The scatter call writes its output block back exactly after the last edge block of a node block. -/
theorem flush1_3_iff (t : Fin cfg1.N) : (cfg1.win 3).flush t = true ↔ t.val % 1250 = 1249 := by
  have hN : t.val < 62500 := lt_of_lt_of_eq t.isLt N_1
  show Pipeline.Window.flushOf grid1 true cc1_transform_3 t = true ↔ _
  unfold Pipeline.Window.flushOf
  simp only [Bool.true_and, Bool.or_eq_true, decide_eq_true_eq]
  have hNe : grid1.N = 62500 := N_1
  constructor
  · rintro (h | ⟨h, hne⟩)
    · omega
    · by_contra h49
      apply hne
      rw [outIndex1, outIndex1, coords1_0, coords1_0]
      have e : (t.val + 1) / 1250 = t.val / 1250 := by omega
      show ![(t.val + 1) / 1250, 0] = ![t.val / 1250, 0]
      rw [e]
  · intro h49
    by_cases hl : t.val + 1 = grid1.N
    · exact Or.inl hl
    · refine Or.inr ⟨by omega, fun heq => ?_⟩
      rw [outIndex1, outIndex1, coords1_0, coords1_0] at heq
      have h0 := congrFun heq 0
      have h0' : (t.val + 1) / 1250 = t.val / 1250 := h0
      omega

theorem flush0_2_false (t : Fin cfg0.N) (h : t.val % 50 ≠ 49) : (cfg0.win 2).flush t = false := by
  cases hb : (cfg0.win 2).flush t
  · rfl
  · exact absurd ((flush0_2_iff t).mp hb) h
theorem flush1_3_false (t : Fin cfg1.N) (h : t.val % 1250 ≠ 1249) : (cfg1.win 3).flush t = false := by
  cases hb : (cfg1.win 3).flush t
  · rfl
  · exact absurd ((flush1_3_iff t).mp hb) h

/-! ## Where the output windows are idle: where the last branch is not taken -/

theorem idle0_2_of (i : grid0.Coords) (h : ¬cond0_1 i) : cfg0.idle 2 i = true := by
  show (!(k0_cond2 i == 1#1)) = true
  simp only [Bool.not_eq_true', beq_eq_false_iff_ne, ne_eq]; exact h
theorem live0_2_of (i : grid0.Coords) (h : cond0_1 i) : cfg0.idle 2 i = false := by
  show (!(k0_cond2 i == 1#1)) = false
  simp only [Bool.not_eq_false', beq_iff_eq]; exact h
theorem idle1_3_of (i : grid1.Coords) (h : ¬cond1_1 i) : cfg1.idle 3 i = true := by
  show (!(k1_cond2 i == 1#1)) = true
  simp only [Bool.not_eq_true', beq_eq_false_iff_ne, ne_eq]; exact h
theorem live1_3_of (i : grid1.Coords) (h : cond1_1 i) : cfg1.idle 3 i = false := by
  show (!(k1_cond2 i == 1#1)) = false
  simp only [Bool.not_eq_false', beq_iff_eq]; exact h

end Cert.KernelIdeal.Run

end
-- ==== Proof.KernelIdeal.GatherBody.lean ====
/-
  The gather kernel's body, run once per control case.

  At a grid point (eb, nb) the body adds to a 2000 x 64 accumulator the product of a one-hot matrix
  (row r, column k is 1 exactly when the r-th source index of edge block eb equals node nb * 2000 + k)
  with node block nb of the feature table.  The accumulator lives in a scratch buffer across the
  points of one edge block: the first point (nb = 0) zeroes it before adding, the last (nb = 49)
  also writes it, rounded to the output format, into the output window's buffer.

  Each theorem states what one case leaves in the scratch buffer and in the output buffer as the
  body's own payload terms of the two input blocks and of what the scratch held before.
-/
import proofs.«411144_j43404939493623_1_alg».proof.Proof.KernelIdeal.Sched
import proofs.«411144_j43404939493623_1_alg».proof.Proof.Gen.KernelIdeal.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem run0_B (c : Dev nD) (E : Set ℕ) (i : grid0.Coords)
    (arg2 : Memref sig .tc .vmem S2000x1 .i32) (harg2 : arg2.IsWhole) (arg3 : Memref sig .tc .vmem S2000x64 .f32) (harg3 : arg3.IsWhole)
    (arg4 : Memref sig .tc .vmem S2000x64 .bf16) (harg4 : arg4.IsWhole) (arg5 : Memref sig .tc .vmem S2000x64 .f32) (harg5 : arg5.IsWhole)
    (hc0 : ¬cond0_0 i) (hc1 : ¬cond0_1 i)
    (x0 : Vec F S2000x1 .i32) (x1 : Vec F S2000x64 .f32) (y : Vec F S2000x64 .bf16) (s : Vec F S2000x64 .f32) (K : PUnit → sProp 𝕄) :
    iprop(owns (c : Thread nD τ) arg2 fullShare x0 ∗ owns (c : Thread nD τ) arg3 fullShare x1 ∗ owns (c : Thread nD τ) arg4 fullShare y
        ∗ owns (c : Thread nD τ) arg5 fullShare s
        ∗ (iprop(owns (c : Thread nD τ) arg2 fullShare x0 ∗ owns (c : Thread nD τ) arg3 fullShare x1 ∗ owns (c : Thread nD τ) arg4 fullShare y
            ∗ owns (c : Thread nD τ) arg5 fullShare (k0_pay2 i x0 x1 s)) -∗ K ⟨⟩))
      ⊢ wp frame (wpE (defs₀ (F := F)) Variants.none c none) E (cc0__gather_kernel i arg2 harg2 arg3 harg3 arg4 harg4 arg5 harg5) K := by
  simp only [cc0__gather_kernel_eq_skeleton]; unfold cc0__gather_kernel_skel
  unfold owns
  iintro ⟨⟨%f0, %hf0, H0⟩, ⟨%f1, %hf1, H1⟩, ⟨%f4, %hf4, H4⟩, ⟨%f5, %hf5, H5⟩, Hk⟩
  subst hf0; subst hf1; subst hf4; subst hf5
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H4]; · iexists f4; isplitr; · ipureintro; rfl
                  iexact H4
  iexists _; isplitr
  swap; · iexact H5
  ipureintro
  rw [View.read_writes_eq_canon _ _ _ (View.cover_of_tiled _ S2000x64.size (by rfl))]
  rw [View.canon_unit_zero hz]
  simp only [View.readAt_eq_ld, View.ld_unit_zero (S := S2000x64) hz, View.ld_unit_zero (S := S2000x1) hz]

set_option maxHeartbeats 1000000 in
theorem run0_A (c : Dev nD) (E : Set ℕ) (i : grid0.Coords)
    (arg2 : Memref sig .tc .vmem S2000x1 .i32) (harg2 : arg2.IsWhole) (arg3 : Memref sig .tc .vmem S2000x64 .f32) (harg3 : arg3.IsWhole)
    (arg4 : Memref sig .tc .vmem S2000x64 .bf16) (harg4 : arg4.IsWhole) (arg5 : Memref sig .tc .vmem S2000x64 .f32) (harg5 : arg5.IsWhole)
    (hc0 : cond0_0 i) (hc1 : ¬cond0_1 i)
    (x0 : Vec F S2000x1 .i32) (x1 : Vec F S2000x64 .f32) (y : Vec F S2000x64 .bf16) (K : PUnit → sProp 𝕄) :
    iprop(owns (c : Thread nD τ) arg2 fullShare x0 ∗ owns (c : Thread nD τ) arg3 fullShare x1 ∗ owns (c : Thread nD τ) arg4 fullShare y
        ∗ (∃ s, owns (c : Thread nD τ) arg5 fullShare s)
        ∗ (iprop(owns (c : Thread nD τ) arg2 fullShare x0 ∗ owns (c : Thread nD τ) arg3 fullShare x1 ∗ owns (c : Thread nD τ) arg4 fullShare y
            ∗ owns (c : Thread nD τ) arg5 fullShare (k0_pay2 i x0 x1 (k0_pay1 (F := F)))) -∗ K ⟨⟩))
      ⊢ wp frame (wpE (defs₀ (F := F)) Variants.none c none) E (cc0__gather_kernel i arg2 harg2 arg3 harg3 arg4 harg4 arg5 harg5) K := by
  simp only [cc0__gather_kernel_eq_skeleton]; unfold cc0__gather_kernel_skel
  unfold owns
  iintro ⟨⟨%f0, %hf0, H0⟩, ⟨%f1, %hf1, H1⟩, ⟨%f4, %hf4, H4⟩, ⟨%s5, %f5, -, H5⟩, Hk⟩
  subst hf0; subst hf1; subst hf4
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H4]; · iexists f4; isplitr; · ipureintro; rfl
                  iexact H4
  iexists _; isplitr
  swap; · iexact H5
  ipureintro
  sl_unfold_words
  rw [View.read_writes_eq_canon _ _ _ (fun y => by
    obtain ⟨p, hp, hy⟩ := View.cover_of_tiled [(⟨Rect.unit (s := S2000x64) ![0, 0] S2000x64.size inb_S2000x64_S2000x64_0_0, (k0_pay1 (F := F))⟩ : View.Piece (Elt F) S2000x64 .f32)] S2000x64.size (by rfl) y
    exact ⟨_, List.mem_cons_self, by rw [List.mem_singleton.mp hp] at hy; exact hy⟩)]
  rw [View.canon_cons_unit_zero (S := S2000x64) hz]
  simp only [View.readAt_eq_ld, View.readCov_unit_zero (S := S2000x64) _ hz, View.ld_unit_zero (S := S2000x64) hz, View.ld_unit_zero (S := S2000x1) hz]

set_option maxHeartbeats 1000000 in
theorem run0_C (c : Dev nD) (E : Set ℕ) (i : grid0.Coords)
    (arg2 : Memref sig .tc .vmem S2000x1 .i32) (harg2 : arg2.IsWhole) (arg3 : Memref sig .tc .vmem S2000x64 .f32) (harg3 : arg3.IsWhole)
    (arg4 : Memref sig .tc .vmem S2000x64 .bf16) (harg4 : arg4.IsWhole) (arg5 : Memref sig .tc .vmem S2000x64 .f32) (harg5 : arg5.IsWhole)
    (hc0 : ¬cond0_0 i) (hc1 : cond0_1 i)
    (x0 : Vec F S2000x1 .i32) (x1 : Vec F S2000x64 .f32) (s : Vec F S2000x64 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare s
        ∗ (iprop(owns (c : Thread nD τ) arg2 fullShare x0 ∗ owns (c : Thread nD τ) arg3 fullShare x1
            ∗ owns (c : Thread nD τ) arg4 fullShare (k0_pay3 (k0_pay2 i x0 x1 s))
            ∗ owns (c : Thread nD τ) arg5 fullShare (k0_pay2 i x0 x1 s)) -∗ K ⟨⟩))
      ⊢ wp frame (wpE (defs₀ (F := F)) Variants.none c none) E (cc0__gather_kernel i arg2 harg2 arg3 harg3 arg4 harg4 arg5 harg5) K := by
  simp only [cc0__gather_kernel_eq_skeleton]; unfold cc0__gather_kernel_skel
  unfold owns
  iintro ⟨⟨%f0, %hf0, H0⟩, ⟨%f1, %hf1, H1⟩, ⟨%d4, %f4, -, H4⟩, ⟨%f5, %hf5, H5⟩, Hk⟩
  subst hf0; subst hf1; subst hf5
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H4]
  · iexists _; isplitr
    swap; · iexact H4
    ipureintro
    sl_unfold_words
    rw [View.read_writes_eq_canon _ _ _ (View.cover_of_tiled _ S2000x64.size (by rfl))]
    rw [View.canon_unit_zero hz]
    simp only [View.readAt_eq_ld, View.readCov_unit_zero (S := S2000x64) _ hz, View.ld_unit_zero (S := S2000x64) hz, View.ld_unit_zero (S := S2000x1) hz]
  iexists _; isplitr
  swap; · iexact H5
  ipureintro
  sl_unfold_words
  rw [View.read_writes_eq_canon _ _ _ (View.cover_of_tiled _ S2000x64.size (by rfl))]
  rw [View.canon_unit_zero hz]
  simp only [View.readAt_eq_ld, View.ld_unit_zero (S := S2000x64) hz, View.ld_unit_zero (S := S2000x1) hz]

end Cert.KernelIdeal.Run

end
-- ==== Proof.KernelIdeal.GatherData.lean ====
/-
  The gather call's proof data: what every staging buffer and the scratch accumulator hold after each grid point.

  Point t = (eb, nb) is handed edge block eb of the source column (2000 index words) and node block nb of the
  feature table (2000 rows of 64).  The scratch accumulator is carried from point to point: after point t it is
  the body's update of what point t - 1 left, except at the first node block of an edge block (t % 50 = 0), where
  the update starts from zero.  The output buffer is stored only at the last node block (t % 50 = 49), with the
  accumulator rounded to the output's format; elsewhere the body leaves it as it found it, and the pipeline does
  not write it back there.  The region's invariant is the scratch at the accumulator of the point before (at
  anything before the first point), every other scoped buffer at anything, the generator register at some state.
-/
import proofs.«411144_j43404939493623_1_alg».proof.Proof.KernelIdeal.GatherBody
import Idealize.ShloMosaic.Lib.Pipeline.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The staging memrefs and the body at a point -/

/-- Each window's current staging memref at point `t`, as the pipeline passes it, and its wholeness. -/
abbrev ms0_0 (t : Fin cfg0.N) : Memref sig .tc .vmem S2000x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2000x64 .bf16 := win0_2.stage (cfg0.slots t 2)
abbrev hs0_2 (t : Fin cfg0.N) : (ms0_2 t).IsWhole := hstage0_2 ((cfg0.slots t 2).cast nbuf0_2)
/-- The scratch accumulator: a whole scoped buffer of the kernel's own. -/
abbrev scM0 : Memref sig .tc .vmem S2000x64 .f32 := Memref.whole cc0_scratch0

/-- The kernel body at point `t`, on what the pipeline calls it with. -/
abbrev bodyAt0 (t : Fin cfg0.N) : Prog (TpuEff nD τ sig (Elt F) Λ₀ .tc) PUnit :=
  cc0__gather_kernel (grid0.coords t) (ms0_0 t) (hs0_0 t) (ms0_1 t) (hs0_1 t) (ms0_2 t) (hs0_2 t) scM0 (Memref.isWhole_whole _)

/-! ## The input blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The accumulator, point by point -/

/-- What the scratch accumulator holds after the body at point `n`: the body's update of what point `n - 1` left,
    started from zero at the first node block of an edge block. -/
def acc0 (c : Dev nD) : (n : ℕ) → n < cfg0.N → Vec F S2000x64 .f32
  | 0, hn => k0_pay2 (grid0.coords ⟨0, hn⟩) (iblk0 V c 0 ⟨0, hn⟩) (iblk0 V c 1 ⟨0, hn⟩) (k0_pay1 (F := F))
  | n + 1, hn =>
    if (n + 1) % 50 = 0 then
      k0_pay2 (grid0.coords ⟨n + 1, hn⟩) (iblk0 V c 0 ⟨n + 1, hn⟩) (iblk0 V c 1 ⟨n + 1, hn⟩) (k0_pay1 (F := F))
    else
      k0_pay2 (grid0.coords ⟨n + 1, hn⟩) (iblk0 V c 0 ⟨n + 1, hn⟩) (iblk0 V c 1 ⟨n + 1, hn⟩) (acc0 c n (Nat.lt_of_succ_lt hn))

/-- At the first node block of an edge block the accumulator starts from zero. -/
theorem acc0_first (c : Dev nD) (t : Fin cfg0.N) (h : t.val % 50 = 0) :
    acc0 V c t.val t.isLt = k0_pay2 (grid0.coords t) (iblk0 V c 0 t) (iblk0 V c 1 t) (k0_pay1 (F := F)) := by
  obtain ⟨n, hn⟩ := t
  cases n with
  | zero => rfl
  | succ n => exact if_pos h

/-- Elsewhere it continues from what the point before left. -/
theorem acc0_next (c : Dev nD) (t : Fin cfg0.N) (h : ¬t.val % 50 = 0) :
    acc0 V c t.val t.isLt = k0_pay2 (grid0.coords t) (iblk0 V c 0 t) (iblk0 V c 1 t)
      (acc0 V c (t.val - 1) (Nat.lt_of_le_of_lt (Nat.sub_le _ _) t.isLt)) := by
  obtain ⟨n, hn⟩ := t
  cases n with
  | zero => exact absurd (Nat.zero_mod _) h
  | succ n => exact if_neg h

/-! ## The region's invariant -/

/-- The scoped buffers other than the scratch accumulator, each at some contents (the other call's staging buffers
    and scratch): named by splitting the scratch off the front of the list. -/
theorem scopedRest0_split (c : Dev nD) : ∃ R : sProp 𝕄,
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ R) :=
  ⟨_, scopedRest0_eq c⟩
def others0 (c : Dev nD) : sProp 𝕄 := Classical.choose (scopedRest0_split (F := F) c)

/-- The class invariant with the scratch accumulator split off as a memref owned at some contents. -/
theorem PhiA0_eq (c : Dev nD) :
    (Pipeline.ΦA spec0 c : sProp 𝕄)
      = iprop(iprop((∃ d, owns (c : Thread nD τ) scM0 fullShare d) ∗ others0 (F := F) c) ∗ (∃ r, prngReg c r)) := by
  unfold Pipeline.ΦA; rw [Classical.choose_spec (scopedRest0_split (F := F) c)]; simp only [scM0, owns_whole]; rfl

/-- Before position `n`: before the first point the class invariant (the scratch at anything); afterwards the
    scratch at what the point before left. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ others0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare (acc0 V c n hn) ∗ others0 (F := F) c) ∗ (∃ r, prngReg c r)) := rfl
theorem PhiS0_pos (c : Dev nD) (n : ℕ) (h : n ≤ cfg0.N) (hz : n ≠ 0) :
    PhiS0 V c n h = iprop(iprop(owns (c : Thread nD τ) scM0 fullShare (acc0 V c (n - 1) (by omega)) ∗ others0 (F := F) c) ∗ (∃ r, prngReg c r)) := by
  cases n with
  | zero => exact absurd rfl hz
  | succ n => rfl

/-! ## The proof data -/

/-- After the body at point `t`: each input's buffer at its block, the output's at the accumulator rounded to
    its format (consulted only where the body stores it); the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (acc0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by dsimp only [dat0]
theorem PhiS0_castSucc (c : Dev nD) (t : Fin cfg0.N) : (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (acc0 V c t.val t.isLt) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

/-- The two input windows are never idle. -/
theorem liveAt0_0 (t : Fin cfg0.N) : cfg0.idle 0 (grid0.coords t) = false := rfl
theorem liveAt0_1 (t : Fin cfg0.N) : cfg0.idle 1 (grid0.coords t) = false := rfl

set_option maxHeartbeats 4000000 in
/-- The body at any point.  The input buffers hold their blocks; the remainder of the point's number by 50 says which
    case the point is in; the invariant hands the body the scratch at what the point before left (at anything at the
    very first point) and takes it back at this point's accumulator; where the body does not store the output, its
    buffer goes back as it came. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 50 = 0
  · -- the first node block of an edge block: reset, then accumulate; the output is left alone
    have hc0 : cond0_0 (grid0.coords t) := (cond0_0_iff t).mpr h0
    have hc1 : ¬cond0_1 (grid0.coords t) := fun h => by have := (cond0_1_iff t).mp h; omega
    rw [Dat.leavesExact_idle (dat0 V c) 2 t (idle0_2_of _ hc1) (flush0_2_false t (by omega))]
    rw [acc0_first V c t h0]
    by_cases hz : t.val = 0
    · rw [PhiS0_castSucc V c t, PhiS0_zero V c _ _ hz, PhiA0_eq]
      iintro ⟨⟨⟨HS, Hoth⟩, Hg⟩, Ho, ⟨%d0, H0⟩, ⟨%d1, H1⟩, ⟨%d2, H2⟩⟩
      iapply (run0_A c Set.univ (grid0.coords t) _ _ _ _ _ _ _ _ hc0 hc1 (iblk0 V c 0 t) (iblk0 V c 1 t) ((dat0 V c).before 2 t d2) _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS, Hoth⟩, Hg⟩, Ho, ⟨%d0, H0⟩, ⟨%d1, H1⟩, ⟨%d2, H2⟩⟩
      iapply (run0_A c Set.univ (grid0.coords t) _ _ _ _ _ _ _ _ hc0 hc1 (iblk0 V c 0 t) (iblk0 V c 1 t) ((dat0 V c).before 2 t d2) _)
      isplitl [H0]; · iexact H0
      isplitl [H1]; · iexact H1
      isplitl [H2]; · iexact H2
      isplitl [HS]; · iexists _; iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2
  · have hc0 : ¬cond0_0 (grid0.coords t) := fun h => h0 ((cond0_0_iff t).mp h)
    have hz : t.val ≠ 0 := fun h => h0 (by rw [h])
    rw [acc0_next V c t h0]
    rw [PhiS0_castSucc V c t, PhiS0_pos V c _ _ hz]
    by_cases h1 : t.val % 50 = 49
    · -- the last node block: accumulate, then store the output
      have hc1 : cond0_1 (grid0.coords t) := (cond0_1_iff t).mpr h1
      rw [show (dat0 V c).leavesExact 2 t = owns (c : Thread nD τ) (ms0_2 t) fullShare ((dat0 V c).after 2 t) from by
        unfold Dat.leavesExact; rw [live0_2_of _ hc1], after0_2]
      rw [acc0_next V c t h0]
      iintro ⟨⟨⟨HS, Hoth⟩, Hg⟩, Ho, ⟨%d0, H0⟩, ⟨%d1, H1⟩, ⟨%d2, H2⟩⟩
      iapply (run0_C c Set.univ (grid0.coords t) _ _ _ _ _ _ _ _ hc0 hc1 (iblk0 V c 0 t) (iblk0 V c 1 t)
        (acc0 V c (t.val - 1) (Nat.lt_of_le_of_lt (Nat.sub_le _ _) t.isLt)) _)
      isplitl [H0]; · iexact H0
      isplitl [H1]; · iexact H1
      isplitl [H2]; · iexists _; iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · -- a middle node block: accumulate; the output is left alone
      have hc1 : ¬cond0_1 (grid0.coords t) := fun h => h1 ((cond0_1_iff t).mp h)
      rw [Dat.leavesExact_idle (dat0 V c) 2 t (idle0_2_of _ hc1) (flush0_2_false t h1)]
      iintro ⟨⟨⟨HS, Hoth⟩, Hg⟩, Ho, ⟨%d0, H0⟩, ⟨%d1, H1⟩, ⟨%d2, H2⟩⟩
      iapply (run0_B c Set.univ (grid0.coords t) _ _ _ _ _ _ _ _ hc0 hc1 (iblk0 V c 0 t) (iblk0 V c 1 t) ((dat0 V c).before 2 t d2)
        (acc0 V c (t.val - 1) (Nat.lt_of_le_of_lt (Nat.sub_le _ _) t.isLt)) _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2

/-- The windows conjoined one by one, then the body at the point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives the class invariant back: the accumulator's contents are forgotten. -/
theorem hout0 (c : Dev nD) : (dat0 V c).Φ (Fin.last cfg0.N) ⊢ Pipeline.ΦA spec0 c := by
  have hN : cfg0.N = 40000 := N_0
  rw [show (dat0 V c).Φ (Fin.last cfg0.N) = PhiS0 V c (Fin.last cfg0.N).val (Nat.le_of_lt_succ (Fin.last cfg0.N).isLt) from rfl,
    PhiS0_pos V c _ _ (by rw [Fin.val_last]; omega), PhiA0_eq]
  iintro ⟨⟨HS, Hoth⟩, Hg⟩
  isplitl [HS Hoth]
  · isplitl [HS]; · iexists _; iexact HS
    iexact Hoth
  iexact Hg

end Cert.KernelIdeal.Run

end
-- ==== Proof.KernelIdeal.ScatterBody.lean ====
/-
  The scatter kernel's body, run once per control case.

  At a grid point (nb, eb) the body forms a 2000 x 1280 one-hot matrix: row r, column j is 1 exactly
  when receiver word j of edge block eb equals node nb * 2000 + r.  It adds the product of that matrix
  with the gathered 1280 x 64 block to a 2000 x 64 accumulator, and adds the matrix's row sums (how many
  edges of the block arrive at each node) to a 2000 x 1 degree column.  Both live in scratch buffers
  across the points of one node block: the first point (eb = 0) zeroes them before adding, and the last
  (eb = 1249) also writes (input block + accumulator) / (degree + 1), the degree column spread along
  the 64 columns, into the output window's buffer.

  Each theorem states what one case leaves in the two scratch buffers and in the output buffer, as the
  body's own payload terms of the three input blocks and of what the scratch buffers held before:
  the first case starts both sums from zero, the middle case continues them, and the last case continues
  them and then forms the quotient from the sums it has just stored.
-/
import proofs.«411144_j43404939493623_1_alg».proof.Proof.KernelIdeal.Sched
import proofs.«411144_j43404939493623_1_alg».proof.Proof.Gen.KernelIdeal.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- First edge block of a node block: both sums are started from zero; the output buffer is untouched. -/
theorem run1_A (c : Dev nD) (E : Set ℕ) (i : grid1.Coords)
    (arg2 : Memref sig .tc .vmem S1280x64 .bf16) (harg2 : arg2.IsWhole) (arg3 : Memref sig .tc .vmem S1x1280 .i32) (harg3 : arg3.IsWhole)
    (arg4 : Memref sig .tc .vmem S2000x64 .f32) (harg4 : arg4.IsWhole) (arg5 : Memref sig .tc .vmem S2000x64 .f32) (harg5 : arg5.IsWhole)
    (arg6 : Memref sig .tc .vmem S2000x64 .f32) (harg6 : arg6.IsWhole) (arg7 : Memref sig .tc .vmem S2000x1 .f32) (harg7 : arg7.IsWhole)
    (hc0 : cond1_0 i) (hc1 : ¬cond1_1 i)
    (x0 : Vec F S1280x64 .bf16) (x1 : Vec F S1x1280 .i32) (x2 : Vec F S2000x64 .f32) (y : Vec F S2000x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare y
        ∗ (∃ s, owns (c : Thread nD τ) arg6 fullShare s) ∗ (∃ g, owns (c : Thread nD τ) arg7 fullShare g)
        ∗ (iprop(owns (c : Thread nD τ) arg2 fullShare x0 ∗ owns (c : Thread nD τ) arg3 fullShare x1 ∗ owns (c : Thread nD τ) arg4 fullShare x2 ∗ owns (c : Thread nD τ) arg5 fullShare y
            ∗ owns (c : Thread nD τ) arg6 fullShare (k1_pay4 i x1 x0 (k1_pay1 (F := F))) ∗ owns (c : Thread nD τ) arg7 fullShare (k1_pay5 i x1 (k1_pay2 (F := F)))) -∗ K ⟨⟩))
      ⊢ wp frame (wpE (defs₀ (F := F)) Variants.none c none) E (cc1__scatter_kernel i arg2 harg2 arg3 harg3 arg4 harg4 arg5 harg5 arg6 harg6 arg7 harg7) K := by
  simp only [cc1__scatter_kernel_eq_skeleton]; unfold cc1__scatter_kernel_skel
  unfold owns
  iintro ⟨⟨%f0, %hf0, H0⟩, ⟨%f1, %hf1, H1⟩, ⟨%f2, %hf2, H2⟩, ⟨%f5, %hf5, H5⟩, ⟨%s6, %f6, -, H6⟩, ⟨%g7, %f7, -, H7⟩, Hk⟩
  subst hf0; subst hf1; subst hf2; subst hf5
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H5]; · iexists f5; isplitr; · ipureintro; rfl
                  iexact H5
  isplitl [H6]
  · iexists _; isplitr
    swap; · iexact H6
    ipureintro
    sl_unfold_words
    rw [View.read_writes_eq_canon _ _ _ (fun y => by
      obtain ⟨p, hp, hy⟩ := View.cover_of_tiled [(⟨Rect.unit (s := S2000x64) ![0, 0] S2000x64.size inb_S2000x64_S2000x64_0_0, (k1_pay1 (F := F))⟩ : View.Piece (Elt F) S2000x64 .f32)] S2000x64.size (by rfl) y
      exact ⟨_, List.mem_cons_self, by rw [List.mem_singleton.mp hp] at hy; exact hy⟩)]
    rw [View.canon_cons_unit_zero (S := S2000x64) hz]
    simp only [View.readAt_eq_ld, View.readCov_unit_zero (S := S2000x64) _ hz, View.readCov_unit_zero (S := S2000x1) _ hz, View.ld_unit_zero (S := S2000x64) hz, View.ld_unit_zero (S := S2000x1) hz, View.ld_unit_zero (S := S1280x64) hz, View.ld_unit_zero (S := S1x1280) hz]
  iexists _; isplitr
  swap; · iexact H7
  ipureintro
  sl_unfold_words
  rw [View.read_writes_eq_canon _ _ _ (fun y => by
    obtain ⟨p, hp, hy⟩ := View.cover_of_tiled [(⟨Rect.unit (s := S2000x1) ![0, 0] S2000x1.size inb_S2000x1_S2000x1_0_0, (k1_pay2 (F := F))⟩ : View.Piece (Elt F) S2000x1 .f32)] S2000x1.size (by rfl) y
    exact ⟨_, List.mem_cons_self, by rw [List.mem_singleton.mp hp] at hy; exact hy⟩)]
  rw [View.canon_cons_unit_zero (S := S2000x1) hz]
  simp only [View.readAt_eq_ld, View.readCov_unit_zero (S := S2000x64) _ hz, View.readCov_unit_zero (S := S2000x1) _ hz, View.ld_unit_zero (S := S2000x64) hz, View.ld_unit_zero (S := S2000x1) hz, View.ld_unit_zero (S := S1280x64) hz, View.ld_unit_zero (S := S1x1280) hz]

set_option maxHeartbeats 2000000 in
/-- An edge block that is neither first nor last: both sums are continued; the output buffer is untouched. -/
theorem run1_B (c : Dev nD) (E : Set ℕ) (i : grid1.Coords)
    (arg2 : Memref sig .tc .vmem S1280x64 .bf16) (harg2 : arg2.IsWhole) (arg3 : Memref sig .tc .vmem S1x1280 .i32) (harg3 : arg3.IsWhole)
    (arg4 : Memref sig .tc .vmem S2000x64 .f32) (harg4 : arg4.IsWhole) (arg5 : Memref sig .tc .vmem S2000x64 .f32) (harg5 : arg5.IsWhole)
    (arg6 : Memref sig .tc .vmem S2000x64 .f32) (harg6 : arg6.IsWhole) (arg7 : Memref sig .tc .vmem S2000x1 .f32) (harg7 : arg7.IsWhole)
    (hc0 : ¬cond1_0 i) (hc1 : ¬cond1_1 i)
    (x0 : Vec F S1280x64 .bf16) (x1 : Vec F S1x1280 .i32) (x2 : Vec F S2000x64 .f32) (y : Vec F S2000x64 .f32)
    (s : Vec F S2000x64 .f32) (g : Vec F S2000x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare y
        ∗ owns (c : Thread nD τ) arg6 fullShare s ∗ owns (c : Thread nD τ) arg7 fullShare g
        ∗ (iprop(owns (c : Thread nD τ) arg2 fullShare x0 ∗ owns (c : Thread nD τ) arg3 fullShare x1 ∗ owns (c : Thread nD τ) arg4 fullShare x2 ∗ owns (c : Thread nD τ) arg5 fullShare y
            ∗ owns (c : Thread nD τ) arg6 fullShare (k1_pay4 i x1 x0 s) ∗ owns (c : Thread nD τ) arg7 fullShare (k1_pay5 i x1 g)) -∗ K ⟨⟩))
      ⊢ wp frame (wpE (defs₀ (F := F)) Variants.none c none) E (cc1__scatter_kernel i arg2 harg2 arg3 harg3 arg4 harg4 arg5 harg5 arg6 harg6 arg7 harg7) K := by
  simp only [cc1__scatter_kernel_eq_skeleton]; unfold cc1__scatter_kernel_skel
  unfold owns
  iintro ⟨⟨%f0, %hf0, H0⟩, ⟨%f1, %hf1, H1⟩, ⟨%f2, %hf2, H2⟩, ⟨%f5, %hf5, H5⟩, ⟨%f6, %hf6, H6⟩, ⟨%f7, %hf7, H7⟩, Hk⟩
  subst hf0; subst hf1; subst hf2; subst hf5; subst hf6; subst hf7
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H5]; · iexists f5; isplitr; · ipureintro; rfl
                  iexact H5
  isplitl [H6]
  · iexists _; isplitr
    swap; · iexact H6
    ipureintro
    sl_unfold_words
    rw [View.read_writes_eq_canon _ _ _ (View.cover_of_tiled _ S2000x64.size (by rfl))]
    rw [View.canon_unit_zero hz]
    simp only [View.readAt_eq_ld, View.ld_unit_zero (S := S2000x64) hz, View.ld_unit_zero (S := S2000x1) hz, View.ld_unit_zero (S := S1280x64) hz, View.ld_unit_zero (S := S1x1280) hz]
  iexists _; isplitr
  swap; · iexact H7
  ipureintro
  sl_unfold_words
  rw [View.read_writes_eq_canon _ _ _ (View.cover_of_tiled _ S2000x1.size (by rfl))]
  rw [View.canon_unit_zero hz]
  simp only [View.readAt_eq_ld, View.ld_unit_zero (S := S2000x64) hz, View.ld_unit_zero (S := S2000x1) hz, View.ld_unit_zero (S := S1280x64) hz, View.ld_unit_zero (S := S1x1280) hz]

set_option maxHeartbeats 2000000 in
/-- Last edge block: both sums are continued, then the quotient of the sums just stored is written out. -/
theorem run1_C (c : Dev nD) (E : Set ℕ) (i : grid1.Coords)
    (arg2 : Memref sig .tc .vmem S1280x64 .bf16) (harg2 : arg2.IsWhole) (arg3 : Memref sig .tc .vmem S1x1280 .i32) (harg3 : arg3.IsWhole)
    (arg4 : Memref sig .tc .vmem S2000x64 .f32) (harg4 : arg4.IsWhole) (arg5 : Memref sig .tc .vmem S2000x64 .f32) (harg5 : arg5.IsWhole)
    (arg6 : Memref sig .tc .vmem S2000x64 .f32) (harg6 : arg6.IsWhole) (arg7 : Memref sig .tc .vmem S2000x1 .f32) (harg7 : arg7.IsWhole)
    (hc0 : ¬cond1_0 i) (hc1 : cond1_1 i)
    (x0 : Vec F S1280x64 .bf16) (x1 : Vec F S1x1280 .i32) (x2 : Vec F S2000x64 .f32)
    (s : Vec F S2000x64 .f32) (g : Vec F S2000x1 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ owns (c : Thread nD τ) arg6 fullShare s ∗ owns (c : Thread nD τ) arg7 fullShare g
        ∗ (iprop(owns (c : Thread nD τ) arg2 fullShare x0 ∗ owns (c : Thread nD τ) arg3 fullShare x1 ∗ owns (c : Thread nD τ) arg4 fullShare x2 ∗ owns (c : Thread nD τ) arg5 fullShare (k1_pay6 x2 (k1_pay4 i x1 x0 s) (k1_pay5 i x1 g))
            ∗ owns (c : Thread nD τ) arg6 fullShare (k1_pay4 i x1 x0 s) ∗ owns (c : Thread nD τ) arg7 fullShare (k1_pay5 i x1 g)) -∗ K ⟨⟩))
      ⊢ wp frame (wpE (defs₀ (F := F)) Variants.none c none) E (cc1__scatter_kernel i arg2 harg2 arg3 harg3 arg4 harg4 arg5 harg5 arg6 harg6 arg7 harg7) K := by
  simp only [cc1__scatter_kernel_eq_skeleton]; unfold cc1__scatter_kernel_skel
  unfold owns
  iintro ⟨⟨%f0, %hf0, H0⟩, ⟨%f1, %hf1, H1⟩, ⟨%f2, %hf2, H2⟩, ⟨%d5, %f5, -, H5⟩, ⟨%f6, %hf6, H6⟩, ⟨%f7, %hf7, H7⟩, Hk⟩
  subst hf0; subst hf1; subst hf2; subst hf6; subst hf7
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H5]
  · iexists _; isplitr
    swap; · iexact H5
    ipureintro
    sl_unfold_words
    rw [View.read_writes_eq_canon _ _ _ (View.cover_of_tiled _ S2000x64.size (by rfl))]
    rw [View.canon_unit_zero hz]
    simp only [View.readAt_eq_ld, View.readCov_unit_zero (S := S2000x64) _ hz, View.readCov_unit_zero (S := S2000x1) _ hz, View.ld_unit_zero (S := S2000x64) hz, View.ld_unit_zero (S := S2000x1) hz, View.ld_unit_zero (S := S1280x64) hz, View.ld_unit_zero (S := S1x1280) hz]
  isplitl [H6]
  · iexists _; isplitr
    swap; · iexact H6
    ipureintro
    sl_unfold_words
    rw [View.read_writes_eq_canon _ _ _ (View.cover_of_tiled _ S2000x64.size (by rfl))]
    rw [View.canon_unit_zero hz]
    simp only [View.readAt_eq_ld, View.ld_unit_zero (S := S2000x64) hz, View.ld_unit_zero (S := S2000x1) hz, View.ld_unit_zero (S := S1280x64) hz, View.ld_unit_zero (S := S1x1280) hz]
  iexists _; isplitr
  swap; · iexact H7
  ipureintro
  sl_unfold_words
  rw [View.read_writes_eq_canon _ _ _ (View.cover_of_tiled _ S2000x1.size (by rfl))]
  rw [View.canon_unit_zero hz]
  simp only [View.readAt_eq_ld, View.ld_unit_zero (S := S2000x64) hz, View.ld_unit_zero (S := S2000x1) hz, View.ld_unit_zero (S := S1280x64) hz, View.ld_unit_zero (S := S1x1280) hz]

end Cert.KernelIdeal.Run

end
-- ==== Proof.KernelIdeal.ScatterData.lean ====
/-
  The scatter call's proof data: what every staging buffer and the two scratch accumulators hold after each grid point.

  Point t = (nb, eb) is handed edge block eb of the gathered rows (1280 rows of 64), edge block eb of the receiver
  row (1280 index words) and node block nb of ds_in (2000 rows of 64).  Two scratch buffers are carried from point
  to point: the message accumulator (2000 x 64) and the degree column (2000 x 1).  After point t each is the body's
  update of what point t - 1 left, except at the first edge block of a node block (t % 1250 = 0), where the update
  starts from zero.  The output buffer is stored only at the last edge block (t % 1250 = 1249), with
  (ds_in block + accumulator) / (degree + 1) formed from the two sums just stored; elsewhere the body leaves it as it
  found it, and the pipeline does not write it back there.  The region's invariant is the two scratch buffers at
  the sums of the point before (at anything before the first point), every other scoped buffer at anything, the
  generator register at some state.
-/
import proofs.«411144_j43404939493623_1_alg».proof.Proof.KernelIdeal.ScatterBody
import Idealize.ShloMosaic.Lib.Pipeline.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The staging memrefs and the body at a point -/

abbrev ms1_0 (t : Fin cfg1.N) : Memref sig .tc .vmem S1280x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1280 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2000x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2000x64 .f32 := win1_3.stage (cfg1.slots t 3)
abbrev hs1_3 (t : Fin cfg1.N) : (ms1_3 t).IsWhole := hstage1_3 ((cfg1.slots t 3).cast nbuf1_3)
/-- The two scratch accumulators: whole scoped buffers of the kernel's own. -/
abbrev scM1 : Memref sig .tc .vmem S2000x64 .f32 := Memref.whole cc1_scratch0
abbrev scG1 : Memref sig .tc .vmem S2000x1 .f32 := Memref.whole cc1_scratch1

/-- The kernel body at point `t`, on what the pipeline calls it with. -/
abbrev bodyAt1 (t : Fin cfg1.N) : Prog (TpuEff nD τ sig (Elt F) Λ₀ .tc) PUnit :=
  cc1__scatter_kernel (grid1.coords t) (ms1_0 t) (hs1_0 t) (ms1_1 t) (hs1_1 t) (ms1_2 t) (hs1_2 t) (ms1_3 t) (hs1_3 t)
    scM1 (Memref.isWhole_whole _) scG1 (Memref.isWhole_whole _)

/-! ## The input blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The two sums, point by point -/

/-- What the message accumulator holds after the body at point `n`. -/
def acc1 (c : Dev nD) : (n : ℕ) → n < cfg1.N → Vec F S2000x64 .f32
  | 0, hn => k1_pay4 (grid1.coords ⟨0, hn⟩) (iblk1 V c 1 ⟨0, hn⟩) (iblk1 V c 0 ⟨0, hn⟩) (k1_pay1 (F := F))
  | n + 1, hn =>
    if (n + 1) % 1250 = 0 then
      k1_pay4 (grid1.coords ⟨n + 1, hn⟩) (iblk1 V c 1 ⟨n + 1, hn⟩) (iblk1 V c 0 ⟨n + 1, hn⟩) (k1_pay1 (F := F))
    else
      k1_pay4 (grid1.coords ⟨n + 1, hn⟩) (iblk1 V c 1 ⟨n + 1, hn⟩) (iblk1 V c 0 ⟨n + 1, hn⟩) (acc1 c n (Nat.lt_of_succ_lt hn))

/-- What the degree column holds after the body at point `n`. -/
def deg1 (c : Dev nD) : (n : ℕ) → n < cfg1.N → Vec F S2000x1 .f32
  | 0, hn => k1_pay5 (grid1.coords ⟨0, hn⟩) (iblk1 V c 1 ⟨0, hn⟩) (k1_pay2 (F := F))
  | n + 1, hn =>
    if (n + 1) % 1250 = 0 then
      k1_pay5 (grid1.coords ⟨n + 1, hn⟩) (iblk1 V c 1 ⟨n + 1, hn⟩) (k1_pay2 (F := F))
    else
      k1_pay5 (grid1.coords ⟨n + 1, hn⟩) (iblk1 V c 1 ⟨n + 1, hn⟩) (deg1 c n (Nat.lt_of_succ_lt hn))

theorem acc1_first (c : Dev nD) (t : Fin cfg1.N) (h : t.val % 1250 = 0) :
    acc1 V c t.val t.isLt = k1_pay4 (grid1.coords t) (iblk1 V c 1 t) (iblk1 V c 0 t) (k1_pay1 (F := F)) := by
  obtain ⟨n, hn⟩ := t
  cases n with
  | zero => rfl
  | succ n => exact if_pos h
theorem acc1_next (c : Dev nD) (t : Fin cfg1.N) (h : ¬t.val % 1250 = 0) :
    acc1 V c t.val t.isLt = k1_pay4 (grid1.coords t) (iblk1 V c 1 t) (iblk1 V c 0 t)
      (acc1 V c (t.val - 1) (Nat.lt_of_le_of_lt (Nat.sub_le _ _) t.isLt)) := by
  obtain ⟨n, hn⟩ := t
  cases n with
  | zero => exact absurd (Nat.zero_mod _) h
  | succ n => exact if_neg h
theorem deg1_first (c : Dev nD) (t : Fin cfg1.N) (h : t.val % 1250 = 0) :
    deg1 V c t.val t.isLt = k1_pay5 (grid1.coords t) (iblk1 V c 1 t) (k1_pay2 (F := F)) := by
  obtain ⟨n, hn⟩ := t
  cases n with
  | zero => rfl
  | succ n => exact if_pos h
theorem deg1_next (c : Dev nD) (t : Fin cfg1.N) (h : ¬t.val % 1250 = 0) :
    deg1 V c t.val t.isLt = k1_pay5 (grid1.coords t) (iblk1 V c 1 t)
      (deg1 V c (t.val - 1) (Nat.lt_of_le_of_lt (Nat.sub_le _ _) t.isLt)) := by
  obtain ⟨n, hn⟩ := t
  cases n with
  | zero => exact absurd (Nat.zero_mod _) h
  | succ n => exact if_neg h

/-! ## The region's invariant -/

/-- The scoped buffers other than the two scratch accumulators, each at some contents: named by splitting the two
    off the list (they are its last two entries, so the list is re-spelt with them in front). -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_scratch0), ((c : Thread nD τ).loc cc0_scratch0) ↦{fullShare} f))

/-- The scoped rest with the two scratch accumulators in front. -/
theorem scopedRest1_front (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ (∃ f : Buf (Elt F) ((c : Thread nD τ).loc cc1_scratch1), ((c : Thread nD τ).loc cc1_scratch1) ↦{fullShare} f)
          ∗ others1 (F := F) c) :=
  Pipeline.scopedRest_eq_of_list spec1 c [cc1_scratch0, cc1_scratch1, cc0_stg0_0, cc0_stg0_1, cc0_stg1_0, cc0_stg1_1, cc0_stg2_0, cc0_stg2_1, cc0_scratch0] (by decide) (by decide)

/-- The class invariant with the two scratch accumulators split off as memrefs owned at some contents. -/
theorem PhiA1_eq (c : Dev nD) :
    (Pipeline.ΦA spec1 c : sProp 𝕄)
      = iprop(iprop((∃ d, owns (c : Thread nD τ) scM1 fullShare d) ∗ (∃ d, owns (c : Thread nD τ) scG1 fullShare d) ∗ others1 (F := F) c)
          ∗ (∃ r, prngReg c r)) := by
  unfold Pipeline.ΦA; rw [scopedRest1_front]; simp only [scM1, scG1, owns_whole]; rfl

def PhiS1 (c : Dev nD) : (n : ℕ) → n ≤ cfg1.N → sProp 𝕄
  | 0, _ => Pipeline.ΦA spec1 c
  | n + 1, hn => iprop(iprop(owns (c : Thread nD τ) scM1 fullShare (acc1 V c n hn) ∗ owns (c : Thread nD τ) scG1 fullShare (deg1 V c n hn)
      ∗ others1 (F := F) c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare (acc1 V c n hn) ∗ owns (c : Thread nD τ) scG1 fullShare (deg1 V c n hn)
      ∗ others1 (F := F) c) ∗ (∃ r, prngReg c r)) := rfl
theorem PhiS1_pos (c : Dev nD) (n : ℕ) (h : n ≤ cfg1.N) (hz : n ≠ 0) :
    PhiS1 V c n h = iprop(iprop(owns (c : Thread nD τ) scM1 fullShare (acc1 V c (n - 1) (by omega))
      ∗ owns (c : Thread nD τ) scG1 fullShare (deg1 V c (n - 1) (by omega)) ∗ others1 (F := F) c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay6 (iblk1 V c 2 t) (acc1 V c t.val t.isLt) (deg1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by dsimp only [dat1]
theorem PhiS1_castSucc (c : Dev nD) (t : Fin cfg1.N) : (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay6 (iblk1 V c 2 t) (acc1 V c t.val t.isLt) (deg1 V c t.val t.isLt) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

/-- The three input windows are never idle. -/
theorem liveAt1_0 (t : Fin cfg1.N) : cfg1.idle 0 (grid1.coords t) = false := rfl
theorem liveAt1_1 (t : Fin cfg1.N) : cfg1.idle 1 (grid1.coords t) = false := rfl
theorem liveAt1_2 (t : Fin cfg1.N) : cfg1.idle 2 (grid1.coords t) = false := rfl

set_option maxHeartbeats 4000000 in
/-- The body at any point: as for the gather call, with two scratch buffers carried. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 1250 = 0
  · -- the first edge block of a node block: reset both, then accumulate; the output is left alone
    have hc0 : cond1_0 (grid1.coords t) := (cond1_0_iff t).mpr h0
    have hc1 : ¬cond1_1 (grid1.coords t) := fun h => by have := (cond1_1_iff t).mp h; omega
    rw [Dat.leavesExact_idle (dat1 V c) 3 t (idle1_3_of _ hc1) (flush1_3_false t (by omega))]
    rw [acc1_first V c t h0, deg1_first V c t h0]
    by_cases hz : t.val = 0
    · rw [PhiS1_castSucc V c t, PhiS1_zero V c _ _ hz, PhiA1_eq]
      iintro ⟨⟨⟨HS, HG, Hoth⟩, Hg⟩, Ho, ⟨%d0, H0⟩, ⟨%d1, H1⟩, ⟨%d2, H2⟩, ⟨%d3, H3⟩⟩
      iapply (run1_A c Set.univ (grid1.coords t) _ _ _ _ _ _ _ _ _ _ _ _ hc0 hc1 (iblk1 V c 0 t) (iblk1 V c 1 t) (iblk1 V c 2 t) ((dat1 V c).before 3 t d3) _)
      isplitl [H0]; · iexact H0
      isplitl [H1]; · iexact H1
      isplitl [H2]; · iexact H2
      isplitl [H3]; · iexact H3
      isplitl [HS]; · iexact HS
      isplitl [HG]; · iexact HG
      iintro ⟨H0, H1, H2, H3, HS, HG⟩
      isplitl [HS HG Hoth Hg]
      · isplitl [HS HG Hoth]
        · isplitl [HS]; · iexact HS
          isplitl [HG]; · iexact HG
          iexact Hoth
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS, HG, Hoth⟩, Hg⟩, Ho, ⟨%d0, H0⟩, ⟨%d1, H1⟩, ⟨%d2, H2⟩, ⟨%d3, H3⟩⟩
      iapply (run1_A c Set.univ (grid1.coords t) _ _ _ _ _ _ _ _ _ _ _ _ hc0 hc1 (iblk1 V c 0 t) (iblk1 V c 1 t) (iblk1 V c 2 t) ((dat1 V c).before 3 t d3) _)
      isplitl [H0]; · iexact H0
      isplitl [H1]; · iexact H1
      isplitl [H2]; · iexact H2
      isplitl [H3]; · iexact H3
      isplitl [HS]; · iexists _; iexact HS
      isplitl [HG]; · iexists _; iexact HG
      iintro ⟨H0, H1, H2, H3, HS, HG⟩
      isplitl [HS HG Hoth Hg]
      · isplitl [HS HG Hoth]
        · isplitl [HS]; · iexact HS
          isplitl [HG]; · iexact HG
          iexact Hoth
        iexact Hg
      isplitl [Ho]; · iexact Ho
      isplitl [H0]; · iexact H0
      isplitl [H1]; · iexact H1
      isplitl [H2]; · iexact H2
      iexists _; iexact H3
  · have hc0 : ¬cond1_0 (grid1.coords t) := fun h => h0 ((cond1_0_iff t).mp h)
    have hz : t.val ≠ 0 := fun h => h0 (by rw [h])
    rw [acc1_next V c t h0, deg1_next V c t h0]
    rw [PhiS1_castSucc V c t, PhiS1_pos V c _ _ hz]
    by_cases h1 : t.val % 1250 = 1249
    · -- the last edge block: accumulate, then store the quotient
      have hc1 : cond1_1 (grid1.coords t) := (cond1_1_iff t).mpr h1
      rw [show (dat1 V c).leavesExact 3 t = owns (c : Thread nD τ) (ms1_3 t) fullShare ((dat1 V c).after 3 t) from by
        unfold Dat.leavesExact; rw [live1_3_of _ hc1], after1_3]
      rw [acc1_next V c t h0, deg1_next V c t h0]
      iintro ⟨⟨⟨HS, HG, Hoth⟩, Hg⟩, Ho, ⟨%d0, H0⟩, ⟨%d1, H1⟩, ⟨%d2, H2⟩, ⟨%d3, H3⟩⟩
      iapply (run1_C c Set.univ (grid1.coords t) _ _ _ _ _ _ _ _ _ _ _ _ hc0 hc1 (iblk1 V c 0 t) (iblk1 V c 1 t) (iblk1 V c 2 t)
        (acc1 V c (t.val - 1) (Nat.lt_of_le_of_lt (Nat.sub_le _ _) t.isLt)) (deg1 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      isplitl [HG]; · iexact HG
      iintro ⟨H0, H1, H2, H3, HS, HG⟩
      isplitl [HS HG Hoth Hg]
      · isplitl [HS HG Hoth]
        · isplitl [HS]; · iexact HS
          isplitl [HG]; · iexact HG
          iexact Hoth
        iexact Hg
      isplitl [Ho]; · iexact Ho
      isplitl [H0]; · iexact H0
      isplitl [H1]; · iexact H1
      isplitl [H2]; · iexact H2
      iexact H3
    · -- a middle edge block: accumulate; the output is left alone
      have hc1 : ¬cond1_1 (grid1.coords t) := fun h => h1 ((cond1_1_iff t).mp h)
      rw [Dat.leavesExact_idle (dat1 V c) 3 t (idle1_3_of _ hc1) (flush1_3_false t h1)]
      iintro ⟨⟨⟨HS, HG, Hoth⟩, Hg⟩, Ho, ⟨%d0, H0⟩, ⟨%d1, H1⟩, ⟨%d2, H2⟩, ⟨%d3, H3⟩⟩
      iapply (run1_B c Set.univ (grid1.coords t) _ _ _ _ _ _ _ _ _ _ _ _ hc0 hc1 (iblk1 V c 0 t) (iblk1 V c 1 t) (iblk1 V c 2 t) ((dat1 V c).before 3 t d3)
        (acc1 V c (t.val - 1) (Nat.lt_of_le_of_lt (Nat.sub_le _ _) t.isLt)) (deg1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      isplitl [HG]; · iexact HG
      iintro ⟨H0, H1, H2, H3, HS, HG⟩
      isplitl [HS HG Hoth Hg]
      · isplitl [HS HG Hoth]
        · isplitl [HS]; · iexact HS
          isplitl [HG]; · iexact HG
          iexact Hoth
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]

theorem hout1 (c : Dev nD) : (dat1 V c).Φ (Fin.last cfg1.N) ⊢ Pipeline.ΦA spec1 c := by
  have hN : cfg1.N = 62500 := N_1
  rw [show (dat1 V c).Φ (Fin.last cfg1.N) = PhiS1 V c (Fin.last cfg1.N).val (Nat.le_of_lt_succ (Fin.last cfg1.N).isLt) from rfl,
    PhiS1_pos V c _ _ (by rw [Fin.val_last]; omega), PhiA1_eq]
  iintro ⟨⟨HS, HG, Hoth⟩, Hg⟩
  isplitl [HS HG Hoth]
  · isplitl [HS]; · iexists _; iexact HS
    isplitl [HG]; · iexists _; iexact HG
    iexact Hoth
  iexact Hg

end Cert.KernelIdeal.Run

end
-- ==== Proof.KernelIdeal.MainRun.lean ====
/-
  The run of @main: six host operations that cut the two index rows out of the edge list and lay them out as a
  column and a row, then the gather call, then the scatter call.

  Between two items every unscoped buffer of the core is held at a named valuation: the launch contents; those
  after the host operations; then, after each call, the same with the call's arrays at what the pipeline leaves
  in them (each input as entered, the output at its write-backs folded over the grid).  Each call enters its
  region from the valuation before it, routes the generator register and the scoped buffers through its
  invariant, and leaves at the valuation after it.  The launch then gives: every weakly fair execution
  terminates, and every final memory holds every unscoped buffer at the last valuation.  Read at the three
  arguments that is the launch contents (no host operation and no call writes an argument); read at the result
  it is what the scatter call's pipeline leaves in its output array.
-/
import proofs.«411144_j43404939493623_1_alg».proof.Proof.KernelIdeal.GatherData
import proofs.«411144_j43404939493623_1_alg».proof.Proof.KernelIdeal.ScatterData
import proofs.«411144_j43404939493623_1_alg».proof.Proof.Gen.KernelIdeal.Regions
import Idealize.ShloMosaic.Lib.Pipeline.FrameBody
import Idealize.ShloMosaic.Lib.Pipeline.RegionsLoop
import Idealize.ShloMosaic.Lib.Pipeline.FrameSuffix

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host operations (the gather call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the gather call: its arrays at what its pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the scatter call: its arrays at what its pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The two calls as segments -/

set_option backward.isDefEq.respectTransparency.types false in
/-- The gather call: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (hin0 (V1 m ρ) c)
    unfold Pipeline.ΦA
    iintro ⟨Hp, -, Hr⟩
    isplitl [Hr]; · iexact Hr
    iexact Hp
  hout c := by
    refine (hout0 (V1 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The scatter call: entered from every unscoped buffer at `W2`, left at `W3` (what the launch reads at the end). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (hin1 (V2 m ρ) c)
    unfold Pipeline.ΦA
    iintro ⟨Hp, -, Hr⟩
    isplitl [Hr]; · iexact Hr
    iexact Hp
  hout c := by
    refine (hout1 (V2 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: every weakly fair execution of @main from memory `m` with zero counters terminates, nothing faulting,
    and every final memory holds every unscoped buffer of every core at the last valuation `W3`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-! ## The last valuation at the arguments and at the result -/

/-- `ds_in` is the scatter call's third input: its array ends as entered, no array of the gather call, written by
    no host operation. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 2).trans (((dat1 (V2 m ρ) c).arrAt_in 2 rfl _).trans (A_eq1 (V2 m ρ) c 2))
    _ = W1 m ρ c (Proc.devRef .tc main_arg0) := W2_of_ne m ρ c main_arg0 (by decide)
    _ = m ((c : Thread nD τ).loc main_arg0) := Gen.V1_of m c main_arg0 (by decide)

/-- `ds_out` is the gather call's second input and no array of the scatter call. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 1).trans (((dat0 (V1 m ρ) c).arrAt_in 1 rfl _).trans (A_eq0 (V1 m ρ) c 1))
    _ = m ((c : Thread nD τ).loc main_arg1) := Gen.V1_of m c main_arg1 (by decide)

/-- The edge list is an array of neither call (they read the column and the row cut out of it). -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = m ((c : Thread nD τ).loc main_arg2) := Gen.V1_of m c main_arg2 (by decide)

/-- The result is the scatter call's output array: what its pipeline leaves there. -/
theorem W3_main_v7 (c : Dev nD) : W3 m ρ c (Proc.devRef .tc main_v7) = (dat1 (V2 m ρ) c).arrAt 3 cfg1.N :=
  W3_arr m ρ c 3

/-! ## The frame, and the run with its result named -/

/-- THE FRAME: every weakly fair execution of @main terminates, nothing faulting, and every final memory holds
    each argument as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_main m ρ)

/-- THE RUN WITH ITS RESULT NAMED: the same, and the result array ends at what the scatter call's pipeline leaves. -/
theorem run_out : θ_run defs (onTc (τ := τ) (main (F := F))) ⟨m, fun _ => 0, ρ⟩ (fun r => ∀ c : Dev nD,
      r.2.mem ((c.tc : Thread nD τ).loc main_v7) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v7 (by decide))).trans (W3_main_v7 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_main m ρ)

end Cert.KernelIdeal.Run

end
-- ==== Proof.SrcRange.lean ====
/-
  THE SOURCE INDICES NAME NODES.

  The precondition of this certificate is one printed function of the three inputs whose value, a single bit, is
  required to be 1. That bit is the conjunction of three bits: "every entry of the first float array is finite",
  "every entry of the second float array is finite", and "every entry of row 0 of the [2 x 1600000] index array lies
  in [0, 100000)". This module reads the third bit back into arithmetic.

  The third bit is an and-reduction, over all 1600000 positions, of a vector of bits; a reduction by "and" that started
  at 1 and ended at 1 met a 1 at every position, so the bit at each position e is 1. That bit is itself the "and" of two
  signed comparisons of one 32-bit word against a constant: word >= 0 and word < 100000. The word is position e of the
  vector obtained by slicing row 0 out of the index array (a [1 x 1600000] block at offset (0, 0)) and reshaping that
  block to a vector of length 1600000: the block's entry (0, e) is the array's entry (0, e), and entry e of the vector
  has the same row-major position 0 * 1600000 + e as entry (0, e) of the block. Each constant is a scalar broadcast to
  the vector's shape, which reads the scalar at every position. A signed comparison whose bit is 1 says its inequality
  of the two words read as signed integers, and the words 0 and 100000 read as the integers 0 and 100000.

  Hence for every e the integer the index array holds at (0, e) is at least 0 and below 100000: every source index is
  the number of one of the 100000 nodes. The two finiteness bits are not used.
-/
import proofs.«411144_j43404939493623_1_alg».proof.Pre_finite_inputs
import Idealize.ShloMosaic.Lib.ReduceAll
import Idealize.ShloMosaic.Lib.Pipeline.Value
import Idealize.ShloMosaic.Lib.ValueIdx

namespace Cert.SrcRange

open Idealize.ShloMosaic Idealize.ShloMosaic.ValueIdx
open Cert.Pre_finite_inputs

/-- The rank-0 shape has one index: two of them agree at every axis because there is no axis. -/
instance : Subsingleton S_.Idx := ⟨fun a b => funext fun d => d.elim0⟩

/-- ROW 0 AS A VECTOR, READ AT e. Slicing the [1 x 1600000] block at offset (0, 0) out of the [2 x 1600000] array and
    reshaping it to length 1600000 gives, at position e, the array's entry (0, e): the reshape keeps the row-major
    position, 0 * 1600000 + e on both sides, and the slice adds the offset (0, 0) to the block's coordinates. -/
theorem row0_apply {α : Type} (x : S2x1600000.Idx → α) (hs : S2x1600000.Slices ![0, 0] S1x1600000)
    (hc : S1x1600000.ShapeCasts S1600000) (e : Fin 1600000) :
    shapeCast S1600000 (extractStridedSlice S1x1600000 ![0, 0] x hs) hc (ix1 e) = x (ix2 (0 : Fin 2) e) := by
  refine (shapeCast_apply _ hc (ix1 e) (ix2 (0 : Fin 1) e) ?_).trans
    (extractStridedSlice_apply ![0, 0] x hs (ix2 (0 : Fin 1) e) (ix2 (0 : Fin 2) e) ?_)
  · -- both row-major positions are e
    rw [Shape.rowMajor_val_two, Shape.rowMajor_val_one]
    show 0 * 1600000 + e.val = e.val
    omega
  · -- the block's (0, e) sits at the array's (0 + 0, 0 + e)
    intro a
    match a with
    | ⟨0, _⟩ => rfl
    | ⟨1, _⟩ => show e.val = 0 + e.val; omega

/-- The words 0 and 100000 read signed are the integers 0 and 100000. -/
theorem toInt_zero : (0#32 : BitVec 32).toInt = 0 := by decide
theorem toInt_bound : (100000#32 : BitVec 32).toInt = 100000 := by decide

/-- THE PRECONDITION DECODED AT e: where the printed predicate is 1, the integer at (0, e) of the index array is the
    number of a node, at least 0 and below 100000. -/
theorem src_range {F : FTy → Type} [FloatOps F] [Cert.Pre_finite_inputs.Facts]
    (a0 a1 : FVec F Cert.Pre_finite_inputs.S100000x64 .f32) (a2 : IVec Cert.Pre_finite_inputs.S2x1600000 32)
    (h : Cert.Pre_finite_inputs.fn (F := F) a0 a1 a2 = fun _ => 1#1) (e : Fin 1600000) :
    0 ≤ (a2 (Idealize.ShloMosaic.ValueIdx.ix2 (0 : Fin 2) e)).toInt ∧ (a2 (Idealize.ShloMosaic.ValueIdx.ix2 (0 : Fin 2) e)).toInt < 100000 := by
  -- the predicate's one bit
  have h0 := congrFun h ix0
  dsimp only [Cert.Pre_finite_inputs.fn, Cert.Pre_finite_inputs.fn_part1] at h0
  -- the third conjunct: the and-reduction over all positions is 1
  obtain ⟨-, hall⟩ := IntOp.andi_eq_one.1 h0
  -- so the bit at position e is 1, and it is the "and" of the two comparisons
  have he := Host.reduce_andi_all _ _ _ _ _ hall (ix1 e)
  obtain ⟨hge, hlt⟩ := IntOp.andi_eq_one.1 he
  -- each comparison is of row 0's entry e against a broadcast scalar
  have hge' : IntOp.cmpi .sge (a2 (ix2 (0 : Fin 2) e)) (0#32) = 1#1 := by
    rw [← row0_apply a2 Facts.slices_S2x1600000_S1x1600000_0_0 Facts.shapeCasts_S1x1600000_S1600000 e]
    exact hge
  have hlt' : IntOp.cmpi .slt (a2 (ix2 (0 : Fin 2) e)) (100000#32) = 1#1 := by
    rw [← row0_apply a2 Facts.slices_S2x1600000_S1x1600000_0_0 Facts.shapeCasts_S1x1600000_S1600000 e]
    exact hlt
  have h1 := IntOp.cmpi_sge.1 hge'
  have h2 := IntOp.cmpi_slt.1 hlt'
  rw [toInt_zero] at h1
  rw [toInt_bound] at h2
  exact ⟨h1, h2⟩

end Cert.SrcRange
-- ==== Proof.KernelIdeal.HostReads.lean ====
/-
  What the two calls find in their index arrays.

  @main first cuts row 0 (the sources) and row 1 (the receivers) out of the 2 x 1600000 edge list, flattens each to a
  vector, and lays the sources out as a 1600000 x 1 column and the receivers as a 1 x 1600000 row.  A slice adds its
  offset to the block's coordinates, and a reshape keeps an entry's row-major position; so the column's entry (e, 0) is
  the edge list's entry (0, e), and the row's entry (0, e) is the edge list's entry (1, e).  The gather call is entered
  with the column, the feature table as launched, and leaves the gathered rows; the scatter call is entered with those
  rows, the receiver row and ds_in as launched: neither call, nor any host operation, writes an argument or the row.
-/
import proofs.«411144_j43404939493623_1_alg».proof.Proof.KernelIdeal.MainRun
import proofs.«411144_j43404939493623_1_alg».proof.Proof.SrcRange
import Idealize.ShloMosaic.Lib.Pipeline.Value
import Idealize.ShloMosaic.Lib.StableHlo.Run

set_option maxRecDepth 16384

noncomputable section

namespace Cert.KernelIdeal.Run

open Cert.KernelIdeal Cert.KernelIdeal.Gen
open Idealize.ShloMosaic Idealize.ShloMosaic.TcCoe Idealize.ShloMosaic.ValueIdx Idealize.ShloMosaic.StableHlo
open Idealize.SL.Sem

variable {F : FTy → Type} [FloatOps F]
variable (m : (ℓ : Loc nD τ sig) → Buf (Elt F) ℓ) (ρ : Dev nD → PrngReg)

/-- ROW 1 AS A VECTOR, READ AT e: the block at offset (1, 0), reshaped to length 1600000, holds at e the array's (1, e). -/
theorem row1_apply {α : Type} (x : S2x1600000.Idx → α) (hs : S2x1600000.Slices ![1, 0] S1x1600000)
    (hc : S1x1600000.ShapeCasts S1600000) (e : Fin 1600000) :
    shapeCast S1600000 (extractStridedSlice S1x1600000 ![1, 0] x hs) hc (ix1 e) = x (ix2 (1 : Fin 2) e) := by
  refine (shapeCast_apply _ hc (ix1 e) (ix2 (0 : Fin 1) e) ?_).trans
    (extractStridedSlice_apply ![1, 0] x hs (ix2 (0 : Fin 1) e) (ix2 (1 : Fin 2) e) ?_)
  · rw [Shape.rowMajor_val_two, Shape.rowMajor_val_one]
    show 0 * 1600000 + e.val = e.val
    omega
  · intro a
    match a with
    | ⟨0, _⟩ => rfl
    | ⟨1, _⟩ => show e.val = 0 + e.val; omega

/-- The source column the gather call finds: its entry (e, 0) is the edge list's entry (0, e). -/
theorem V1_main_v4_apply (c : Dev nD) (e : Fin 1600000) :
    (V1 m ρ c main_v4 : S1600000x1.Idx → BitVec 32) (ix2 e (0 : Fin 1))
      = (m ((c : Thread nD τ).loc main_arg2) : S2x1600000.Idx → BitVec 32) (ix2 (0 : Fin 2) e) := by
  show StableHlo.after hostOps0 (fun b => m (c, b)) (Proc.devRef .tc main_v4) (ix2 e (0 : Fin 1)) = _
  after_results
  show shapeCast S1600000x1 (shapeCast S1600000 (extractStridedSlice S1x1600000 ![0, 0] (m (c, Proc.devRef .tc main_arg2))
    slices_S2x1600000_S1x1600000_0_0) shapeCasts_S1x1600000_S1600000) shapeCasts_S1600000_S1600000x1 (ix2 e (0 : Fin 1)) = _
  refine (shapeCast_apply _ shapeCasts_S1600000_S1600000x1 (ix2 e (0 : Fin 1)) (ix1 e) ?_).trans
    (Cert.SrcRange.row0_apply _ _ _ e)
  rw [Shape.rowMajor_val_two, Shape.rowMajor_val_one]
  show e.val = e.val * 1 + 0
  omega

/-- The receiver row after the host operations: its entry (0, e) is the edge list's entry (1, e). -/
theorem V1_main_v5_apply (c : Dev nD) (e : Fin 1600000) :
    (V1 m ρ c main_v5 : S1x1600000.Idx → BitVec 32) (ix2 (0 : Fin 1) e)
      = (m ((c : Thread nD τ).loc main_arg2) : S2x1600000.Idx → BitVec 32) (ix2 (1 : Fin 2) e) := by
  show StableHlo.after hostOps0 (fun b => m (c, b)) (Proc.devRef .tc main_v5) (ix2 (0 : Fin 1) e) = _
  after_results
  show shapeCast S1x1600000 (shapeCast S1600000 (extractStridedSlice S1x1600000 ![1, 0] (m (c, Proc.devRef .tc main_arg2))
    slices_S2x1600000_S1x1600000_1_0) shapeCasts_S1x1600000_S1600000) shapeCasts_S1600000_S1x1600000 (ix2 (0 : Fin 1) e) = _
  refine (shapeCast_apply _ shapeCasts_S1600000_S1x1600000 (ix2 (0 : Fin 1) e) (ix1 e) ?_).trans
    (row1_apply _ _ _ e)
  rw [Shape.rowMajor_val_two, Shape.rowMajor_val_one]
  show e.val = 0 * 1600000 + e.val
  omega

/-- The feature table the gather call finds is `ds_out` as launched. -/
theorem V1_main_arg1 (c : Dev nD) : V1 m ρ c main_arg1 = m ((c : Thread nD τ).loc main_arg1) :=
  Gen.V1_of m c main_arg1 (by decide)

/-- The scatter call finds the receiver row as the host operations left it (the gather call does not touch it), -/
theorem V2_main_v5 (c : Dev nD) : V2 m ρ c main_v5 = V1 m ρ c main_v5 :=
  W2_of_ne m ρ c main_v5 (by decide)
/-- `ds_in` as launched, -/
theorem V2_main_arg0 (c : Dev nD) : V2 m ρ c main_arg0 = m ((c : Thread nD τ).loc main_arg0) :=
  (W2_of_ne m ρ c main_arg0 (by decide)).trans (Gen.V1_of m c main_arg0 (by decide))
/-- and, in the gathered array, what the gather call's pipeline left there. -/
theorem V2_main_v6 (c : Dev nD) : V2 m ρ c main_v6 = (dat0 (V1 m ρ) c).arrAt 2 cfg0.N :=
  W2_arr m ρ c 2

end Cert.KernelIdeal.Run

end
-- ==== Proof.KernelIdeal.Payloads.lean ====
/-
  The two kernels' arithmetic, read at one index of what each store writes, with the floats taken as extended reals:
  every float operation exact, every change of float format the identity.

  The gather kernel, at grid point (edge block, node block b), holds 2000 source words (one per edge row r) and the 2000
  feature rows of node block b.  It compares the source word of row r with the word of the node number b * 2000 + k for
  every lane k, which gives a 2000 x 2000 matrix of ones and zeros with at most a one per row where the words agree; the
  product of that matrix with the feature block picks, for edge row r, the feature row of its source node if that node
  lies in block b, and nothing otherwise.  So the accumulator at (r, d) grows by
      sum over k of [word (b * 2000 + k) = source word of r] * feature (k, d).
  The node word is computed in 32-bit words as (word of b) * 2000 + (word of k); that is the word of the number
  b * 2000 + k because taking the word of a natural number respects sums and products, so nothing about overflow enters.

  The scatter kernel, at grid point (node block a, edge block), holds 1280 receiver words (one per edge j) and the 1280
  message rows.  Its matrix of ones and zeros has rows for the 2000 nodes of block a and columns for the edges, a one
  where the word of node a * 2000 + r is the receiver word of edge j.  Its product with the messages adds to node row r
  the messages of the edges received there; its row sums add the number of such edges to the degree column.  At the
  last edge block the result is (x + accumulated messages) / (degree + 1), the divisor spread over the 64 channels.

  The first stores of each accumulation write zero.  Each theorem below states one of these payloads at an index (r, d)
  as plain arithmetic on the blocks' entries.
-/
import proofs.«411144_j43404939493623_1_alg».proof.Proof.Gen.KernelIdeal.Skeleton
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Mathlib.Algebra.BigOperators.Group.Finset.Defs

noncomputable section

open scoped BigOperators

namespace Cert.KernelIdeal.Run

open Cert.KernelIdeal Cert.KernelIdeal.Gen
open Idealize.ShloMosaic Idealize.ShloMosaic.ValueIdx

/-! ## The stores of zero -/

/-- The f32 word of zero, splat and cast to its own shape, reads zero at every index. -/
theorem pay0_1_apply (r : Fin 2000) (d : Fin 64) : k0_pay1 (F := Ideal) (ix2 r d) = 0 := by
  unfold k0_pay1
  refine (congrFun (shapeCast_self _ _) _).trans ?_
  exact Ideal.ofBits_zero_f32

theorem pay1_1_apply (r : Fin 2000) (d : Fin 64) : k1_pay1 (F := Ideal) (ix2 r d) = 0 := by
  unfold k1_pay1
  refine (congrFun (shapeCast_self _ _) _).trans ?_
  exact Ideal.ofBits_zero_f32

theorem pay1_2_apply (r : Fin 2000) : k1_pay2 (F := Ideal) (ix2 r (0 : Fin 1)) = 0 := by
  unfold k1_pay2
  refine (congrFun (shapeCast_self _ _) _).trans ?_
  exact Ideal.ofBits_zero_f32

/-! ## The gather kernel's last store: the accumulator in the output's format -/

/-- Rounding to the output's format changes nothing at the ideal values. -/
theorem pay0_3_apply (v : Vec Ideal S2000x64 .f32) (r : Fin 2000) (d : Fin 64) : k0_pay3 v (ix2 r d) = v (ix2 r d) := rfl

/-! ## Words: the node number as a word, and a comparison bit as an extended real -/

/-- The word of the number `b * 2000 + k` is the word of `b` times the word of 2000 plus the word of `k`: taking the word
    of a natural number respects sums and products. -/
theorem node_word (b k : ℕ) : BitVec.ofNat 32 b * 2000#32 + BitVec.ofNat 32 k = BitVec.ofNat 32 (b * 2000 + k) := by
  rw [BitVec.ofNat_add, BitVec.ofNat_mul]

/-- The bit of "these two words are equal", widened to a word and converted as a signed integer, is one where the words
    agree and zero where they differ. -/
theorem eqBit_toEReal (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  by_cases h : a = b
  · have e : IntOp.cmpi .eq a b = 1#1 := by simp [IntOp.cmpi, h]
    have e1 : ((1#1 : BitVec 1).setWidth 32).toInt = 1 := by decide
    rw [e, if_pos h, e1]
    norm_num
  · have e : IntOp.cmpi .eq a b = 0#1 := by
      show BitVec.ofBool (a == b) = 0#1
      rw [beq_eq_false_iff_ne.mpr h]; rfl
    have e0 : ((0#1 : BitVec 1).setWidth 32).toInt = 0 := by decide
    rw [e, if_neg h, e0]
    norm_num

/-! ## A column spread along the lanes -/

/-- An `[a, 1]` column broadcast to `[a, b]` reads, at `(p, c)`, the column's entry of row `p`. -/
theorem broadcastTo_a1_ab_apply {a b : ℕ} {α : Type} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The gather kernel's matrix of ones and zeros -/

/-- Entry `(r, k)`: is the source word of edge row `r` the word of node `b * 2000 + k`, `b` the node block? As the
    kernel computes it: the comparison's bit, widened, converted, rounded to the product's input format. -/
def hot0 (i : grid0.Coords) (x0 : Vec Ideal S2000x1 .i32) : FVec Ideal S2000x2000 .bf16 :=
  truncf .bf16 (sitofp .f32 (extui 32 (cmpi .eq
    (broadcastTo S2000x2000 (shapeCast S2000x1 x0 shapeCasts_S2000x1_S2000x1) broadcasts_S2000x1_S2000x2000)
    (broadcastTo S2000x2000 (addi (broadcast S1x2000 (Scalar.muli (BitVec.ofNat 32 (i 1).val) 2000#32))
      (iota .tc S1x2000 32 [1] iota_S1x2000_d1_w32)) broadcasts_S1x2000_S2000x2000)) natLt_1_32)) bitsLt_bf16_f32

theorem hot0_apply (i : grid0.Coords) (x0 : Vec Ideal S2000x1 .i32) (r k : Fin 2000) :
    hot0 i x0 (ix2 r k) = if BitVec.ofNat 32 ((i 1).val * 2000 + k.val) = x0 (ix2 r (0 : Fin 1)) then (1 : EReal) else 0 := by
  unfold hot0
  show FloatOps.sitofp (F := Ideal) .f32 ((IntOp.cmpi .eq
      (broadcastTo S2000x2000 (shapeCast S2000x1 x0 shapeCasts_S2000x1_S2000x1) broadcasts_S2000x1_S2000x2000 (ix2 r k))
      (broadcastTo S2000x2000 (addi (broadcast S1x2000 (Scalar.muli (BitVec.ofNat 32 (i 1).val) 2000#32))
        (iota .tc S1x2000 32 [1] iota_S1x2000_d1_w32)) broadcasts_S1x2000_S2000x2000 (ix2 r k))).setWidth 32) = _
  rw [broadcastTo_a1_ab_apply, broadcastTo_1b_ab_apply, shapeCast_self]
  show FloatOps.sitofp (F := Ideal) .f32 ((IntOp.cmpi .eq (x0 (ix2 r (0 : Fin 1)))
      (IntOp.addi (BitVec.ofNat 32 (i 1).val * 2000#32) (iota .tc S1x2000 32 [1] iota_S1x2000_d1_w32 (ix2 (0 : Fin 1) k)))).setWidth 32) = _
  rw [iota_single_apply]
  show FloatOps.sitofp (F := Ideal) .f32 ((IntOp.cmpi .eq (x0 (ix2 r (0 : Fin 1)))
      (BitVec.ofNat 32 (i 1).val * 2000#32 + BitVec.ofNat 32 k.val)).setWidth 32) = _
  rw [node_word, eqBit_toEReal]
  exact if_congr eq_comm rfl rfl

/-! ## The gather kernel's product, read at an index

The product contracts the matrix's lanes (its axis 1) with the feature block's rows (its axis 0). At output index `j` and
contraction position `q` the matrix is read at (row of `j`, `q`) and the feature block at (`q`, column of `j`): one fact
per operand axis. -/

theorem lhs_dot0_0 (j : S2000x64.Idx) (q : dot_S2000x2000_S2000x64_S2000x64_1_0_0_1_n_n.contr.Idx) :
    (dot_S2000x2000_S2000x64_S2000x64_1_0_0_1_n_n.lhsIdx j q 0).val = (j 0).val := by
  unfold DotDims.lhsIdx
  rw [dif_neg (show ¬(0 : Fin S2000x2000.rank) ∈ dot_S2000x2000_S2000x64_S2000x64_1_0_0_1_n_n.lhsBatch by decide),
    dif_pos (show (0 : Fin S2000x2000.rank) ∈ dot_S2000x2000_S2000x64_S2000x64_1_0_0_1_n_n.lhsNonContracting by decide)]
  rfl

theorem lhs_dot0_1 (j : S2000x64.Idx) (q : dot_S2000x2000_S2000x64_S2000x64_1_0_0_1_n_n.contr.Idx) :
    (dot_S2000x2000_S2000x64_S2000x64_1_0_0_1_n_n.lhsIdx j q 1).val = (q ⟨0, by decide⟩).val :=
  dot_S2000x2000_S2000x64_S2000x64_1_0_0_1_n_n.lhsIdx_val_of_single rfl j q

theorem rhs_dot0_0 (j : S2000x64.Idx) (q : dot_S2000x2000_S2000x64_S2000x64_1_0_0_1_n_n.contr.Idx) :
    (dot_S2000x2000_S2000x64_S2000x64_1_0_0_1_n_n.rhsIdx j q 0).val = (q ⟨0, by decide⟩).val :=
  dot_S2000x2000_S2000x64_S2000x64_1_0_0_1_n_n.rhsIdx_val_of_single rfl j q

theorem rhs_dot0_1 (j : S2000x64.Idx) (q : dot_S2000x2000_S2000x64_S2000x64_1_0_0_1_n_n.contr.Idx) :
    (dot_S2000x2000_S2000x64_S2000x64_1_0_0_1_n_n.rhsIdx j q 1).val = (j 1).val := by
  unfold DotDims.rhsIdx
  rw [dif_neg (show ¬(1 : Fin S2000x64.rank) ∈ dot_S2000x2000_S2000x64_S2000x64_1_0_0_1_n_n.rhsBatch by decide),
    dif_pos (show (1 : Fin S2000x64.rank) ∈ dot_S2000x2000_S2000x64_S2000x64_1_0_0_1_n_n.rhsNonContracting by decide)]
  rfl

/-- Into a zero accumulator the product at `(r, d)` is the plain sum over the lane `k` of matrix entry `(r, k)` times
    feature entry `(k, d)`. -/
theorem matmul0_apply (A : FVec Ideal S2000x2000 .bf16) (B : FVec Ideal S2000x64 .bf16) (r : Fin 2000) (d : Fin 64) :
    matmul dot_S2000x2000_S2000x64_S2000x64_1_0_0_1_n_n none A B (constant (F := Ideal) S2000x64 .f32 0x00000000#32) (ix2 r d)
      = ∑ k : Fin 2000, A (ix2 r k) * B (ix2 k d) := by
  simp only [matmul]
  rw [Ideal.matmul_constant_zero_apply, ← Equiv.sum_comp (contrEquiv1 dot_S2000x2000_S2000x64_S2000x64_1_0_0_1_n_n 2000 rfl rfl).symm]
  refine Finset.sum_congr rfl fun k _ => ?_
  have hk := contrEquiv1_symm_val dot_S2000x2000_S2000x64_S2000x64_1_0_0_1_n_n 2000 rfl rfl k
  have el : dot_S2000x2000_S2000x64_S2000x64_1_0_0_1_n_n.lhsIdx (ix2 r d) ((contrEquiv1 dot_S2000x2000_S2000x64_S2000x64_1_0_0_1_n_n 2000 rfl rfl).symm k) = ix2 r k :=
    funext fun a => Fin.ext (by
      match a with
      | ⟨0, _⟩ => exact lhs_dot0_0 _ _
      | ⟨1, _⟩ => exact (lhs_dot0_1 _ _).trans hk)
  have er : dot_S2000x2000_S2000x64_S2000x64_1_0_0_1_n_n.rhsIdx (ix2 r d) ((contrEquiv1 dot_S2000x2000_S2000x64_S2000x64_1_0_0_1_n_n 2000 rfl rfl).symm k) = ix2 k d :=
    funext fun a => Fin.ext (by
      match a with
      | ⟨0, _⟩ => exact (rhs_dot0_0 _ _).trans hk
      | ⟨1, _⟩ => exact rhs_dot0_1 _ _)
  rw [el, er]

/-! ## The gather kernel's update of its accumulator -/

/-- What the gather kernel stores over its accumulator `s` at a grid point with node block `i 1`: at `(r, d)`, the
    accumulator plus the sum over the block's nodes `k` of [the word of node `(i 1) * 2000 + k` is the source word of
    edge row `r`] times the feature entry `(k, d)`. -/
theorem pay0_2_apply (i : grid0.Coords) (x0 : Vec Ideal S2000x1 .i32) (x1 : Vec Ideal S2000x64 .f32)
    (s : Vec Ideal S2000x64 .f32) (r : Fin 2000) (d : Fin 64) :
    k0_pay2 i x0 x1 s (ix2 r d) = s (ix2 r d) + ∑ k : Fin 2000,
      (if BitVec.ofNat 32 ((i 1).val * 2000 + k.val) = x0 (ix2 r (0 : Fin 1)) then (1 : EReal) else 0) * x1 (ix2 k d) := by
  have e : k0_pay2 i x0 x1 s = shapeCast S2000x64 (addf s (matmul dot_S2000x2000_S2000x64_S2000x64_1_0_0_1_n_n none (hot0 i x0)
      (truncf .bf16 x1 bitsLt_bf16_f32) (constant (F := Ideal) S2000x64 .f32 0x00000000#32))) shapeCasts_S2000x64_S2000x64 := rfl
  rw [e, shapeCast_self, addf_apply, matmul0_apply]
  refine congrArg (s (ix2 r d) + ·) (Finset.sum_congr rfl fun k _ => ?_)
  rw [hot0_apply]
  rfl

/-! ## The scatter kernel's matrix of ones and zeros -/

/-- Entry `(r, j)` of the scatter kernel's matrix: is the word of node `a * 2000 + r`, `a` the node block, the receiver
    word of edge `j`? -/
theorem pay1_3_apply (i : grid1.Coords) (x1 : Vec Ideal S1x1280 .i32) (r : Fin 2000) (j : Fin 1280) :
    k1_pay3 i x1 (ix2 r j)
      = if BitVec.ofNat 32 ((i 0).val * 2000 + r.val) = x1 (ix2 (0 : Fin 1) j) then (1 : EReal) else 0 := by
  unfold k1_pay3
  show FloatOps.sitofp (F := Ideal) .f32 ((IntOp.cmpi .eq
      (broadcastTo S2000x1280 (addi (broadcast S2000x1 (Scalar.muli (BitVec.ofNat 32 (i 0).val) 2000#32))
        (iota .tc S2000x1 32 [0] iota_S2000x1_d0_w32)) broadcasts_S2000x1_S2000x1280 (ix2 r j))
      (broadcastTo S2000x1280 (shapeCast S1x1280 x1 shapeCasts_S1x1280_S1x1280) broadcasts_S1x1280_S2000x1280
        (ix2 r j))).setWidth 32) = _
  rw [broadcastTo_a1_ab_apply, broadcastTo_1b_ab_apply, shapeCast_self]
  show FloatOps.sitofp (F := Ideal) .f32 ((IntOp.cmpi .eq
      (IntOp.addi (BitVec.ofNat 32 (i 0).val * 2000#32) (iota .tc S2000x1 32 [0] iota_S2000x1_d0_w32 (ix2 r (0 : Fin 1))))
      (x1 (ix2 (0 : Fin 1) j))).setWidth 32) = _
  rw [iota_single_apply]
  show FloatOps.sitofp (F := Ideal) .f32 ((IntOp.cmpi .eq
      (BitVec.ofNat 32 (i 0).val * 2000#32 + BitVec.ofNat 32 r.val) (x1 (ix2 (0 : Fin 1) j))).setWidth 32) = _
  rw [node_word, eqBit_toEReal]

/-! ## The scatter kernel's product, read at an index

The product contracts the matrix's edge axis (its axis 1) with the message block's rows (its axis 0): at output index
`j` and contraction position `q` the matrix is read at (row of `j`, `q`), the messages at (`q`, column of `j`). -/

theorem lhs_dot1_0 (j : S2000x64.Idx) (q : dot_S2000x1280_S1280x64_S2000x64_1_0_0_1_n_n.contr.Idx) :
    (dot_S2000x1280_S1280x64_S2000x64_1_0_0_1_n_n.lhsIdx j q 0).val = (j 0).val := by
  unfold DotDims.lhsIdx
  rw [dif_neg (show ¬(0 : Fin S2000x1280.rank) ∈ dot_S2000x1280_S1280x64_S2000x64_1_0_0_1_n_n.lhsBatch by decide),
    dif_pos (show (0 : Fin S2000x1280.rank) ∈ dot_S2000x1280_S1280x64_S2000x64_1_0_0_1_n_n.lhsNonContracting by decide)]
  rfl

theorem lhs_dot1_1 (j : S2000x64.Idx) (q : dot_S2000x1280_S1280x64_S2000x64_1_0_0_1_n_n.contr.Idx) :
    (dot_S2000x1280_S1280x64_S2000x64_1_0_0_1_n_n.lhsIdx j q 1).val = (q ⟨0, by decide⟩).val :=
  dot_S2000x1280_S1280x64_S2000x64_1_0_0_1_n_n.lhsIdx_val_of_single rfl j q

theorem rhs_dot1_0 (j : S2000x64.Idx) (q : dot_S2000x1280_S1280x64_S2000x64_1_0_0_1_n_n.contr.Idx) :
    (dot_S2000x1280_S1280x64_S2000x64_1_0_0_1_n_n.rhsIdx j q 0).val = (q ⟨0, by decide⟩).val :=
  dot_S2000x1280_S1280x64_S2000x64_1_0_0_1_n_n.rhsIdx_val_of_single rfl j q

theorem rhs_dot1_1 (j : S2000x64.Idx) (q : dot_S2000x1280_S1280x64_S2000x64_1_0_0_1_n_n.contr.Idx) :
    (dot_S2000x1280_S1280x64_S2000x64_1_0_0_1_n_n.rhsIdx j q 1).val = (j 1).val := by
  unfold DotDims.rhsIdx
  rw [dif_neg (show ¬(1 : Fin S1280x64.rank) ∈ dot_S2000x1280_S1280x64_S2000x64_1_0_0_1_n_n.rhsBatch by decide),
    dif_pos (show (1 : Fin S1280x64.rank) ∈ dot_S2000x1280_S1280x64_S2000x64_1_0_0_1_n_n.rhsNonContracting by decide)]
  rfl

/-- Into a zero accumulator the product at `(r, d)` is the plain sum over the edge `j` of matrix entry `(r, j)` times
    message entry `(j, d)`. -/
theorem matmul1_apply (A : FVec Ideal S2000x1280 .bf16) (B : FVec Ideal S1280x64 .bf16) (r : Fin 2000) (d : Fin 64) :
    matmul dot_S2000x1280_S1280x64_S2000x64_1_0_0_1_n_n none A B (constant (F := Ideal) S2000x64 .f32 0x00000000#32) (ix2 r d)
      = ∑ j : Fin 1280, A (ix2 r j) * B (ix2 j d) := by
  simp only [matmul]
  rw [Ideal.matmul_constant_zero_apply, ← Equiv.sum_comp (contrEquiv1 dot_S2000x1280_S1280x64_S2000x64_1_0_0_1_n_n 1280 rfl rfl).symm]
  refine Finset.sum_congr rfl fun k _ => ?_
  have hk := contrEquiv1_symm_val dot_S2000x1280_S1280x64_S2000x64_1_0_0_1_n_n 1280 rfl rfl k
  have el : dot_S2000x1280_S1280x64_S2000x64_1_0_0_1_n_n.lhsIdx (ix2 r d) ((contrEquiv1 dot_S2000x1280_S1280x64_S2000x64_1_0_0_1_n_n 1280 rfl rfl).symm k) = ix2 r k :=
    funext fun a => Fin.ext (by
      match a with
      | ⟨0, _⟩ => exact lhs_dot1_0 _ _
      | ⟨1, _⟩ => exact (lhs_dot1_1 _ _).trans hk)
  have er : dot_S2000x1280_S1280x64_S2000x64_1_0_0_1_n_n.rhsIdx (ix2 r d) ((contrEquiv1 dot_S2000x1280_S1280x64_S2000x64_1_0_0_1_n_n 1280 rfl rfl).symm k) = ix2 k d :=
    funext fun a => Fin.ext (by
      match a with
      | ⟨0, _⟩ => exact (rhs_dot1_0 _ _).trans hk
      | ⟨1, _⟩ => exact rhs_dot1_1 _ _)
  rw [el, er]

/-! ## The scatter kernel's update of its message accumulator -/

/-- What the scatter kernel stores over its message accumulator `s` at a grid point with node block `i 0`: at `(r, d)`,
    the accumulator plus the sum over the block's edges `j` of [the word of node `(i 0) * 2000 + r` is the receiver word
    of edge `j`] times the message entry `(j, d)`. -/
theorem pay1_4_apply (i : grid1.Coords) (x1 : Vec Ideal S1x1280 .i32) (x0 : Vec Ideal S1280x64 .bf16)
    (s : Vec Ideal S2000x64 .f32) (r : Fin 2000) (d : Fin 64) :
    k1_pay4 i x1 x0 s (ix2 r d) = s (ix2 r d) + ∑ j : Fin 1280,
      (if BitVec.ofNat 32 ((i 0).val * 2000 + r.val) = x1 (ix2 (0 : Fin 1) j) then (1 : EReal) else 0) * x0 (ix2 j d) := by
  have e : k1_pay4 i x1 x0 s = shapeCast S2000x64 (addf s (matmul dot_S2000x1280_S1280x64_S2000x64_1_0_0_1_n_n none
      (truncf .bf16 (k1_pay3 i x1) bitsLt_bf16_f32) (shapeCast S1280x64 x0 shapeCasts_S1280x64_S1280x64)
      (constant (F := Ideal) S2000x64 .f32 0x00000000#32))) shapeCasts_S2000x64_S2000x64 := rfl
  rw [e, shapeCast_self, addf_apply, matmul1_apply, shapeCast_self]
  refine congrArg (s (ix2 r d) + ·) (Finset.sum_congr rfl fun j _ => ?_)
  rw [truncf_apply, pay1_3_apply]

/-! ## The scatter kernel's update of its degree column -/

/-- A vector `[a]` cast to a column `[a, 1]` reads, at `(i, u)`, the vector at `i`, whatever the unit coordinate. -/
theorem shapeCast_a_a1_apply {a : ℕ} {α : Type} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum along the edge axis into a zero accumulator is, at node row `r`, the plain sum of row `r`. -/
theorem rowSum1_apply (A : FVec Ideal S2000x1280 .f32) (r : Fin 2000) :
    multiReduction (F := Ideal) .add [1] S2000 A 0x00000000#32 reduces_S2000x1280_S2000 (.inl rfl) rfl (ix1 r)
      = ∑ j : Fin 1280, A (ix2 r j) := by
  refine (Ideal.multiReduction_add_single A _ reduces_S2000x1280_S2000 _ _ (ix1 r)).trans ?_
  refine Finset.sum_congr rfl fun k _ => congrArg A ?_
  funext c
  refine Fin.ext ?_
  match c with
  | ⟨0, _⟩ => rfl
  | ⟨1, _⟩ => rfl

/-- What the scatter kernel stores over its degree column `g`: at node row `r`, the column's entry plus the number of
    the block's edges received at node `(i 0) * 2000 + r`, counted as a sum of ones. -/
theorem pay1_5_apply (i : grid1.Coords) (x1 : Vec Ideal S1x1280 .i32) (g : Vec Ideal S2000x1 .f32) (r : Fin 2000) :
    k1_pay5 i x1 g (ix2 r (0 : Fin 1)) = g (ix2 r (0 : Fin 1)) + ∑ j : Fin 1280,
      (if BitVec.ofNat 32 ((i 0).val * 2000 + r.val) = x1 (ix2 (0 : Fin 1) j) then (1 : EReal) else 0) := by
  have e : k1_pay5 i x1 g = shapeCast S2000x1 (addf g (shapeCast S2000x1
      (multiReduction (F := Ideal) .add [1] S2000 (k1_pay3 i x1) 0x00000000#32 reduces_S2000x1280_S2000 (.inl rfl) rfl)
      shapeCasts_S2000_S2000x1)) shapeCasts_S2000x1_S2000x1 := rfl
  rw [e, shapeCast_self, addf_apply, shapeCast_a_a1_apply, rowSum1_apply]
  exact congrArg (g (ix2 r (0 : Fin 1)) + ·) (Finset.sum_congr rfl fun j _ => pay1_3_apply i x1 r j)

/-! ## The scatter kernel's last store: the mean -/

/-- At the last edge block the scatter kernel stores, at `(r, d)`, the node's own entry plus its accumulated messages,
    divided by its degree plus one (the divisor is the degree column plus the word of one, spread over the channels). -/
theorem pay1_6_apply (x2 a : Vec Ideal S2000x64 .f32) (g : Vec Ideal S2000x1 .f32) (r : Fin 2000) (d : Fin 64) :
    k1_pay6 x2 a g (ix2 r d) = Ideal.div (x2 (ix2 r d) + a (ix2 r d)) (g (ix2 r (0 : Fin 1)) + 1) := by
  have e : k1_pay6 x2 a g = divf (addf x2 a) (broadcastTo S2000x64
      (addf g (broadcast S2000x1 (Scalar.ofBits (F := Ideal) .f32 0x3F800000#32))) broadcasts_S2000x1_S2000x64) := rfl
  rw [e, divf_apply, addf_apply, broadcastTo_a1_ab_apply, addf_apply, broadcast_apply]
  show Ideal.div _ (_ + Ideal.ofBits .f32 0x3F800000#32) = _
  rw [Ideal.ofBits_one_f32]

end Cert.KernelIdeal.Run

end
-- ==== Proof.Spec.lean ====
/-
  What both programs compute, as one function of the three argument arrays, over the extended reals.

  The inputs are node features ds_in and ds_out (100000 nodes, 64 channels) and an edge list of 1600000
  edges: row 0 of the index array holds each edge's source node, row 1 its receiver.  For node v and channel k
  the result is
      (ds_in[v, k] + the sum over the edges e received by v of ds_out[src e, k]) / (the number of those edges + 1).
  An edge is received by v when its receiver word, read as a signed integer, is v; an edge whose receiver is
  no node is received by nobody.  A source word names the row "its unsigned value modulo 100000", which for a
  word in range is the word itself.
-/
import Idealize.ShloMosaic.PureOps.Ideal
import Idealize.ShloMosaic.Lib.ValueIdx
import Mathlib.Algebra.BigOperators.Group.Finset.Basic

noncomputable section

open scoped BigOperators

namespace Cert.Spec

open Idealize.ShloMosaic Idealize.ShloMosaic.ValueIdx

/-- The row a source word names: its unsigned value modulo the number of nodes. -/
def row (w : BitVec 32) : Fin 100000 := ⟨w.toNat % 100000, Nat.mod_lt _ (by norm_num)⟩

/-- For a word whose signed value is a node number, the row it names is that number. -/
theorem row_val_of_range (w : BitVec 32) (h0 : 0 ≤ w.toInt) (h1 : w.toInt < 100000) : ((row w).val : ℤ) = w.toInt := by
  have hnat : w.toInt = (w.toNat : ℤ) := by
    rw [BitVec.toInt_eq_toNat_cond]; split
    · rfl
    · rename_i hge; exfalso; rw [BitVec.toInt_eq_toNat_cond, if_neg hge] at h0; have := w.isLt; omega
  show ((w.toNat % 100000 : ℕ) : ℤ) = w.toInt
  rw [hnat] at h1 ⊢; omega

/-- The edges node `v` receives: those whose receiver word, read signed, is `v`. -/
def recvs (idx : (⟨2, ![2, 1600000]⟩ : Shape).Idx → BitVec 32) (v : Fin 100000) : Finset (Fin 1600000) :=
  Finset.univ.filter fun e => (idx (ix2 (1 : Fin 2) e)).toInt = (v.val : ℤ)

/-- The messages node `v` receives in channel `k`, summed. -/
def msg (dsout : (⟨2, ![100000, 64]⟩ : Shape).Idx → EReal) (idx : (⟨2, ![2, 1600000]⟩ : Shape).Idx → BitVec 32)
    (v : Fin 100000) (k : Fin 64) : EReal :=
  ∑ e ∈ recvs idx v, dsout (ix2 (row (idx (ix2 (0 : Fin 2) e))) k)

/-- The number of edges node `v` receives. -/
def deg (idx : (⟨2, ![2, 1600000]⟩ : Shape).Idx → BitVec 32) (v : Fin 100000) : EReal :=
  ∑ _e ∈ recvs idx v, (1 : EReal)

/-- The result at node `v`, channel `k`. -/
def outAt (dsin dsout : (⟨2, ![100000, 64]⟩ : Shape).Idx → EReal) (idx : (⟨2, ![2, 1600000]⟩ : Shape).Idx → BitVec 32)
    (v : Fin 100000) (k : Fin 64) : EReal :=
  Ideal.div (dsin (ix2 v k) + msg dsout idx v k) (deg idx v + 1)

/-! ## The two calls' arrays as plain sums

What the gather call leaves in its output and what the scatter call makes of it, each as one function of arrays:
the one-hot products summed over ALL nodes and over ALL edges.  (That these are the specification's value where
every source word names a node is a separate lemma.) -/

/-- The one-hot entry: 1 where the word is the number `n`, else 0. -/
def oh (n : ℕ) (w : BitVec 32) : EReal := if BitVec.ofNat 32 n = w then 1 else 0

/-- The gathered rows: edge `e`, channel `k` is the one-hot product of the source word of `e` with the table's
    column `k`, summed over all nodes. -/
def gath (srccol : (⟨2, ![1600000, 1]⟩ : Shape).Idx → BitVec 32) (dsout : (⟨2, ![100000, 64]⟩ : Shape).Idx → EReal) :
    (⟨2, ![1600000, 64]⟩ : Shape).Idx → EReal :=
  fun j => ∑ n : Fin 100000, oh n.val (srccol (ix2 (⟨(j 0).val, (j 0).isLt⟩ : Fin 1600000) (0 : Fin 1)))
    * dsout (ix2 n (⟨(j 1).val, (j 1).isLt⟩ : Fin 64))

/-- The scatter call's result from the gathered rows `g`, the receiver row and `ds_in`: at node `v`, channel `k`,
    (ds_in + the one-hot product of the receiver words with column `k` of `g`, summed over all edges) divided by
    (the one-hot entries summed over all edges, plus 1). -/
def scat (g : (⟨2, ![1600000, 64]⟩ : Shape).Idx → EReal) (recvrow : (⟨2, ![1, 1600000]⟩ : Shape).Idx → BitVec 32)
    (dsin : (⟨2, ![100000, 64]⟩ : Shape).Idx → EReal) : (⟨2, ![100000, 64]⟩ : Shape).Idx → EReal :=
  fun j => Ideal.div
    (dsin j + ∑ e : Fin 1600000, oh (j 0).val (recvrow (ix2 (0 : Fin 1) e)) * g (ix2 e (⟨(j 1).val, (j 1).isLt⟩ : Fin 64)))
    ((∑ e : Fin 1600000, oh (j 0).val (recvrow (ix2 (0 : Fin 1) e))) + 1)

end Cert.Spec

end
-- ==== Proof.KernelIdeal.GatherValue.lean ====
/-
  The gather call's output array: every edge's row of the table, as one-hot sums.

  Edge block eb of the output is written back once, after node block 49, with the accumulator of that point.  By
  induction over the node blocks the accumulator after node block nb holds, at row r and channel d, the one-hot
  products of edge eb * 2000 + r's source word with the table's column d summed over the first (nb + 1) * 2000
  nodes; after the last node block that is the sum over all 100000 nodes.  The 800 written-back blocks tile the
  1600000 x 64 array, so the array ends at the plain-sum form of the gathered rows.
-/
import proofs.«411144_j43404939493623_1_alg».proof.Proof.KernelIdeal.GatherData
import proofs.«411144_j43404939493623_1_alg».proof.Proof.KernelIdeal.Payloads
import proofs.«411144_j43404939493623_1_alg».proof.Proof.Spec
import Idealize.ShloMosaic.Lib.Pipeline.Value
import Idealize.ShloMosaic.Lib.ValueIdx

set_option maxRecDepth 16384

noncomputable section

open scoped BigOperators

namespace Cert.KernelIdeal.Run

open Cert.KernelIdeal Cert.KernelIdeal.Gen
open Idealize.ShloMosaic Idealize.ShloMosaic.TcCoe Idealize.ShloMosaic.ValueIdx
open Idealize.SL.Sem
open Idealize.ShloMosaic.Pipeline (Dat Cfg Window)

-- the TensorCore's buffer contents when the region is entered, at the ideal instance
variable (V : (c : Dev nD) → (b : Ref sig .tc) → Buf (Elt Ideal) ((c : Thread nD τ).loc b))

/-! ## The input windows' block index at a point -/

/-- The source column's block index: the edge-block coordinate, column block 0. -/
theorem inIndex0_0 (i : grid0.Coords) : cc0_transform_0 i = ![(i 0).val, 0] := by
  have h : (i 0).val < 800 := (i 0).isLt
  funext a
  fin_cases a
  · show (BitVec.ofNat 32 (i 0).val).toNat = (i 0).val
    rw [BitVec.toNat_ofNat]; exact Nat.mod_eq_of_lt (by omega)
  · rfl
/-- The table's block index: the node-block coordinate, column block 0. -/
theorem inIndex0_1 (i : grid0.Coords) : cc0_transform_1 i = ![(i 1).val, 0] := by
  have h : (i 1).val < 50 := (i 1).isLt
  funext a
  fin_cases a
  · show (BitVec.ofNat 32 (i 1).val).toNat = (i 1).val
    rw [BitVec.toNat_ofNat]; exact Nat.mod_eq_of_lt (by omega)
  · rfl

/-! ## The input blocks read at an index -/

/-- Entry (r, 0) of the source block at point `t` is the source column's entry for edge (t / 50) * 2000 + r. -/
theorem iblk0_0_apply (c : Dev nD) (t : Fin cfg0.N) (r : Fin 2000) (e : Fin 1600000) (he : e.val = t.val / 50 * 2000 + r.val) :
    (iblk0 V c 0 t : Vec Ideal S2000x1 .i32) (ix2 r (0 : Fin 1)) = (V c main_v4 : S1600000x1.Idx → BitVec 32) (ix2 e (0 : Fin 1)) := by
  have hi : win0_0.index t = ![t.val / 50, 0] := by
    show cc0_transform_0 (grid0.coords t) = _
    rw [inIndex0_0, coords0_0]
  unfold iblk0
  rw [View.read_apply]
  show V c main_v4 _ = V c main_v4 _
  congr 1
  funext a
  apply Fin.ext
  match a with
  | ⟨0, _⟩ => show win0_0.index t 0 * 2000 + 1 * r.val = e.val; rw [hi, he]; show t.val / 50 * 2000 + 1 * r.val = _; omega
  | ⟨1, _⟩ => show win0_0.index t 1 * 1 + 1 * 0 = 0; rw [hi]; rfl

/-- Entry (k, d) of the table block at point `t` is the table's entry for node (t % 50) * 2000 + k, channel d. -/
theorem iblk0_1_apply (c : Dev nD) (t : Fin cfg0.N) (k : Fin 2000) (d : Fin 64) (n : Fin 100000) (hn : n.val = t.val % 50 * 2000 + k.val) :
    (iblk0 V c 1 t : Vec Ideal S2000x64 .f32) (ix2 k d) = (V c main_arg1 : S100000x64.Idx → EReal) (ix2 n d) := by
  have hi : win0_1.index t = ![t.val % 50, 0] := by
    show cc0_transform_1 (grid0.coords t) = _
    rw [inIndex0_1, coords0_1]
  unfold iblk0
  rw [View.read_apply]
  show V c main_arg1 _ = V c main_arg1 _
  congr 1
  funext a
  apply Fin.ext
  match a with
  | ⟨0, _⟩ => show win0_1.index t 0 * 2000 + 1 * k.val = n.val; rw [hi, hn]; show t.val % 50 * 2000 + 1 * k.val = _; omega
  | ⟨1, _⟩ => show win0_1.index t 1 * 64 + 1 * d.val = d.val; rw [hi]; show 0 * 64 + 1 * d.val = d.val; omega

/-! ## The accumulator after each node block -/

/-- The table's column `d` as a function of a node NUMBER (0 past the last node: never read). -/
def col (c : Dev nD) (d : Fin 64) (n : ℕ) : EReal :=
  if h : n < 100000 then (V c main_arg1 : S100000x64.Idx → EReal) (ix2 ⟨n, h⟩ d) else 0

/-- One node block's contribution: the one-hot products over its 2000 nodes, as a sum over numbers. -/
theorem block_sum (c : Dev nD) (t : Fin cfg0.N) (r : Fin 2000) (d : Fin 64) (w : BitVec 32)
    (hw : (iblk0 V c 0 t : Vec Ideal S2000x1 .i32) (ix2 r (0 : Fin 1)) = w) :
    (∑ k : Fin 2000, (if BitVec.ofNat 32 ((grid0.coords t 1).val * 2000 + k.val) = (iblk0 V c 0 t : Vec Ideal S2000x1 .i32) (ix2 r (0 : Fin 1)) then (1 : EReal) else 0)
        * (iblk0 V c 1 t : Vec Ideal S2000x64 .f32) (ix2 k d))
      = ∑ k ∈ Finset.range 2000, Cert.Spec.oh (t.val % 50 * 2000 + k) w * col V c d (t.val % 50 * 2000 + k) := by
  have hN : t.val < 40000 := lt_of_lt_of_eq t.isLt N_0
  rw [← Fin.sum_univ_eq_sum_range (fun k => Cert.Spec.oh (t.val % 50 * 2000 + k) w * col V c d (t.val % 50 * 2000 + k)) 2000]
  refine Finset.sum_congr rfl fun k _ => ?_
  have hk : k.val < 2000 := k.isLt
  have hn : t.val % 50 * 2000 + k.val < 100000 := by omega
  rw [hw, coords0_1, iblk0_1_apply V c t k d ⟨t.val % 50 * 2000 + k.val, hn⟩ rfl]
  unfold Cert.Spec.oh col
  rw [dif_pos hn]

/-- After node block `nb` of edge block `eb` the accumulator holds, at row r and channel d, the one-hot products of
    that edge's source word with the table's column summed over the first (nb + 1) * 2000 nodes. -/
theorem acc0_sum (c : Dev nD) (r : Fin 2000) (d : Fin 64) : ∀ (nb : ℕ) (t : Fin cfg0.N), t.val % 50 = nb →
    ∀ w : BitVec 32, (∀ e : Fin 1600000, e.val = t.val / 50 * 2000 + r.val → (V c main_v4 : S1600000x1.Idx → BitVec 32) (ix2 e (0 : Fin 1)) = w) →
    acc0 V c t.val t.isLt (ix2 r d) = ∑ n ∈ Finset.range ((nb + 1) * 2000), Cert.Spec.oh n w * col V c d n := by
  intro nb
  induction nb with
  | zero =>
    intro t ht w hw
    have hN : t.val < 40000 := lt_of_lt_of_eq t.isLt N_0
    have hr : r.val < 2000 := r.isLt
    have hblk : (iblk0 V c 0 t : Vec Ideal S2000x1 .i32) (ix2 r (0 : Fin 1)) = w :=
      (iblk0_0_apply V c t r ⟨t.val / 50 * 2000 + r.val, by omega⟩ rfl).trans (hw _ rfl)
    rw [acc0_first V c t ht, pay0_2_apply, pay0_1_apply, zero_add, block_sum V c t r d w hblk, ht]
    simp only [Nat.zero_mul, Nat.zero_add, Nat.one_mul]
  | succ nb ih =>
    intro t ht w hw
    have hN : t.val < 40000 := lt_of_lt_of_eq t.isLt N_0
    have hr : r.val < 2000 := r.isLt
    have h0 : ¬t.val % 50 = 0 := by omega
    have hblk : (iblk0 V c 0 t : Vec Ideal S2000x1 .i32) (ix2 r (0 : Fin 1)) = w :=
      (iblk0_0_apply V c t r ⟨t.val / 50 * 2000 + r.val, by omega⟩ rfl).trans (hw _ rfl)
    have hprev : t.val - 1 < cfg0.N := Nat.lt_of_le_of_lt (Nat.sub_le _ _) t.isLt
    have ihp := ih ⟨t.val - 1, hprev⟩ (by show (t.val - 1) % 50 = nb; omega) w
      (fun e he => hw e (by have : (t.val - 1) / 50 = t.val / 50 := by omega
                            rw [he]; show (t.val - 1) / 50 * 2000 + r.val = _; rw [this]))
    rw [acc0_next V c t h0, pay0_2_apply, ihp, block_sum V c t r d w hblk, ht]
    rw [show (nb + 1 + 1) * 2000 = (nb + 1) * 2000 + 2000 from by ring, Finset.sum_range_add]

/-! ## The write-back, the cover, the array -/

/-- Reading any array through the output window's block at point `t`: the array at the block's index, embedded. -/
theorem read_blk0_2 (t : Fin cfg0.N) (G : S1600000x64.Idx → EReal) (j : ((cfg0.win 2).xblock (grid0.coords t)).Idx) :
    ((cfg0.win 2).blk t).view.read (Elt Ideal) G j = G (((cfg0.win 2).blk t).view.emb j) := by
  rw [View.read_apply]; rfl

/-- The output window is uncut: the block's index of (r, d), as the window re-packs it, is (r, d). -/
theorem xinj0_2 (t : Fin cfg0.N) (r : Fin 2000) (d : Fin 64) :
    (cfg0.win 2).xinj (grid0.coords t) (ix2 r d) = (ix2 r d : S2000x64.Idx) :=
  funext fun a => Fin.ext (by match a with | ⟨0, _⟩ => rfl | ⟨1, _⟩ => rfl)

/-- What the body leaves in the output buffer at point `t`: the accumulator in the output's format, at its literal type. -/
def outBlk0 (c : Dev nD) (t : Fin cfg0.N) : Vec Ideal S2000x64 .bf16 := k0_pay3 (acc0 V c t.val t.isLt)
theorem after0_2' (c : Dev nD) (t : Fin cfg0.N) : (dat0 V c).after 2 t = outBlk0 V c t := after0_2 V c t

/-- What a point after the last node block writes back is its block of the gathered rows. -/
theorem flushed0_eq (c : Dev nD) (t : Fin cfg0.N) (hf : (cfg0.win 2).flush t = true) :
    (dat0 V c).flushed 2 t = ((cfg0.win 2).blk t).view.read (Elt Ideal)
      (Cert.Spec.gath (V c main_v4) (V c main_arg1)) := by
  have hN : t.val < 40000 := lt_of_lt_of_eq t.isLt N_0
  have h49 : t.val % 50 = 49 := (flush0_2_iff t).mp hf
  show (cfg0.win 2).cut (grid0.coords t) ((dat0 V c).after 2 t) = _
  rw [after0_2']
  funext j
  rw [read_blk0_2]
  obtain ⟨r, d, rfl⟩ : ∃ (r : Fin 2000) (d : Fin 64), j = ix2 r d := ⟨j 0, j 1, eq_ix2 j⟩
  have hr : r.val < 2000 := r.isLt
  refine (congrArg (outBlk0 V c t) (xinj0_2 t r d)).trans ?_
  unfold outBlk0
  have hi : win0_2.index t = ![t.val / 50, 0] := by
    show cc0_transform_2 (grid0.coords t) = _
    rw [outIndex0, coords0_0]
  have hemb : ((cfg0.win 2).blk t).view.emb (ix2 r d) = ix2 (⟨t.val / 50 * 2000 + r.val, by omega⟩ : Fin 1600000) d := by
    funext a
    apply Fin.ext
    match a with
    | ⟨0, _⟩ => show win0_2.index t 0 * 2000 + 1 * r.val = t.val / 50 * 2000 + r.val; rw [hi]; show t.val / 50 * 2000 + 1 * r.val = _; omega
    | ⟨1, _⟩ => show win0_2.index t 1 * 64 + 1 * d.val = d.val; rw [hi]; show 0 * 64 + 1 * d.val = d.val; omega
  rw [hemb, pay0_3_apply,
    acc0_sum V c r d 49 t h49 ((V c main_v4 : S1600000x1.Idx → BitVec 32) (ix2 (⟨t.val / 50 * 2000 + r.val, by omega⟩ : Fin 1600000) (0 : Fin 1)))
      (fun e he => by rw [show e = (⟨t.val / 50 * 2000 + r.val, by omega⟩ : Fin 1600000) from Fin.ext he])]
  -- the sum over the numbers below 100000 is the sum over the nodes
  unfold Cert.Spec.gath
  rw [show (49 + 1) * 2000 = 100000 from rfl,
    ← Fin.sum_univ_eq_sum_range (fun n => Cert.Spec.oh n _ * col V c d n) 100000]
  refine Finset.sum_congr rfl fun n _ => ?_
  unfold col
  rw [dif_pos n.isLt]

/-- Every index of the output array lies in the block written back after its edge block's last node block. -/
theorem cover0 (i : S1600000x64.Idx) :
    ∃ t : Fin cfg0.N, (cfg0.win 2).flush t = true ∧ i ∈ ((cfg0.win 2).blk t).view.set := by
  have h0 : (i 0).val < 1600000 := (i 0).isLt
  have h1 : (i 1).val < 64 := (i 1).isLt
  have hNe : cfg0.N = 40000 := N_0
  obtain ⟨t, ht⟩ : ∃ t : Fin cfg0.N, t.val = (i 0).val / 2000 * 50 + 49 := ⟨⟨(i 0).val / 2000 * 50 + 49, by rw [hNe]; omega⟩, rfl⟩
  refine ⟨t, (flush0_2_iff t).mpr (by rw [ht]; omega), ?_⟩
  have hi : win0_2.index t = ![t.val / 50, 0] := by
    show cc0_transform_2 (grid0.coords t) = _
    rw [outIndex0, coords0_0]
  show i ∈ ((View.whole main_v6).slice (win0_2.rect t)).set
  rw [View.set_slice_whole, Rect.mem_set_unit]
  intro a
  match a with
  | ⟨0, _⟩ =>
    show win0_2.index t 0 * 2000 ≤ (i 0).val ∧ (i 0).val < win0_2.index t 0 * 2000 + 2000
    rw [hi]; show t.val / 50 * 2000 ≤ (i 0).val ∧ (i 0).val < t.val / 50 * 2000 + 2000
    omega
  | ⟨1, _⟩ =>
    show win0_2.index t 1 * 64 ≤ (i 1).val ∧ (i 1).val < win0_2.index t 1 * 64 + 64
    rw [hi]; show 0 * 64 ≤ (i 1).val ∧ (i 1).val < 0 * 64 + 64
    omega

/-- THE GATHER CALL'S OUTPUT ARRAY: the gathered rows, as plain one-hot sums over all nodes. -/
theorem gather_final (c : Dev nD) :
    (dat0 V c).arrAt 2 cfg0.N = Cert.Spec.gath (V c main_v4) (V c main_arg1) :=
  (dat0 V c).arrAt_eq_of_cover 2 _ (flushed0_eq V c) cover0

end Cert.KernelIdeal.Run

end
-- ==== Proof.SpecSums.lean ====
/-
  The plain sums of one-hot products are the specification's value.

  The gathered array holds, for edge e and channel k, the sum over ALL nodes n of (1 if the source word of e is the
  number n, else 0) * ds_out[n, k]; the scattered result holds, for node v and channel k,
      (ds_in[v, k] + the sum over ALL edges e of (1 if the receiver word of e is the number v, else 0) * gathered[e, k])
        / (the sum over ALL edges of those one-hot entries + 1).
  Three facts turn this into the specification's value at (v, k).

  1. A word below 2^32 is the word of a number n < 2^32 exactly when its unsigned value is n.  For a source word whose
     signed value lies in [0, 100000) the unsigned value is the signed one and is the row the word names, so the one-hot
     entry at node n is 1 exactly at n = that row and 0 at every other node.  A sum whose terms all vanish but one is that
     one term: the gathered entry is ds_out[row, k].  A zero factor annihilates a term whatever extended real the other
     factor is, so nothing is asked of the table's entries: they may be infinite.
  2. For ANY receiver word and a node v < 100000, the word is the word of v exactly when its signed value is v: a number
     below 2^31 read back signed is itself, and a signed value in [0, 100000) is the unsigned value.  So the one-hot entry
     at v is the indicator of "edge e is received by v", a sum of indicator * g over all edges is the sum of g over the
     received edges, and the sum of the indicators alone is the sum of 1 over the received edges.
  3. At the index with coordinates v and k the two arrays unfold to exactly these sums; 1 rewrites the inner one, 2 the
     two outer ones, and what is left is the specification's quotient.
-/
import proofs.«411144_j43404939493623_1_alg».proof.Proof.Spec
import Mathlib.Algebra.BigOperators.Group.Finset.Basic
import Mathlib.Algebra.BigOperators.Group.Finset.Piecewise
import Mathlib.Data.EReal.Basic

noncomputable section

open scoped BigOperators

namespace Cert.Spec

open Idealize.ShloMosaic Idealize.ShloMosaic.ValueIdx

/-! ## Words and numbers -/

/-- A 32-bit word is the word of a number below 2^32 exactly when its unsigned value is that number. -/
theorem ofNat_eq_iff_toNat (n : ℕ) (hn : n < 2 ^ 32) (w : BitVec 32) : BitVec.ofNat 32 n = w ↔ w.toNat = n := by
  constructor
  · intro h
    rw [← h, BitVec.toNat_ofNat]
    exact Nat.mod_eq_of_lt hn
  · intro h
    apply BitVec.eq_of_toNat_eq
    rw [BitVec.toNat_ofNat, h]
    exact Nat.mod_eq_of_lt hn

/-- For a number below 100000, a word's signed value is that number exactly when its unsigned value is. -/
theorem toInt_eq_iff_toNat (w : BitVec 32) (n : ℕ) (hn : n < 100000) : w.toInt = (n : ℤ) ↔ w.toNat = n := by
  have hlt := w.isLt
  rw [BitVec.toInt_eq_toNat_cond]
  split <;> omega

/-- The one-hot entry at a node number is the indicator of "the word's unsigned value is that number". -/
theorem oh_eq_toNat (n : ℕ) (hn : n < 100000) (w : BitVec 32) : oh n w = if w.toNat = n then 1 else 0 := by
  unfold oh
  have hiff := ofNat_eq_iff_toNat n (by omega) w
  by_cases h : w.toNat = n
  · rw [if_pos (hiff.2 h), if_pos h]
  · rw [if_neg (fun h' => h (hiff.1 h')), if_neg h]

/-! ## 1. A source word in range: the one-hot row picks the row the word names -/

/-- For a word whose signed value is a node number, the one-hot entry at node `n` is 1 exactly at the row the word
    names. -/
theorem oh_of_range (w : BitVec 32) (h0 : 0 ≤ w.toInt) (h1 : w.toInt < 100000) (n : Fin 100000) :
    oh n.val w = if n = row w then 1 else 0 := by
  rw [oh_eq_toNat n.val n.isLt w]
  have hrow := row_val_of_range w h0 h1
  have hn := n.isLt
  have hiff := toInt_eq_iff_toNat w n.val n.isLt
  by_cases h : n = row w
  · rw [if_pos h, if_pos]
    apply hiff.1
    rw [h]
    exact hrow.symm
  · rw [if_neg h, if_neg]
    intro h'
    apply h
    apply Fin.ext
    have h2 : w.toInt = (n.val : ℤ) := hiff.2 h'
    omega

/-- The one-hot product with a table column, summed over all nodes, is the table at the row the word names. The
    table's entries may be any extended reals: a zero factor annihilates each of them. -/
theorem sum_oh_mul_of_range (w : BitVec 32) (h0 : 0 ≤ w.toInt) (h1 : w.toInt < 100000) (f : Fin 100000 → EReal) :
    ∑ n : Fin 100000, oh n.val w * f n = f (row w) := by
  rw [Finset.sum_eq_single (row w)]
  · rw [oh_of_range w h0 h1, if_pos rfl, one_mul]
  · intro n _ hne
    rw [oh_of_range w h0 h1, if_neg hne, zero_mul]
  · intro h
    exact absurd (Finset.mem_univ _) h

/-! ## 2. Any receiver word: the one-hot column is the indicator of the received edges -/

/-- For any word and a node `v`, the one-hot entry at `v` is 1 exactly when the word's signed value is `v`. -/
theorem oh_eq_toInt (w : BitVec 32) (v : Fin 100000) : oh v.val w = if w.toInt = (v.val : ℤ) then 1 else 0 := by
  rw [oh_eq_toNat v.val v.isLt w]
  have hiff := toInt_eq_iff_toNat w v.val v.isLt
  by_cases h : w.toNat = v.val
  · rw [if_pos h, if_pos (hiff.2 h)]
  · rw [if_neg h, if_neg (fun h' => h (hiff.1 h'))]

/-- The one-hot product of the receiver words with any per-edge values, summed over all edges, is the sum of those
    values over the edges `v` receives. -/
theorem sum_oh_mul_recvs (idx : (⟨2, ![2, 1600000]⟩ : Shape).Idx → BitVec 32)
    (recvrow : (⟨2, ![1, 1600000]⟩ : Shape).Idx → BitVec 32)
    (hrow : ∀ e : Fin 1600000, recvrow (ix2 (0 : Fin 1) e) = idx (ix2 (1 : Fin 2) e))
    (v : Fin 100000) (g : Fin 1600000 → EReal) :
    ∑ e : Fin 1600000, oh v.val (recvrow (ix2 (0 : Fin 1) e)) * g e = ∑ e ∈ recvs idx v, g e := by
  unfold recvs
  rw [Finset.sum_filter]
  apply Finset.sum_congr rfl
  intro e _
  rw [hrow e, oh_eq_toInt]
  by_cases h : (idx (ix2 (1 : Fin 2) e)).toInt = (v.val : ℤ)
  · rw [if_pos h, if_pos h, one_mul]
  · rw [if_neg h, if_neg h, zero_mul]

/-- The one-hot entries of the receiver words, summed over all edges, count the edges `v` receives. -/
theorem sum_oh_recvs (idx : (⟨2, ![2, 1600000]⟩ : Shape).Idx → BitVec 32)
    (recvrow : (⟨2, ![1, 1600000]⟩ : Shape).Idx → BitVec 32)
    (hrow : ∀ e : Fin 1600000, recvrow (ix2 (0 : Fin 1) e) = idx (ix2 (1 : Fin 2) e))
    (v : Fin 100000) :
    ∑ e : Fin 1600000, oh v.val (recvrow (ix2 (0 : Fin 1) e)) = ∑ _e ∈ recvs idx v, (1 : EReal) := by
  unfold recvs
  rw [Finset.sum_filter]
  apply Finset.sum_congr rfl
  intro e _
  rw [hrow e, oh_eq_toInt]

/-! ## 3. The two arrays at explicit coordinates, and the result -/

/-- The gathered array at edge `e`, channel `k`. -/
theorem gath_apply (srccol : (⟨2, ![1600000, 1]⟩ : Shape).Idx → BitVec 32)
    (dsout : (⟨2, ![100000, 64]⟩ : Shape).Idx → EReal) (e : Fin 1600000) (k : Fin 64) :
    gath srccol dsout (ix2 e k)
      = ∑ n : Fin 100000, oh n.val (srccol (ix2 e (0 : Fin 1))) * dsout (ix2 n k) := rfl

/-- The scattered array at node `v`, channel `k`. -/
theorem scat_apply (g : (⟨2, ![1600000, 64]⟩ : Shape).Idx → EReal)
    (recvrow : (⟨2, ![1, 1600000]⟩ : Shape).Idx → BitVec 32)
    (dsin : (⟨2, ![100000, 64]⟩ : Shape).Idx → EReal) (v : Fin 100000) (k : Fin 64) :
    scat g recvrow dsin (ix2 v k)
      = Ideal.div
          (dsin (ix2 v k) + ∑ e : Fin 1600000, oh v.val (recvrow (ix2 (0 : Fin 1) e)) * g (ix2 e k))
          ((∑ e : Fin 1600000, oh v.val (recvrow (ix2 (0 : Fin 1) e))) + 1) := rfl

/-- Where every source word names a node, the scattered one-hot sums of the gathered one-hot sums are the
    specification's value. -/
theorem scat_gath_eq_outAt
    (dsin dsout : (⟨2, ![100000, 64]⟩ : Shape).Idx → EReal) (idx : (⟨2, ![2, 1600000]⟩ : Shape).Idx → BitVec 32)
    (srccol : (⟨2, ![1600000, 1]⟩ : Shape).Idx → BitVec 32) (recvrow : (⟨2, ![1, 1600000]⟩ : Shape).Idx → BitVec 32)
    (hcol : ∀ e : Fin 1600000, srccol (ix2 e (0 : Fin 1)) = idx (ix2 (0 : Fin 2) e))
    (hrow : ∀ e : Fin 1600000, recvrow (ix2 (0 : Fin 1) e) = idx (ix2 (1 : Fin 2) e))
    (hsrc : ∀ e : Fin 1600000, 0 ≤ (idx (ix2 (0 : Fin 2) e)).toInt ∧ (idx (ix2 (0 : Fin 2) e)).toInt < 100000)
    (v : Fin 100000) (k : Fin 64) :
    scat (gath srccol dsout) recvrow dsin (ix2 v k) = outAt dsin dsout idx v k := by
  -- each gathered entry is the table at the row its source word names
  have hg : ∀ e : Fin 1600000,
      gath srccol dsout (ix2 e k) = dsout (ix2 (row (idx (ix2 (0 : Fin 2) e))) k) := by
    intro e
    rw [gath_apply, hcol e]
    exact sum_oh_mul_of_range _ (hsrc e).1 (hsrc e).2 (fun n => dsout (ix2 n k))
  -- the numerator's sum is the messages received
  have hmsg : ∑ e : Fin 1600000, oh v.val (recvrow (ix2 (0 : Fin 1) e)) * gath srccol dsout (ix2 e k)
      = msg dsout idx v k := by
    rw [sum_oh_mul_recvs idx recvrow hrow v (fun e => gath srccol dsout (ix2 e k))]
    unfold msg
    exact Finset.sum_congr rfl (fun e _ => hg e)
  -- the denominator's sum is the number of edges received
  have hdeg : ∑ e : Fin 1600000, oh v.val (recvrow (ix2 (0 : Fin 1) e)) = deg idx v := by
    rw [sum_oh_recvs idx recvrow hrow v]
    rfl
  rw [scat_apply, hmsg, hdeg]
  rfl

end Cert.Spec

end
-- ==== Proof.KernelIdeal.ScatterValue.lean ====
/-
  The scatter call's output array: the quotient, as one-hot sums over all edges.

  Node block nb of the output is written back once, after edge block 1249, with
  (ds_in block + message accumulator) / (degree column + 1) formed from the two sums of that point.  By induction over
  the edge blocks, after edge block eb the message accumulator holds at row r and channel d the one-hot products of
  node nb * 2000 + r against the receiver words with the gathered column d, summed over the first (eb + 1) * 1280
  edges, and the degree column holds the one-hot entries summed over the same edges; after the last edge block both
  sums run over all 1600000 edges.  The 50 written-back blocks tile the 100000 x 64 array, so the array ends at the
  plain-sum form of the scattered result.
-/
import proofs.«411144_j43404939493623_1_alg».proof.Proof.KernelIdeal.ScatterData
import proofs.«411144_j43404939493623_1_alg».proof.Proof.KernelIdeal.Payloads
import proofs.«411144_j43404939493623_1_alg».proof.Proof.SpecSums
import Idealize.ShloMosaic.Lib.Pipeline.Value
import Idealize.ShloMosaic.Lib.ValueIdx

set_option maxRecDepth 16384

noncomputable section

open scoped BigOperators

namespace Cert.KernelIdeal.Run

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## The input windows' block index at a point -/

theorem inIndex1_0 (i : grid1.Coords) : cc1_transform_0 i = ![(i 1).val, 0] := by
  have h : (i 1).val < 1250 := (i 1).isLt
  funext a
  fin_cases a
  · show (BitVec.ofNat 32 (i 1).val).toNat = (i 1).val
    rw [BitVec.toNat_ofNat]; exact Nat.mod_eq_of_lt (by omega)
  · rfl
theorem inIndex1_1 (i : grid1.Coords) : cc1_transform_1 i = ![0, (i 1).val] := by
  have h : (i 1).val < 1250 := (i 1).isLt
  funext a
  fin_cases a
  · rfl
  · show (BitVec.ofNat 32 (i 1).val).toNat = (i 1).val
    rw [BitVec.toNat_ofNat]; exact Nat.mod_eq_of_lt (by omega)
theorem inIndex1_2 (i : grid1.Coords) : cc1_transform_2 i = ![(i 0).val, 0] := by
  have h : (i 0).val < 50 := (i 0).isLt
  funext a
  fin_cases a
  · show (BitVec.ofNat 32 (i 0).val).toNat = (i 0).val
    rw [BitVec.toNat_ofNat]; exact Nat.mod_eq_of_lt (by omega)
  · rfl

/-! ## The input blocks read at an index -/

/-- Entry (j, d) of the gathered block at point `t` is the gathered array's entry for edge (t % 1250) * 1280 + j. -/
theorem iblk1_0_apply (c : Dev nD) (t : Fin cfg1.N) (j : Fin 1280) (d : Fin 64) (e : Fin 1600000) (he : e.val = t.val % 1250 * 1280 + j.val) :
    (iblk1 V c 0 t : Vec Ideal S1280x64 .bf16) (ix2 j d) = (V c main_v6 : S1600000x64.Idx → EReal) (ix2 e d) := by
  have hi : win1_0.index t = ![t.val % 1250, 0] := by
    show cc1_transform_0 (grid1.coords t) = _
    rw [inIndex1_0, coords1_1]
  unfold iblk1
  rw [View.read_apply]
  show V c main_v6 _ = V c main_v6 _
  congr 1
  funext a
  apply Fin.ext
  match a with
  | ⟨0, _⟩ => show win1_0.index t 0 * 1280 + 1 * j.val = e.val; rw [hi, he]; show t.val % 1250 * 1280 + 1 * j.val = _; omega
  | ⟨1, _⟩ => show win1_0.index t 1 * 64 + 1 * d.val = d.val; rw [hi]; show 0 * 64 + 1 * d.val = d.val; omega

/-- Entry (0, j) of the receiver block at point `t` is the receiver row's word for edge (t % 1250) * 1280 + j. -/
theorem iblk1_1_apply (c : Dev nD) (t : Fin cfg1.N) (j : Fin 1280) (e : Fin 1600000) (he : e.val = t.val % 1250 * 1280 + j.val) :
    (iblk1 V c 1 t : Vec Ideal S1x1280 .i32) (ix2 (0 : Fin 1) j) = (V c main_v5 : S1x1600000.Idx → BitVec 32) (ix2 (0 : Fin 1) e) := by
  have hi : win1_1.index t = ![0, t.val % 1250] := by
    show cc1_transform_1 (grid1.coords t) = _
    rw [inIndex1_1, coords1_1]
  unfold iblk1
  rw [View.read_apply]
  show V c main_v5 _ = V c main_v5 _
  congr 1
  funext a
  apply Fin.ext
  match a with
  | ⟨0, _⟩ => show win1_1.index t 0 * 1 + 1 * 0 = 0; rw [hi]; rfl
  | ⟨1, _⟩ => show win1_1.index t 1 * 1280 + 1 * j.val = e.val; rw [hi, he]; show t.val % 1250 * 1280 + 1 * j.val = _; omega

/-- Entry (r, d) of the ds_in block at point `t` is ds_in's entry for node (t / 1250) * 2000 + r. -/
theorem iblk1_2_apply (c : Dev nD) (t : Fin cfg1.N) (r : Fin 2000) (d : Fin 64) (v : Fin 100000) (hv : v.val = t.val / 1250 * 2000 + r.val) :
    (iblk1 V c 2 t : Vec Ideal S2000x64 .f32) (ix2 r d) = (V c main_arg0 : S100000x64.Idx → EReal) (ix2 v d) := by
  have hi : win1_2.index t = ![t.val / 1250, 0] := by
    show cc1_transform_2 (grid1.coords t) = _
    rw [inIndex1_2, coords1_0]
  unfold iblk1
  rw [View.read_apply]
  show V c main_arg0 _ = V c main_arg0 _
  congr 1
  funext a
  apply Fin.ext
  match a with
  | ⟨0, _⟩ => show win1_2.index t 0 * 2000 + 1 * r.val = v.val; rw [hi, hv]; show t.val / 1250 * 2000 + 1 * r.val = _; omega
  | ⟨1, _⟩ => show win1_2.index t 1 * 64 + 1 * d.val = d.val; rw [hi]; show 0 * 64 + 1 * d.val = d.val; omega

/-! ## The two sums after each edge block -/

/-- The receiver word of an edge NUMBER (the zero word past the last edge: never read). -/
def recvN (c : Dev nD) (e : ℕ) : BitVec 32 :=
  if h : e < 1600000 then (V c main_v5 : S1x1600000.Idx → BitVec 32) (ix2 (0 : Fin 1) ⟨e, h⟩) else 0#32
/-- The gathered array's column `d` as a function of an edge NUMBER (0 past the last edge: never read). -/
def gcol (c : Dev nD) (d : Fin 64) (e : ℕ) : EReal :=
  if h : e < 1600000 then (V c main_v6 : S1600000x64.Idx → EReal) (ix2 ⟨e, h⟩ d) else 0

/-- One edge block's contribution to the message sum, as a sum over numbers. -/
theorem block_msg (c : Dev nD) (t : Fin cfg1.N) (r : Fin 2000) (d : Fin 64) :
    (∑ j : Fin 1280, (if BitVec.ofNat 32 ((grid1.coords t 0).val * 2000 + r.val) = (iblk1 V c 1 t : Vec Ideal S1x1280 .i32) (ix2 (0 : Fin 1) j) then (1 : EReal) else 0)
        * (iblk1 V c 0 t : Vec Ideal S1280x64 .bf16) (ix2 j d))
      = ∑ j ∈ Finset.range 1280, Cert.Spec.oh (t.val / 1250 * 2000 + r.val) (recvN V c (t.val % 1250 * 1280 + j)) * gcol V c d (t.val % 1250 * 1280 + j) := by
  have hN : t.val < 62500 := lt_of_lt_of_eq t.isLt N_1
  rw [← Fin.sum_univ_eq_sum_range (fun j => Cert.Spec.oh (t.val / 1250 * 2000 + r.val) (recvN V c (t.val % 1250 * 1280 + j)) * gcol V c d (t.val % 1250 * 1280 + j)) 1280]
  refine Finset.sum_congr rfl fun j _ => ?_
  have hj : j.val < 1280 := j.isLt
  have he : t.val % 1250 * 1280 + j.val < 1600000 := by omega
  rw [coords1_0, iblk1_1_apply V c t j ⟨t.val % 1250 * 1280 + j.val, he⟩ rfl, iblk1_0_apply V c t j d ⟨t.val % 1250 * 1280 + j.val, he⟩ rfl]
  unfold Cert.Spec.oh recvN gcol
  rw [dif_pos he, dif_pos he]

/-- One edge block's contribution to the degree, as a sum over numbers. -/
theorem block_deg (c : Dev nD) (t : Fin cfg1.N) (r : Fin 2000) :
    (∑ j : Fin 1280, (if BitVec.ofNat 32 ((grid1.coords t 0).val * 2000 + r.val) = (iblk1 V c 1 t : Vec Ideal S1x1280 .i32) (ix2 (0 : Fin 1) j) then (1 : EReal) else 0))
      = ∑ j ∈ Finset.range 1280, Cert.Spec.oh (t.val / 1250 * 2000 + r.val) (recvN V c (t.val % 1250 * 1280 + j)) := by
  have hN : t.val < 62500 := lt_of_lt_of_eq t.isLt N_1
  rw [← Fin.sum_univ_eq_sum_range (fun j => Cert.Spec.oh (t.val / 1250 * 2000 + r.val) (recvN V c (t.val % 1250 * 1280 + j))) 1280]
  refine Finset.sum_congr rfl fun j _ => ?_
  have hj : j.val < 1280 := j.isLt
  have he : t.val % 1250 * 1280 + j.val < 1600000 := by omega
  rw [coords1_0, iblk1_1_apply V c t j ⟨t.val % 1250 * 1280 + j.val, he⟩ rfl]
  unfold Cert.Spec.oh recvN
  rw [dif_pos he]

/-- After edge block `eb` of node block `nb` the message accumulator holds, at row r and channel d, the one-hot
    products of node v = nb * 2000 + r with the gathered column summed over the first (eb + 1) * 1280 edges. -/
theorem acc1_sum (c : Dev nD) (r : Fin 2000) (d : Fin 64) : ∀ (eb : ℕ) (t : Fin cfg1.N), t.val % 1250 = eb →
    ∀ v : ℕ, v = t.val / 1250 * 2000 + r.val →
    acc1 V c t.val t.isLt (ix2 r d)
      = ∑ e ∈ Finset.range ((eb + 1) * 1280), Cert.Spec.oh v (recvN V c e) * gcol V c d e := by
  intro eb
  induction eb with
  | zero =>
    intro t ht v hv
    rw [acc1_first V c t ht, pay1_4_apply, pay1_1_apply, zero_add, block_msg V c t r d, ht, ← hv]
    simp only [Nat.zero_mul, Nat.zero_add, Nat.one_mul]
  | succ eb ih =>
    intro t ht v hv
    have hN : t.val < 62500 := lt_of_lt_of_eq t.isLt N_1
    have h0 : ¬t.val % 1250 = 0 := by omega
    have hprev : t.val - 1 < cfg1.N := Nat.lt_of_le_of_lt (Nat.sub_le _ _) t.isLt
    have ihp := ih ⟨t.val - 1, hprev⟩ (by show (t.val - 1) % 1250 = eb; omega) v
      (by show v = (t.val - 1) / 1250 * 2000 + r.val
          have : (t.val - 1) / 1250 = t.val / 1250 := by omega
          rw [this]; exact hv)
    rw [acc1_next V c t h0, pay1_4_apply, ihp, block_msg V c t r d, ht, ← hv]
    rw [show (eb + 1 + 1) * 1280 = (eb + 1) * 1280 + 1280 from by ring, Finset.sum_range_add]

/-- The same for the degree column: the one-hot entries summed over the first (eb + 1) * 1280 edges. -/
theorem deg1_sum (c : Dev nD) (r : Fin 2000) : ∀ (eb : ℕ) (t : Fin cfg1.N), t.val % 1250 = eb →
    ∀ v : ℕ, v = t.val / 1250 * 2000 + r.val →
    deg1 V c t.val t.isLt (ix2 r (0 : Fin 1))
      = ∑ e ∈ Finset.range ((eb + 1) * 1280), Cert.Spec.oh v (recvN V c e) := by
  intro eb
  induction eb with
  | zero =>
    intro t ht v hv
    rw [deg1_first V c t ht, pay1_5_apply, pay1_2_apply, zero_add, block_deg V c t r, ht, ← hv]
    simp only [Nat.zero_mul, Nat.zero_add, Nat.one_mul]
  | succ eb ih =>
    intro t ht v hv
    have hN : t.val < 62500 := lt_of_lt_of_eq t.isLt N_1
    have h0 : ¬t.val % 1250 = 0 := by omega
    have hprev : t.val - 1 < cfg1.N := Nat.lt_of_le_of_lt (Nat.sub_le _ _) t.isLt
    have ihp := ih ⟨t.val - 1, hprev⟩ (by show (t.val - 1) % 1250 = eb; omega) v
      (by show v = (t.val - 1) / 1250 * 2000 + r.val
          have : (t.val - 1) / 1250 = t.val / 1250 := by omega
          rw [this]; exact hv)
    rw [deg1_next V c t h0, pay1_5_apply, ihp, block_deg V c t r, ht, ← hv]
    rw [show (eb + 1 + 1) * 1280 = (eb + 1) * 1280 + 1280 from by ring, Finset.sum_range_add]

/-! ## The write-back, the cover, the array -/

/-- What the body leaves in the output buffer at point `t`: the quotient block, at its literal type. -/
def outBlk (c : Dev nD) (t : Fin cfg1.N) : Vec Ideal S2000x64 .f32 :=
  k1_pay6 (iblk1 V c 2 t) (acc1 V c t.val t.isLt) (deg1 V c t.val t.isLt)
theorem after1_3' (c : Dev nD) (t : Fin cfg1.N) : (dat1 V c).after 3 t = outBlk V c t := after1_3 V c t

/-- The output window is uncut: the block's index of (r, d), as the window re-packs it, is (r, d). -/
theorem xinj1_3 (t : Fin cfg1.N) (r : Fin 2000) (d : Fin 64) :
    (cfg1.win 3).xinj (grid1.coords t) (ix2 r d) = (ix2 r d : S2000x64.Idx) :=
  funext fun a => Fin.ext (by match a with | ⟨0, _⟩ => rfl | ⟨1, _⟩ => rfl)

/-- Reading any array through the output window's block at point `t`: the array at the block's index, embedded. -/
theorem read_blk1_3 (t : Fin cfg1.N) (G : S100000x64.Idx → EReal) (j : ((cfg1.win 3).xblock (grid1.coords t)).Idx) :
    ((cfg1.win 3).blk t).view.read (Elt Ideal) G j = G (((cfg1.win 3).blk t).view.emb j) := by
  rw [View.read_apply]; rfl

/-- What a point after the last edge block writes back is its block of the scattered result. -/
theorem flushed1_eq (c : Dev nD) (t : Fin cfg1.N) (hf : (cfg1.win 3).flush t = true) :
    (dat1 V c).flushed 3 t = ((cfg1.win 3).blk t).view.read (Elt Ideal)
      (Cert.Spec.scat (V c main_v6) (V c main_v5) (V c main_arg0)) := by
  have hN : t.val < 62500 := lt_of_lt_of_eq t.isLt N_1
  have hlast : t.val % 1250 = 1249 := (flush1_3_iff t).mp hf
  show (cfg1.win 3).cut (grid1.coords t) ((dat1 V c).after 3 t) = _
  rw [after1_3']
  funext j
  rw [read_blk1_3]
  obtain ⟨r, d, rfl⟩ : ∃ (r : Fin 2000) (d : Fin 64), j = ix2 r d := ⟨j 0, j 1, eq_ix2 j⟩
  have hr : r.val < 2000 := r.isLt
  refine (congrArg (outBlk V c t) (xinj1_3 t r d)).trans ?_
  have hi : win1_3.index t = ![t.val / 1250, 0] := by
    show cc1_transform_3 (grid1.coords t) = _
    rw [outIndex1, coords1_0]
  have hv : t.val / 1250 * 2000 + r.val < 100000 := by omega
  have hemb : ((cfg1.win 3).blk t).view.emb (ix2 r d) = ix2 (⟨t.val / 1250 * 2000 + r.val, hv⟩ : Fin 100000) d := by
    funext a
    apply Fin.ext
    match a with
    | ⟨0, _⟩ => show win1_3.index t 0 * 2000 + 1 * r.val = t.val / 1250 * 2000 + r.val; rw [hi]; show t.val / 1250 * 2000 + 1 * r.val = _; omega
    | ⟨1, _⟩ => show win1_3.index t 1 * 64 + 1 * d.val = d.val; rw [hi]; show 0 * 64 + 1 * d.val = d.val; omega
  unfold outBlk
  rw [hemb, pay1_6_apply, iblk1_2_apply V c t r d ⟨t.val / 1250 * 2000 + r.val, hv⟩ rfl,
    acc1_sum V c r d 1249 t hlast _ rfl, deg1_sum V c r 1249 t hlast _ rfl, Cert.Spec.scat_apply]
  -- the sums over the numbers below 1600000 are the sums over the edges
  rw [show (1249 + 1) * 1280 = 1600000 from by norm_num,
    ← Fin.sum_univ_eq_sum_range (fun e => Cert.Spec.oh (t.val / 1250 * 2000 + r.val) (recvN V c e) * gcol V c d e) 1600000,
    ← Fin.sum_univ_eq_sum_range (fun e => Cert.Spec.oh (t.val / 1250 * 2000 + r.val) (recvN V c e)) 1600000]
  have hm : (∑ e : Fin 1600000, Cert.Spec.oh (t.val / 1250 * 2000 + r.val) (recvN V c e.val) * gcol V c d e.val)
      = ∑ e : Fin 1600000, Cert.Spec.oh (t.val / 1250 * 2000 + r.val) ((V c main_v5 : S1x1600000.Idx → BitVec 32) (ix2 (0 : Fin 1) e))
          * (V c main_v6 : S1600000x64.Idx → EReal) (ix2 e d) :=
    Finset.sum_congr rfl fun e _ => by unfold recvN gcol; rw [dif_pos e.isLt, dif_pos e.isLt]
  have hd : (∑ e : Fin 1600000, Cert.Spec.oh (t.val / 1250 * 2000 + r.val) (recvN V c e.val))
      = ∑ e : Fin 1600000, Cert.Spec.oh (t.val / 1250 * 2000 + r.val) ((V c main_v5 : S1x1600000.Idx → BitVec 32) (ix2 (0 : Fin 1) e)) :=
    Finset.sum_congr rfl fun e _ => by unfold recvN; rw [dif_pos e.isLt]
  simp only [Fin.val_mk]
  rw [hm, hd]

/-- Every index of the output array lies in the block written back after its node block's last edge block. -/
theorem cover1 (i : S100000x64.Idx) :
    ∃ t : Fin cfg1.N, (cfg1.win 3).flush t = true ∧ i ∈ ((cfg1.win 3).blk t).view.set := by
  have h0 : (i 0).val < 100000 := (i 0).isLt
  have h1 : (i 1).val < 64 := (i 1).isLt
  have hNe : cfg1.N = 62500 := N_1
  obtain ⟨t, ht⟩ : ∃ t : Fin cfg1.N, t.val = (i 0).val / 2000 * 1250 + 1249 := ⟨⟨(i 0).val / 2000 * 1250 + 1249, by rw [hNe]; omega⟩, rfl⟩
  refine ⟨t, (flush1_3_iff t).mpr (by rw [ht]; omega), ?_⟩
  have hi : win1_3.index t = ![t.val / 1250, 0] := by
    show cc1_transform_3 (grid1.coords t) = _
    rw [outIndex1, coords1_0]
  show i ∈ ((View.whole main_v7).slice (win1_3.rect t)).set
  rw [View.set_slice_whole, Rect.mem_set_unit]
  intro a
  match a with
  | ⟨0, _⟩ =>
    show win1_3.index t 0 * 2000 ≤ (i 0).val ∧ (i 0).val < win1_3.index t 0 * 2000 + 2000
    rw [hi]; show t.val / 1250 * 2000 ≤ (i 0).val ∧ (i 0).val < t.val / 1250 * 2000 + 2000
    omega
  | ⟨1, _⟩ =>
    show win1_3.index t 1 * 64 ≤ (i 1).val ∧ (i 1).val < win1_3.index t 1 * 64 + 64
    rw [hi]; show 0 * 64 ≤ (i 1).val ∧ (i 1).val < 0 * 64 + 64
    omega

/-- THE SCATTER CALL'S OUTPUT ARRAY: the scattered result of its three input arrays, as plain one-hot sums. -/
theorem scatter_final (c : Dev nD) :
    (dat1 V c).arrAt 3 cfg1.N = Cert.Spec.scat (V c main_v6) (V c main_v5) (V c main_arg0) :=
  (dat1 V c).arrAt_eq_of_cover 3 _ (flushed1_eq V c) cover1

end Cert.KernelIdeal.Run

end
-- ==== Proof.KernelIdeal.Result.lean ====
/-
  The idealized kernel's result is the specification's value.

  The result array is what the scatter call leaves: the one-hot sums over all edges of its three input arrays.  Those
  are the gathered rows (what the gather call left: the one-hot sums over all nodes of the source column and the
  feature table), the receiver row and ds_in.  The column and the row are rows 0 and 1 of the edge list, and the two
  tables are the arguments as launched.  Where every source word names a node, the nested one-hot sums are the
  specification's value.
-/
import proofs.«411144_j43404939493623_1_alg».proof.Proof.KernelIdeal.HostReads
import proofs.«411144_j43404939493623_1_alg».proof.Proof.KernelIdeal.GatherValue
import proofs.«411144_j43404939493623_1_alg».proof.Proof.KernelIdeal.ScatterValue
import proofs.«411144_j43404939493623_1_alg».proof.Proof.SpecSums

set_option maxRecDepth 16384

noncomputable section

namespace Cert.KernelIdeal.Run

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (ρ : Dev nD → PrngReg)

/-- THE KERNEL'S RESULT at node `v`, channel `k`, for source words that are node numbers. -/
theorem result_apply (c : Dev nD)
    (hsrc : ∀ e : Fin 1600000,
      0 ≤ ((m ((c : Thread nD τ).loc main_arg2) : S2x1600000.Idx → BitVec 32) (ix2 (0 : Fin 2) e)).toInt
      ∧ ((m ((c : Thread nD τ).loc main_arg2) : S2x1600000.Idx → BitVec 32) (ix2 (0 : Fin 2) e)).toInt < 100000)
    (v : Fin 100000) (k : Fin 64) :
    ((dat1 (V2 m ρ) c).arrAt 3 cfg1.N : S100000x64.Idx → EReal) (ix2 v k)
      = Cert.Spec.outAt (m ((c : Thread nD τ).loc main_arg0)) (m ((c : Thread nD τ).loc main_arg1))
          (m ((c : Thread nD τ).loc main_arg2)) v k := by
  rw [scatter_final (V2 m ρ) c, V2_main_v6 m ρ c, gather_final (V1 m ρ) c, V1_main_arg1 m ρ c, V2_main_arg0 m ρ c, V2_main_v5 m ρ c]
  exact Cert.Spec.scat_gath_eq_outAt _ _ _ _ _ (V1_main_v4_apply m ρ c) (V1_main_v5_apply m ρ c) hsrc v k

end Cert.KernelIdeal.Run

end
-- ==== Proof.LibScatterGatherRows.lean ====
import Idealize.ShloMosaic.Lib.ValueIdx
import Idealize.ShloMosaic.PureOps.Contract
import Mathlib.Algebra.BigOperators.Group.Finset.Basic
import Mathlib.Algebra.BigOperators.Group.Finset.Piecewise

/-!
# Row gather and row scatter-add, read at an index

Two array operations over a table of `N` rows, indexed by a column of `n` integer words:

* the ROW GATHER `table[idx]`: result row `e` is the table's row named by the `e`-th index word. The
  word is read as a SIGNED integer and CLAMPED into `[0, N − 1]` (a negative word reads row `0`, a word
  past the end reads the last row); the column is kept. `gather_rows` states this for an `N × D` table at
  one element `(e, k)`, for any element type.
* the ROW SCATTER-ADD (a segment sum, `table.at[idx].add(updates)`) over the extended reals: result
  element `(v, k)` is the operand's element plus the sum of the update elements `(e, k)` over exactly
  those update rows `e` whose index word, read SIGNED and NOT clamped, EQUALS `v`. An update row whose
  index is negative or at least `N` lands nowhere and is dropped. `resultIdx_rows` says where one update
  element lands; `hostScatterAdd_rows` / `scatterAdd_rows` give the sum for an `N × D` operand, and
  `resultIdx_vec` / `hostScatterAdd_vec` / `scatterAdd_vec` the same for a vector of `N` elements
  (updates a vector of `n` elements).

Every statement is for arbitrary extents `N`, `D`, `n` and any record of dimension numbers whose lists
are the ones named by the hypotheses (one collapsed / inserted row axis `0`, the index vector on axis
`1` of the `n × 1` index column, the column axis `1` an offset / window axis), so each applies to a
concrete record with `rfl` for every list.
-/

open scoped BigOperators

namespace Cert.LibScatterGatherRows

open Idealize.ShloMosaic Idealize.ShloMosaic.ValueIdx

/-! ## The row gather -/

/-- THE ROW GATHER AT `(e, k)`: the table at row "index word `e`, read signed and clamped into
    `[0, N − 1]`", column `k`. On the row axis (collapsed, start-indexed) the operand coordinate is the
    clamped start; on the column axis (an offset axis, not start-indexed) it is the result's column. -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1)
    (x : (⟨2, ![N, D]⟩ : Shape).Idx → α) (idx : IVec ⟨2, ![n, 1]⟩ w) (e : Fin n) (k : Fin D) (hN : 0 < N) :
    Host.gather d x idx (ix2 e k) = x (ix2 ⟨min (idx (ix2 e 0)).toInt.toNat (N - 1), by omega⟩ k) := by
  -- the collapsed row axis has slice size 1, so the clamp's upper end is N − 1
  have hsl : d.sliceSizes 0 = 1 := d.slice_collapsed 0 (by rw [hcoll]; exact List.mem_singleton.mpr rfl)
  obtain ⟨off, coll, ob, sb, sim, ivd, ss, wf⟩ := d
  simp only at hoff hcoll hob hsim hivd hsl
  subst hoff hcoll hob hsim hivd
  unfold Host.gather
  congr 1
  funext a
  apply Fin.ext
  match a with
  | ⟨0, _⟩ =>
    -- the start index of result element (e, k) is read at (e, 0) of the index column
    have hsi : ∀ c, (GatherDims.siIdx ⟨[1], [0], [], sb, [0], 1, ss, wf⟩ (ix2 e k) c : (⟨2, ![n, 1]⟩ : Shape).Idx)
        = ix2 e 0 := by
      intro c
      funext b
      apply Fin.ext
      match b with
      | ⟨0, _⟩ => rfl
      | ⟨1, _⟩ =>
        have := c.isLt
        simp only [List.length_singleton] at this
        show c.val = 0
        omega
    show min (idx (GatherDims.siIdx _ _ _)).toInt.toNat (N - ss 0) + 0 + 0 = min (idx (ix2 e 0)).toInt.toNat (N - 1)
    rw [hsi, hsl]
    rfl
  | ⟨1, _⟩ =>
    -- the column axis: start 0, no batching, offset coordinate the result's column
    show GatherDims.start _ _ _ _ + GatherDims.batchCoord _ _ _ + GatherDims.offCoord _ _ _ = k.val
    rw [GatherDims.batchCoord_eq_zero _ _ _ List.not_mem_nil]
    unfold GatherDims.start GatherDims.offCoord
    split
    · next ha => exact absurd ha (show (1 : Fin 2) ∉ ([0] : List (Fin 2)) by decide)
    · split
      · rw [Nat.add_zero, Nat.zero_add]
        rfl
      · next ha => exact absurd (show (1 : Fin 2) ∈ ([1] : List (Fin 2)) by decide) ha

/-- The row gather of a table of extended reals (any float format's ideal values), at `(e, k)`. -/
theorem gather_rows_ideal {φ : FTy} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1)
    (x : FVec Ideal ⟨2, ![N, D]⟩ φ) (idx : IVec ⟨2, ![n, 1]⟩ w) (e : Fin n) (k : Fin D) (hN : 0 < N) :
    (Host.gather d x idx : FVec Ideal ⟨2, ![n, D]⟩ φ) (ix2 e k)
      = x (ix2 ⟨min (idx (ix2 e 0)).toInt.toNat (N - 1), by omega⟩ k) :=
  gather_rows d hoff hcoll hob hsim hivd x idx e k hN

/-! ## The row scatter-add over an `N × D` operand -/

/-- WHERE AN UPDATE ELEMENT LANDS: update element `(e, k')` lands on operand element `(v, k)` exactly when
    the `e`-th index word, read signed, is `v`, and the columns agree. (On the row axis the landing
    coordinate is the unclamped start plus window coordinate 0; on the column axis it is start 0 plus the
    update's column; a landing point outside the operand is no point at all.) -/
theorem resultIdx_rows {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (idx : IVec ⟨2, ![n, 1]⟩ w) (e : Fin n) (k' : Fin D) (v : Fin N) (k : Fin D) :
    d.resultIdx? (ix2 e k') idx = some (ix2 v k) ↔ (idx (ix2 e 0)).toInt = (v.val : ℤ) ∧ k' = k := by
  obtain ⟨uw, iw, sd, ivd, wf⟩ := d
  simp only at huw hiw hsd hivd
  subst huw hiw hsd hivd
  -- the start and the window coordinate on each of the two operand axes
  have hs0 : ScatterDims.start ⟨[1], [0], [0], 1, wf⟩ (ix2 e k') idx 0 = (idx (ix2 e 0)).toInt := by
    unfold ScatterDims.start
    split
    · congr 2
      funext b
      apply Fin.ext
      match b with
      | ⟨0, _⟩ => rfl
      | ⟨1, _⟩ => rfl
    · next ha => exact absurd (show (0 : Fin 2) ∈ ([0] : List (Fin 2)) by decide) ha
  have hs1 : ScatterDims.start ⟨[1], [0], [0], 1, wf⟩ (ix2 e k') idx 1 = 0 := by
    unfold ScatterDims.start
    split
    · next ha => exact absurd ha (show (1 : Fin 2) ∉ ([0] : List (Fin 2)) by decide)
    · rfl
  have hw0 : ScatterDims.window ⟨[1], [0], [0], 1, wf⟩ (ix2 e k') 0 = 0 := by
    unfold ScatterDims.window
    split
    · next ha => exact absurd ha (show (0 : Fin 2) ∉ ([1] : List (Fin 2)) by decide)
    · rfl
  have hw1 : ScatterDims.window ⟨[1], [0], [0], 1, wf⟩ (ix2 e k') 1 = k'.val := by
    unfold ScatterDims.window
    split
    · rfl
    · next ha => exact absurd (show (1 : Fin 2) ∈ ([1] : List (Fin 2)) by decide) ha
  unfold ScatterDims.resultIdx?
  split
  · next h =>
    -- the landing point is inside the operand: compare it with (v, k) coordinate by coordinate
    have h0 := h 0
    rw [hs0, hw0] at h0
    constructor
    · intro hf
      have hf' := Option.some.inj hf
      have e0 : (ScatterDims.start ⟨[1], [0], [0], 1, wf⟩ (ix2 e k') idx 0
          + (ScatterDims.window ⟨[1], [0], [0], 1, wf⟩ (ix2 e k') 0 : ℕ)).toNat = v.val :=
        congrArg (fun f : (⟨2, ![N, D]⟩ : Shape).Idx => (f 0).val) hf'
      have e1 : (ScatterDims.start ⟨[1], [0], [0], 1, wf⟩ (ix2 e k') idx 1
          + (ScatterDims.window ⟨[1], [0], [0], 1, wf⟩ (ix2 e k') 1 : ℕ)).toNat = k.val :=
        congrArg (fun f : (⟨2, ![N, D]⟩ : Shape).Idx => (f 1).val) hf'
      rw [hs0, hw0] at e0
      rw [hs1, hw1] at e1
      exact ⟨by omega, Fin.ext (by omega)⟩
    · rintro ⟨hv, rfl⟩
      congr 1
      funext a
      apply Fin.ext
      match a with
      | ⟨0, _⟩ =>
        show (ScatterDims.start ⟨[1], [0], [0], 1, wf⟩ (ix2 e k') idx 0
          + (ScatterDims.window ⟨[1], [0], [0], 1, wf⟩ (ix2 e k') 0 : ℕ)).toNat = v.val
        rw [hs0, hw0]; omega
      | ⟨1, _⟩ =>
        show (ScatterDims.start ⟨[1], [0], [0], 1, wf⟩ (ix2 e k') idx 1
          + (ScatterDims.window ⟨[1], [0], [0], 1, wf⟩ (ix2 e k') 1 : ℕ)).toNat = k'.val
        rw [hs1, hw1]; omega
  · next h =>
    -- the landing point is outside the operand: then the index word is no row of it
    constructor
    · intro hf; exact absurd hf (by simp)
    · rintro ⟨hv, rfl⟩
      exfalso
      apply h
      intro a
      match a with
      | ⟨0, _⟩ =>
        show 0 ≤ ScatterDims.start ⟨[1], [0], [0], 1, wf⟩ (ix2 e k') idx 0
            + (ScatterDims.window ⟨[1], [0], [0], 1, wf⟩ (ix2 e k') 0 : ℕ)
          ∧ ScatterDims.start ⟨[1], [0], [0], 1, wf⟩ (ix2 e k') idx 0
            + (ScatterDims.window ⟨[1], [0], [0], 1, wf⟩ (ix2 e k') 0 : ℕ) < (N : ℤ)
        rw [hs0, hw0]
        have := v.isLt
        omega
      | ⟨1, _⟩ =>
        show 0 ≤ ScatterDims.start ⟨[1], [0], [0], 1, wf⟩ (ix2 e k') idx 1
            + (ScatterDims.window ⟨[1], [0], [0], 1, wf⟩ (ix2 e k') 1 : ℕ)
          ∧ ScatterDims.start ⟨[1], [0], [0], 1, wf⟩ (ix2 e k') idx 1
            + (ScatterDims.window ⟨[1], [0], [0], 1, wf⟩ (ix2 e k') 1 : ℕ) < (D : ℤ)
        rw [hs1, hw1]
        have := k'.isLt
        omega

/-- THE ROW SCATTER-ADD AT `(v, k)`: the operand's element plus the sum, over the update rows `e` whose
    index word read signed equals `v`, of the update element `(e, k)`. The sum over all update elements
    that land on `(v, k)` splits into rows and columns; in each row only column `k` can land there. -/
theorem hostScatterAdd_rows {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (x : (⟨2, ![N, D]⟩ : Shape).Idx → EReal) (idx : IVec ⟨2, ![n, 1]⟩ w)
    (upd : (⟨2, ![n, D]⟩ : Shape).Idx → EReal) (v : Fin N) (k : Fin D) :
    Ideal.hostScatterAdd d x idx upd (ix2 v k)
      = x (ix2 v k)
        + ∑ e ∈ Finset.univ.filter (fun e : Fin n => (idx (ix2 e 0)).toInt = (v.val : ℤ)), upd (ix2 e k) := by
  classical
  unfold Ideal.hostScatterAdd
  congr 1
  rw [Finset.sum_filter, sum_idx2, Finset.sum_filter]
  refine Finset.sum_congr rfl (fun e _ => ?_)
  simp only [resultIdx_rows d huw hiw hsd hivd]
  by_cases hP : (idx (ix2 e 0)).toInt = (v.val : ℤ)
  · simp [hP]
  · simp [hP]

/-- The same for the scatter-add operation at the ideal instance (any float format). -/
theorem scatterAdd_rows {φ : FTy} {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (x : FVec Ideal ⟨2, ![N, D]⟩ φ) (idx : IVec ⟨2, ![n, 1]⟩ w)
    (upd : FVec Ideal ⟨2, ![n, D]⟩ φ) (v : Fin N) (k : Fin D) :
    Host.scatterAdd (F := Ideal) d x idx upd (ix2 v k)
      = x (ix2 v k)
        + ∑ e ∈ Finset.univ.filter (fun e : Fin n => (idx (ix2 e 0)).toInt = (v.val : ℤ)), upd (ix2 e k) := by
  unfold Host.scatterAdd
  rw [Ideal.hostScatterAdd_def]
  exact hostScatterAdd_rows d huw hiw hsd hivd x idx upd v k

/-! ## The scatter-add over a vector of `N` elements -/

/-- A rank-1 index set is its one coordinate range … -/
def idxEquiv1 {n : Nat} : (⟨1, ![n]⟩ : Shape).Idx ≃ Fin n where
  toFun i := i 0
  invFun e := ix1 e
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ e : Fin n, f (ix1 e) :=
  (Equiv.sum_comp (idxEquiv1 (n := n)).symm f).symm

/-- WHERE AN UPDATE ELEMENT LANDS, for a vector: update element `e` lands on operand element `v` exactly when
    the `e`-th index word, read signed, is `v`. -/
theorem resultIdx_vec {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (idx : IVec ⟨2, ![n, 1]⟩ w) (e : Fin n) (v : Fin N) :
    d.resultIdx? (ix1 e) idx = some (ix1 v) ↔ (idx (ix2 e 0)).toInt = (v.val : ℤ) := by
  obtain ⟨uw, iw, sd, ivd, wf⟩ := d
  simp only at huw hiw hsd hivd
  subst huw hiw hsd hivd
  have hs0 : ScatterDims.start ⟨[], [0], [0], 1, wf⟩ (ix1 e) idx 0 = (idx (ix2 e 0)).toInt := by
    unfold ScatterDims.start
    split
    · congr 2
      funext b
      apply Fin.ext
      match b with
      | ⟨0, _⟩ => rfl
      | ⟨1, _⟩ => rfl
    · next ha => exact absurd (show (0 : Fin 1) ∈ ([0] : List (Fin 1)) by decide) ha
  have hw0 : ScatterDims.window ⟨[], [0], [0], 1, wf⟩ (ix1 e) 0 = 0 := by
    unfold ScatterDims.window
    split
    · next ha => exact absurd ha (show (0 : Fin 1) ∉ ([] : List (Fin 1)) by decide)
    · rfl
  unfold ScatterDims.resultIdx?
  split
  · next h =>
    have h0 := h 0
    rw [hs0, hw0] at h0
    constructor
    · intro hf
      have hf' := Option.some.inj hf
      have e0 : (ScatterDims.start ⟨[], [0], [0], 1, wf⟩ (ix1 e) idx 0
          + (ScatterDims.window ⟨[], [0], [0], 1, wf⟩ (ix1 e) 0 : ℕ)).toNat = v.val :=
        congrArg (fun f : (⟨1, ![N]⟩ : Shape).Idx => (f 0).val) hf'
      rw [hs0, hw0] at e0
      omega
    · intro hv
      congr 1
      funext a
      apply Fin.ext
      match a with
      | ⟨0, _⟩ =>
        show (ScatterDims.start ⟨[], [0], [0], 1, wf⟩ (ix1 e) idx 0
          + (ScatterDims.window ⟨[], [0], [0], 1, wf⟩ (ix1 e) 0 : ℕ)).toNat = v.val
        rw [hs0, hw0]; omega
  · next h =>
    constructor
    · intro hf; exact absurd hf (by simp)
    · intro hv
      exfalso
      apply h
      intro a
      match a with
      | ⟨0, _⟩ =>
        show 0 ≤ ScatterDims.start ⟨[], [0], [0], 1, wf⟩ (ix1 e) idx 0
            + (ScatterDims.window ⟨[], [0], [0], 1, wf⟩ (ix1 e) 0 : ℕ)
          ∧ ScatterDims.start ⟨[], [0], [0], 1, wf⟩ (ix1 e) idx 0
            + (ScatterDims.window ⟨[], [0], [0], 1, wf⟩ (ix1 e) 0 : ℕ) < (N : ℤ)
        rw [hs0, hw0]
        have := v.isLt
        omega

/-- THE VECTOR SCATTER-ADD AT `v` (a segment sum): the operand's element plus the sum of the update elements
    `e` whose index word read signed equals `v`. -/
theorem hostScatterAdd_vec {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (x : (⟨1, ![N]⟩ : Shape).Idx → EReal) (idx : IVec ⟨2, ![n, 1]⟩ w)
    (upd : (⟨1, ![n]⟩ : Shape).Idx → EReal) (v : Fin N) :
    Ideal.hostScatterAdd d x idx upd (ix1 v)
      = x (ix1 v)
        + ∑ e ∈ Finset.univ.filter (fun e : Fin n => (idx (ix2 e 0)).toInt = (v.val : ℤ)), upd (ix1 e) := by
  classical
  unfold Ideal.hostScatterAdd
  congr 1
  rw [Finset.sum_filter, sum_idx1, Finset.sum_filter]
  refine Finset.sum_congr rfl (fun e _ => ?_)
  simp only [resultIdx_vec d huw hiw hsd hivd]

/-- The same for the scatter-add operation at the ideal instance (any float format). -/
theorem scatterAdd_vec {φ : FTy} {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (x : FVec Ideal ⟨1, ![N]⟩ φ) (idx : IVec ⟨2, ![n, 1]⟩ w)
    (upd : FVec Ideal ⟨1, ![n]⟩ φ) (v : Fin N) :
    Host.scatterAdd (F := Ideal) d x idx upd (ix1 v)
      = x (ix1 v)
        + ∑ e ∈ Finset.univ.filter (fun e : Fin n => (idx (ix2 e 0)).toInt = (v.val : ℤ)), upd (ix1 e) := by
  unfold Host.scatterAdd
  rw [Ideal.hostScatterAdd_def]
  exact hostScatterAdd_vec d huw hiw hsd hivd x idx upd v

end Cert.LibScatterGatherRows
-- ==== Proof.RefRead.lean ====
/-
  The reference program's result, read at one node v and one channel k.

  The program computes, for every node v and channel k,
      (ds_in[v, k] + the sum over the edges e received by v of ds_out[src e, k]) / (the number of those edges + 1).
  It does so in three steps that each depend on the values of the index array, and a few that do not.

  * Row 0 of the index array holds the source words.  A word that reads negative has 100000 added to it; the
    table ds_out is then read at the row "the word, read signed and clamped into [0, 99999]".  For a source word
    already in [0, 100000) the test is false, the word is kept, the clamp changes nothing, and the row read is the
    one the specification names for that word.
  * Row 1 holds the receiver words, used as they are.  A segment sum over them adds, into row v of an array of
    zeros, every gathered row e whose receiver word read signed equals v: this is the specification's message sum,
    taken over the same set of edges, with zero added in front.
  * The same segment sum of a vector of ones into a vector of zeros counts those edges; one is added to it and
    the count is copied across the 64 channels.
  The result is the quotient of (ds_in + the message sum) by (the count + 1), element by element.  The bit patterns
  0x00000000 and 0x3F800000 denote the extended reals 0 and 1.  Nothing is assumed of the two feature arrays.
-/
import proofs.«411144_j43404939493623_1_alg».proof.Defs
import proofs.«411144_j43404939493623_1_alg».proof.Proof.Gen.ReferenceIdeal.Run
import proofs.«411144_j43404939493623_1_alg».proof.Proof.Gen.ReferenceIdeal.Read
import proofs.«411144_j43404939493623_1_alg».proof.Proof.LibScatterGatherRows
import proofs.«411144_j43404939493623_1_alg».proof.Proof.Spec
import Idealize.ShloMosaic.Lib.IdealHost

noncomputable section

open scoped BigOperators

namespace Cert.ReferenceIdeal.RefValue

open Cert.ReferenceIdeal Cert.ReferenceIdeal.Gen Cert.ReferenceIdeal.Read Idealize.ShloMosaic
  Idealize.ShloMosaic.ValueIdx Cert.LibScatterGatherRows

/-! ## The index words -/

/-- Row 0 of the index array, flattened: element `e` is the source word of edge `e`. -/
theorem src_flat (x2 : IVec S2x1600000 32) (e : Fin 1600000) :
    val_main_v1 (F := Ideal) x2 (ix1 e) = x2 (ix2 (0 : Fin 2) e) := by
  rw [val_main_v1_apply, val_main_v0_apply]
  congr 1
  funext a
  apply Fin.ext
  match a with
  | ⟨0, _⟩ => rfl
  | ⟨1, _⟩ => exact Nat.mod_eq_of_lt e.isLt

/-- Row 1 of the index array, flattened: element `e` is the receiver word of edge `e`. -/
theorem recv_flat (x2 : IVec S2x1600000 32) (e : Fin 1600000) :
    val_main_v3 (F := Ideal) x2 (ix1 e) = x2 (ix2 (1 : Fin 2) e) := by
  rw [val_main_v3_apply, val_main_v2_apply]
  congr 1
  funext a
  apply Fin.ext
  match a with
  | ⟨0, _⟩ => rfl
  | ⟨1, _⟩ => exact Nat.mod_eq_of_lt e.isLt

/-- A word that does not read negative fails the signed test "below zero". -/
theorem cmpi_slt_zero_of_nonneg (w : BitVec 32) (h : 0 ≤ w.toInt) : IntOp.cmpi .slt w 0#32 = 0#1 := by
  have hf : w.slt 0#32 = false := by
    rw [BitVec.slt, decide_eq_false_iff_not]
    simpa using h
  show BitVec.ofBool (w.slt 0#32) = 0#1
  rw [hf]
  rfl

/-- The source column the gather reads: a source word in range is kept as it is (the wrap of negative words
    does not touch it). -/
theorem src_col (x2 : IVec S2x1600000 32) (e : Fin 1600000) (h0 : 0 ≤ (x2 (ix2 (0 : Fin 2) e)).toInt) :
    val_main_v9 (F := Ideal) x2 (ix2 e 0) = x2 (ix2 (0 : Fin 2) e) := by
  have hi : idx_main_v9 (ix2 e (0 : Fin 1)) = ix1 e := by
    funext a; apply Fin.ext; match a with | ⟨0, _⟩ => rfl
  rw [val_main_v9_apply, hi, val_main_v8_apply, val_main_v5_apply, src_flat, val_main_v4_apply, val_main_c_apply,
    cmpi_slt_zero_of_nonneg _ h0, select_zero]

/-- The receiver column of the first segment sum: the receiver words, as they are. -/
theorem recv_col12 (x2 : IVec S2x1600000 32) (e : Fin 1600000) :
    val_main_v12 (F := Ideal) x2 (ix2 e 0) = x2 (ix2 (1 : Fin 2) e) := by
  have hi : idx_main_v12 (ix2 e (0 : Fin 1)) = ix1 e := by
    funext a; apply Fin.ext; match a with | ⟨0, _⟩ => rfl
  rw [val_main_v12_apply, hi, recv_flat]

/-- The receiver column of the second segment sum: the same words. -/
theorem recv_col16 (x2 : IVec S2x1600000 32) (e : Fin 1600000) :
    val_main_v16 (F := Ideal) x2 (ix2 e 0) = x2 (ix2 (1 : Fin 2) e) := by
  have hi : idx_main_v16 (ix2 e (0 : Fin 1)) = ix1 e := by
    funext a; apply Fin.ext; match a with | ⟨0, _⟩ => rfl
  rw [val_main_v16_apply, hi, recv_flat]

/-! ## The three stages that depend on the index words -/

/-- THE GATHER at edge `e`, channel `k`: for a source word in range, the table's row that the specification names
    for the word. -/
theorem gather_at (x1 : FVec Ideal S100000x64 .f32) (x2 : IVec S2x1600000 32) (e : Fin 1600000) (k : Fin 64)
    (h0 : 0 ≤ (x2 (ix2 (0 : Fin 2) e)).toInt) (h1 : (x2 (ix2 (0 : Fin 2) e)).toInt < 100000) :
    val_main_v10 (F := Ideal) x1 x2 (ix2 e k) = x1 (ix2 (Cert.Spec.row (x2 (ix2 (0 : Fin 2) e))) k) := by
  unfold val_main_v10
  rw [gather_rows_ideal gather_S100000x64_S1600000x1_S1600000x64_1_0_n_n_0_1_164 rfl rfl rfl rfl rfl x1
    (val_main_v9 (F := Ideal) x2) e k (by norm_num)]
  congr 2
  apply Fin.ext
  show min (val_main_v9 (F := Ideal) x2 (ix2 e 0)).toInt.toNat (100000 - 1) = (Cert.Spec.row (x2 (ix2 (0 : Fin 2) e))).val
  rw [src_col x2 e h0]
  have hr := Cert.Spec.row_val_of_range (x2 (ix2 (0 : Fin 2) e)) h0 h1
  omega

/-- THE FIRST SEGMENT SUM at node `v`, channel `k`: zero plus the sum of the gathered rows of the edges whose
    receiver word, read signed, is `v`. -/
theorem seg_rows_at (x1 : FVec Ideal S100000x64 .f32) (x2 : IVec S2x1600000 32) (v : Fin 100000) (k : Fin 64) :
    val_main_v13 (F := Ideal) x1 x2 (ix2 v k)
      = 0 + ∑ e ∈ Cert.Spec.recvs x2 v, val_main_v10 (F := Ideal) x1 x2 (ix2 e k) := by
  unfold val_main_v13
  rw [scatterAdd_rows scatter_S100000x64_S1600000x1_S1600000x64_1_0_0_1 rfl rfl rfl rfl (val_main_v11 (F := Ideal))
    (val_main_v12 (F := Ideal) x2) (val_main_v10 (F := Ideal) x1 x2) v k]
  rw [val_main_v11_apply, val_main_cst_apply, Ideal.ofBits_def, Ideal.ofBits_zero_f32]
  unfold Cert.Spec.recvs
  simp only [recv_col12]

/-- THE SECOND SEGMENT SUM at node `v`: zero plus one for every edge whose receiver word, read signed, is `v`. -/
theorem seg_ones_at (x2 : IVec S2x1600000 32) (v : Fin 100000) :
    val_main_v17 (F := Ideal) x2 (ix1 v) = 0 + ∑ _e ∈ Cert.Spec.recvs x2 v, (1 : EReal) := by
  unfold val_main_v17
  rw [scatterAdd_vec scatter_S100000_S1600000x1_S1600000_n_0_0_1 rfl rfl rfl rfl (val_main_v15 (F := Ideal))
    (val_main_v16 (F := Ideal) x2) (val_main_v14 (F := Ideal)) v]
  rw [val_main_v15_apply, val_main_cst_2_apply, Ideal.ofBits_def, Ideal.ofBits_zero_f32]
  unfold Cert.Spec.recvs
  simp only [recv_col16, val_main_v14_apply, val_main_cst_1_apply, Ideal.ofBits_def, Ideal.ofBits_one_f32]

/-! ## The result -/

/-- The divisor at node `v`, in any channel: the count of the edges `v` receives, plus one. -/
theorem divisor_at (x2 : IVec S2x1600000 32) (v : Fin 100000) (k : Fin 64) :
    val_main_v22 (F := Ideal) x2 (ix2 v k) = Cert.Spec.deg x2 v + 1 := by
  have hi : idx_main_v21 (idx_main_v22 (ix2 v k)) = ix1 v := by
    funext a; apply Fin.ext; match a with | ⟨0, _⟩ => rfl
  rw [val_main_v22_apply, val_main_v21_apply, hi, val_main_v20_apply, Ideal.addf_def, seg_ones_at, zero_add,
    val_main_v19_apply, val_main_cst_3_apply, Ideal.ofBits_def, Ideal.ofBits_one_f32]
  rfl

/-- THE REFERENCE'S RESULT at node `v`, channel `k`, for source words that are node numbers: the specification's
    value there. -/
theorem ref_apply (x0 x1 : FVec Ideal Cert.ReferenceIdeal.S100000x64 .f32) (x2 : IVec Cert.ReferenceIdeal.S2x1600000 32)
    (hsrc : ∀ e : Fin 1600000, 0 ≤ (x2 (ix2 (0 : Fin 2) e)).toInt ∧ (x2 (ix2 (0 : Fin 2) e)).toInt < 100000)
    (v : Fin 100000) (k : Fin 64) :
    Cert.ReferenceIdeal.Read.val_main_v23 (F := Ideal) x0 x1 x2 (ix2 v k) = Cert.Spec.outAt x0 x1 x2 v k := by
  -- the gathered rows, summed over the edges v receives, are the specification's messages
  have hmsg : ∑ e ∈ Cert.Spec.recvs x2 v, val_main_v10 (F := Ideal) x1 x2 (ix2 e k) = Cert.Spec.msg x1 x2 v k :=
    Finset.sum_congr rfl fun e _ => gather_at x1 x2 e k (hsrc e).1 (hsrc e).2
  rw [val_main_v23_apply, Ideal.hostDivf_def, val_main_v18_apply, Ideal.addf_def, divisor_at, seg_rows_at, zero_add,
    hmsg]
  rfl

end Cert.ReferenceIdeal.RefValue

end
-- ==== Proof.lean ====
/-
  Scatter-mean message passing: the kernel against its reference.

  For 100000 nodes with 64 channels and 1600000 edges (source, receiver), both programs compute, at node v and channel k,
      (ds_in[v, k] + the sum over the edges e received by v of ds_out[src e, k]) / (the number of those edges + 1).
  The reference gathers the source rows and takes two segment sums over the receivers.  The kernel has no gather and no
  scatter: it multiplies by one-hot matrices.  A first call, over 800 edge blocks by 50 node blocks, accumulates
  (source word = node number) times the feature table and leaves every edge's source row; a second, over 50 node blocks
  by 1250 edge blocks, accumulates (node number = receiver word) times those rows, and the same one-hot entries alone,
  and at the last edge block divides.  A one-hot factor of 0 annihilates its term whatever extended real the other
  factor is, so the sums over all nodes and all edges are the reference's, provided every source word names a node:
  outside [0, 100000) the reference reads a wrapped or clamped row where the one-hot sum is 0, and the precondition
  says that every source index lies in that range.  A receiver that is no node is dropped by both programs.

  The three frames: each kernel's run is the launch over @main's three items with each call's body run once per control
  case at a symbolic grid point, the accumulators tracked by recursion on the point; the reference's is its run with the
  result dropped.  The idealization's one rewrite, a rounding to bf16 read back at f32 taken as the identity, is the
  rule's own statement.  For the algebraic claim the kernel's result array is read off the launch, the reference's off
  its run, and both are the specification's value index by index.
-/
import proofs.«411144_j43404939493623_1_alg».proof.Defs
import proofs.«411144_j43404939493623_1_alg».proof.Proof.Gen.Kernel
import proofs.«411144_j43404939493623_1_alg».proof.Proof.Gen.KernelIdeal
import proofs.«411144_j43404939493623_1_alg».proof.Proof.Gen.ReferenceIdeal
import proofs.«411144_j43404939493623_1_alg».proof.Proof.Gen.Pre_finite_inputs
import proofs.«411144_j43404939493623_1_alg».proof.Proof.Kernel.MainRun
import proofs.«411144_j43404939493623_1_alg».proof.Proof.KernelIdeal.Result
import proofs.«411144_j43404939493623_1_alg».proof.Proof.RefRead
import proofs.«411144_j43404939493623_1_alg».proof.Proof.SrcRange
import Idealize.ShloMosaic.Adequacy
import Idealize.ShloMosaic.Init

noncomputable section

namespace Cert.Proof

open Idealize.ShloMosaic Idealize.ShloMosaic.ValueIdx Idealize.SL.Sem

/-- The word-level kernel runs to the end, faults nowhere, and leaves its arguments as launched. -/
theorem frame_k : Cert.frame_Kernel := fun m ρ _ => Cert.Kernel.Run.frame (F := Bits) m ρ

/-- So does the idealized kernel. -/
theorem frame_ki : Cert.frame_KernelIdeal := fun m ρ _ => Cert.KernelIdeal.Run.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization's one rewrite: a value rounded to bf16 and read back at f32 is taken as the value. -/
theorem preserves : Cert.preserves_Kernel_KernelIdeal :=
  IdealRules.truncf_extf.statement _ .f32 .bf16

/-- Over the extended reals the idealized kernel and the reference end with one result: the specification's value
    at every node and channel, the kernel's read off the launch and the reference's off its run, the source range
    taken from the precondition. -/
theorem algebraic : Cert.algebraic_KernelIdeal_ReferenceIdeal := by
  intro m ρ m' ρ' hpre hagree
  refine ⟨fun c => (Cert.KernelIdeal.Run.dat1 (Cert.KernelIdeal.Run.V2 m ρ) c).arrAt 3 Cert.KernelIdeal.cfg1.N,
    Cert.KernelIdeal.Run.run_out (F := Ideal) m ρ, ?_⟩
  refine (θ_run Cert.ReferenceIdeal.defs _ _).mono (fun r h c => ⟨(h c).1.trans ?_, (h c).2⟩)
    (Cert.ReferenceIdeal.Value.run (F := Ideal) m' ρ')
  have hsrc := fun e => Cert.SrcRange.src_range _ _ _ (hpre c) e
  rw [(hagree c).1, (hagree c).2.1, (hagree c).2.2, Cert.ReferenceIdeal.Read.val_main_v23_eq]
  funext j
  obtain ⟨v, k, rfl⟩ : ∃ (v : Fin 100000) (k : Fin 64), j = ix2 v k := ⟨j 0, j 1, eq_ix2 j⟩
  rw [Cert.ReferenceIdeal.RefValue.ref_apply _ _ _ hsrc v k]
  exact (Cert.KernelIdeal.Run.result_apply m ρ c hsrc v k).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
